-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg1 : IVec S2x800000 32) (main_arg19 : FVec F S40 .f32) (main_v81 : IVec S_ 1) (main_v84 : IVec S256x40 1) : IVec S_ 1 :=
  let main_c_33 : IVec S_ 1 := constantI S_ 1 1#1
  let main_v85 : IVec S_ 1 := (fun x v => Host.reduce IntOp.andi x v reducesTo_S256x40_S_d0_1 h_S_) main_v84 main_c_33
  let main_v86 : IVec S_ 1 := andi main_v81 main_v85
  let main_v87 : FVec F S40 .f32 := Host.absf main_arg19
  let main_cst_34 : FVec F S_ .f32 := constant S_ .f32 0x7F800000#32
  let main_v88 : FVec F S40 .f32 := broadcastInDim S40 ![] bcast_S_S40 main_cst_34
  let main_v89 : IVec S40 1 := cmpf .olt main_v87 main_v88
  let main_c_35 : IVec S_ 1 := constantI S_ 1 1#1
  let main_v90 : IVec S_ 1 := (fun x v => Host.reduce IntOp.andi x v reducesTo_S40_S_d0 h_S_) main_v89 main_c_35
  let main_v91 : IVec S_ 1 := andi main_v86 main_v90
  let main_v92 : IVec S1x800000 32 := (extractStridedSlice S1x800000 ![0, 0] · slices_S2x800000_S1x800000_0_0) main_arg1
  let main_v93 : IVec S800000 32 := shapeCast S800000 main_v92 shapeCasts_S1x800000_S800000
  let main_c_36 : IVec S_ 32 := constantI S_ 32 0#32
  let main_v94 : IVec S800000 32 := broadcastInDim S800000 ![] bcast_S_S800000 main_c_36
  let main_v95 : IVec S800000 1 := cmpi .sge main_v93 main_v94
  let main_v96 : IVec S1x800000 32 := (extractStridedSlice S1x800000 ![0, 0] · slices_S2x800000_S1x800000_0_0) main_arg1
  let main_v97 : IVec S800000 32 := shapeCast S800000 main_v96 shapeCasts_S1x800000_S800000
  let main_c_37 : IVec S_ 32 := constantI S_ 32 50000#32
  let main_v98 : IVec S800000 32 := broadcastInDim S800000 ![] bcast_S_S800000 main_c_37
  let main_v99 : IVec S800000 1 := cmpi .slt main_v97 main_v98
  let main_v100 : IVec S800000 1 := andi main_v95 main_v99
  let main_c_38 : IVec S_ 1 := constantI S_ 1 1#1
  let main_v101 : IVec S_ 1 := (fun x v => Host.reduce IntOp.andi x v reducesTo_S800000_S_d0 h_S_) main_v100 main_c_38
  let main_v102 : IVec S_ 1 := andi main_v91 main_v101
  main_v102

def fn_part4 {F : FTy → Type} [FloatOps F] (main_arg1 : IVec S2x800000 32) (main_arg16 : FVec F S256 .f32) (main_arg17 : FVec F S256 .f32) (main_arg18 : FVec F S256x40 .f32) (main_arg19 : FVec F S40 .f32) (main_v66 : IVec S_ 1) (main_v67 : FVec F S256 .f32) : IVec S_ 1 :=
  let main_cst_26 : FVec F S_ .f32 := constant S_ .f32 0x7F800000#32
  let main_v68 : FVec F S256 .f32 := broadcastInDim S256 ![] bcast_S_S256 main_cst_26
  let main_v69 : IVec S256 1 := cmpf .olt main_v67 main_v68
  let main_c_27 : IVec S_ 1 := constantI S_ 1 1#1
  let main_v70 : IVec S_ 1 := (fun x v => Host.reduce IntOp.andi x v reducesTo_S256_S_d0 h_S_) main_v69 main_c_27
  let main_v71 : IVec S_ 1 := andi main_v66 main_v70
  let main_v72 : FVec F S256 .f32 := Host.absf main_arg16
  let main_cst_28 : FVec F S_ .f32 := constant S_ .f32 0x7F800000#32
  let main_v73 : FVec F S256 .f32 := broadcastInDim S256 ![] bcast_S_S256 main_cst_28
  let main_v74 : IVec S256 1 := cmpf .olt main_v72 main_v73
  let main_c_29 : IVec S_ 1 := constantI S_ 1 1#1
  let main_v75 : IVec S_ 1 := (fun x v => Host.reduce IntOp.andi x v reducesTo_S256_S_d0 h_S_) main_v74 main_c_29
  let main_v76 : IVec S_ 1 := andi main_v71 main_v75
  let main_v77 : FVec F S256 .f32 := Host.absf main_arg17
  let main_cst_30 : FVec F S_ .f32 := constant S_ .f32 0x7F800000#32
  let main_v78 : FVec F S256 .f32 := broadcastInDim S256 ![] bcast_S_S256 main_cst_30
  let main_v79 : IVec S256 1 := cmpf .olt main_v77 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v76 main_v80
  let main_v82 : FVec F S256x40 .f32 := Host.absf main_arg18
  let main_cst_32 : FVec F S_ .f32 := constant S_ .f32 0x7F800000#32
  let main_v83 : FVec F S256x40 .f32 := broadcastInDim S256x40 ![] bcast_S_S256x40 main_cst_32
  let main_v84 : IVec S256x40 1 := cmpf .olt main_v82 main_v83
  fn_part5 (F := F) main_arg1 main_arg19 main_v81 main_v84

def fn_part3 {F : FTy → Type} [FloatOps F] (main_arg1 : IVec S2x800000 32) (main_arg12 : FVec F S256 .f32) (main_arg13 : FVec F S256 .f32) (main_arg14 : FVec F S256x256 .f32) (main_arg15 : FVec F S256 .f32) (main_arg16 : FVec F S256 .f32) (main_arg17 : FVec F S256 .f32) (main_arg18 : FVec F S256x40 .f32) (main_arg19 : FVec F S40 .f32) (main_v46 : IVec S_ 1) (main_v49 : IVec S256 1) (main_c_19 : IVec S_ 1) : IVec S_ 1 :=
  let main_v50 : IVec S_ 1 := (fun x v => Host.reduce IntOp.andi x v reducesTo_S256_S_d0 h_S_) main_v49 main_c_19
  let main_v51 : IVec S_ 1 := andi main_v46 main_v50
  let main_v52 : FVec F S256 .f32 := Host.absf main_arg12
  let main_cst_20 : FVec F S_ .f32 := constant S_ .f32 0x7F800000#32
  let main_v53 : FVec F S256 .f32 := broadcastInDim S256 ![] bcast_S_S256 main_cst_20
  let main_v54 : IVec S256 1 := cmpf .olt main_v52 main_v53
  let main_c_21 : IVec S_ 1 := constantI S_ 1 1#1
  let main_v55 : IVec S_ 1 := (fun x v => Host.reduce IntOp.andi x v reducesTo_S256_S_d0 h_S_) main_v54 main_c_21
  let main_v56 : IVec S_ 1 := andi main_v51 main_v55
  let main_v57 : FVec F S256 .f32 := Host.absf main_arg13
  let main_cst_22 : FVec F S_ .f32 := constant S_ .f32 0x7F800000#32
  let main_v58 : FVec F S256 .f32 := broadcastInDim S256 ![] bcast_S_S256 main_cst_22
  let main_v59 : IVec S256 1 := cmpf .olt main_v57 main_v58
  let main_c_23 : IVec S_ 1 := constantI S_ 1 1#1
  let main_v60 : IVec S_ 1 := (fun x v => Host.reduce IntOp.andi x v reducesTo_S256_S_d0 h_S_) main_v59 main_c_23
  let main_v61 : IVec S_ 1 := andi main_v56 main_v60
  let main_v62 : FVec F S256x256 .f32 := Host.absf main_arg14
  let main_cst_24 : FVec F S_ .f32 := constant S_ .f32 0x7F800000#32
  let main_v63 : FVec F S256x256 .f32 := broadcastInDim S256x256 ![] bcast_S_S256x256 main_cst_24
  let main_v64 : IVec S256x256 1 := cmpf .olt main_v62 main_v63
  let main_c_25 : IVec S_ 1 := constantI S_ 1 1#1
  let main_v65 : IVec S_ 1 := (fun x v => Host.reduce IntOp.andi x v reducesTo_S256x256_S_d0_1 h_S_) main_v64 main_c_25
  let main_v66 : IVec S_ 1 := andi main_v61 main_v65
  let main_v67 : FVec F S256 .f32 := Host.absf main_arg15
  fn_part4 (F := F) main_arg1 main_arg16 main_arg17 main_arg18 main_arg19 main_v66 main_v67

def fn_part2 {F : FTy → Type} [FloatOps F] (main_arg1 : IVec S2x800000 32) (main_arg9 : FVec F S_ .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256 .f32) (main_arg17 : FVec F S256 .f32) (main_arg18 : FVec F S256x40 .f32) (main_arg19 : FVec F S40 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S_ .f32 := Host.absf main_arg9
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S256x256 .f32 := Host.absf main_arg10
  let main_cst_16 : FVec F S_ .f32 := constant S_ .f32 0x7F800000#32
  let main_v43 : FVec F S256x256 .f32 := broadcastInDim S256x256 ![] bcast_S_S256x256 main_cst_16
  let main_v44 : IVec S256x256 1 := cmpf .olt main_v42 main_v43
  let main_c_17 : IVec S_ 1 := constantI S_ 1 1#1
  let main_v45 : IVec S_ 1 := (fun x v => Host.reduce IntOp.andi x v reducesTo_S256x256_S_d0_1 h_S_) main_v44 main_c_17
  let main_v46 : IVec S_ 1 := andi main_v41 main_v45
  let main_v47 : FVec F S256 .f32 := Host.absf main_arg11
  let main_cst_18 : FVec F S_ .f32 := constant S_ .f32 0x7F800000#32
  let main_v48 : FVec F S256 .f32 := broadcastInDim S256 ![] bcast_S_S256 main_cst_18
  let main_v49 : IVec S256 1 := cmpf .olt main_v47 main_v48
  let main_c_19 : IVec S_ 1 := constantI S_ 1 1#1
  fn_part3 (F := F) main_arg1 main_arg12 main_arg13 main_arg14 main_arg15 main_arg16 main_arg17 main_arg18 main_arg19 main_v46 main_v49 main_c_19

def fn_part1 {F : FTy → Type} [FloatOps F] (main_arg1 : IVec S2x800000 32) (main_arg5 : FVec F S256 .f32) (main_arg6 : FVec F S256 .f32) (main_arg7 : FVec F S256x256 .f32) (main_arg8 : FVec F S256 .f32) (main_arg9 : FVec F S_ .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256 .f32) (main_arg17 : FVec F S256 .f32) (main_arg18 : FVec F S256x40 .f32) (main_arg19 : FVec F S40 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256 .f32 := Host.absf main_arg5
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256x256 .f32 := Host.absf main_arg7
  let main_cst_10 : FVec F S_ .f32 := constant S_ .f32 0x7F800000#32
  let main_v29 : FVec F S256x256 .f32 := broadcastInDim S256x256 ![] bcast_S_S256x256 main_cst_10
  let main_v30 : IVec S256x256 1 := cmpf .olt main_v28 main_v29
  let main_c_11 : IVec S_ 1 := constantI S_ 1 1#1
  let main_v31 : IVec S_ 1 := (fun x v => Host.reduce IntOp.andi x v reducesTo_S256x256_S_d0_1 h_S_) main_v30 main_c_11
  let main_v32 : IVec S_ 1 := andi main_v27 main_v31
  let main_v33 : FVec F S256 .f32 := Host.absf main_arg8
  fn_part2 (F := F) main_arg1 main_arg9 main_arg10 main_arg11 main_arg12 main_arg13 main_arg14 main_arg15 main_arg16 main_arg17 main_arg18 main_arg19 main_v32 main_v33

def fn {F : FTy → Type} [FloatOps F] (main_arg0 : FVec F S50000x128 .f32) (main_arg1 : IVec S2x800000 32) (main_arg2 : FVec F S_ .f32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S_ .f32) (main_arg10 : FVec F S256x256 .f32) (main_arg11 : FVec F S256 .f32) (main_arg12 : FVec F S256 .f32) (main_arg13 : FVec F S256 .f32) (main_arg14 : FVec F S256x256 .f32) (main_arg15 : FVec F S256 .f32) (main_arg16 : FVec F S256 .f32) (main_arg17 : FVec F S256 .f32) (main_arg18 : FVec F S256x40 .f32) (main_arg19 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg3
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg4
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg1 main_arg5 main_arg6 main_arg7 main_arg8 main_arg9 main_arg10 main_arg11 main_arg12 main_arg13 main_arg14 main_arg15 main_arg16 main_arg17 main_arg18 main_arg19 main_v12 main_v15 main_c_5
-- ==== Kernel.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 198
  | .vmem => 42
  | .smem => 0
  | _ => 0

abbrev hbmTy0_0 (i : Nat) : BufTy := match i % 128 with
  | 0 => ⟨S50000x128, .f32⟩
  | 1 => ⟨S2x800000, .i32⟩
  | 2 => ⟨S_, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S_, .f32⟩
  | 10 => ⟨S256x256, .f32⟩
  | 11 => ⟨S256, .f32⟩
  | 12 => ⟨S256, .f32⟩
  | 13 => ⟨S256, .f32⟩
  | 14 => ⟨S256x256, .f32⟩
  | 15 => ⟨S256, .f32⟩
  | 16 => ⟨S256, .f32⟩
  | 17 => ⟨S256, .f32⟩
  | 18 => ⟨S256x40, .f32⟩
  | 19 => ⟨S40, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x128, .f32⟩
  | 43 => ⟨S800000x128, .i1⟩
  | 44 => ⟨S_, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S_, .f32⟩
  | 52 => ⟨S_, .f32⟩
  | 53 => ⟨S50000x128, .f32⟩
  | 54 => ⟨S50000x128, .f32⟩
  | 55 => ⟨S50000x128, .f32⟩
  | 56 => ⟨S1x256, .f32⟩
  | 57 => ⟨S50000x256, .f32⟩
  | 58 => ⟨S_, .f32⟩
  | 59 => ⟨S256, .f32⟩
  | 60 => ⟨S_, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S50000x256, .f32⟩
  | 71 => ⟨S50000x256, .f32⟩
  | 72 => ⟨S50000x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S50000x256, .f32⟩
  | 92 => ⟨S1x800000, .i32⟩
  | 93 => ⟨S800000, .i32⟩
  | 94 => ⟨S1x800000, .i32⟩
  | 95 => ⟨S800000, .i32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x256, .f32⟩
  | 115 => ⟨S800000x256, .i1⟩
  | 116 => ⟨S_, .f32⟩
  | 117 => ⟨S800000x256, .f32⟩
  | 118 => ⟨S800000x256, .f32⟩
  | 119 => ⟨S_, .f32⟩
  | 120 => ⟨S50000x256, .f32⟩
  | 121 => ⟨S800000x1, .i32⟩
  | 122 => ⟨S50000x256, .f32⟩
  | 123 => ⟨S_, .f32⟩
  | 124 => ⟨S_, .f32⟩
  | 125 => ⟨S50000x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S_, .f32⟩
  | 3 => ⟨S256, .f32⟩
  | 4 => ⟨S_, .f32⟩
  | 5 => ⟨S256, .f32⟩
  | 6 => ⟨S256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S50000x256, .f32⟩
  | 15 => ⟨S50000x256, .f32⟩
  | 16 => ⟨S50000x256, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S_, .f32⟩
  | 25 => ⟨S_, .i1⟩
  | 26 => ⟨S_, .f32⟩
  | 27 => ⟨S_, .f32⟩
  | 28 => ⟨S256, .f32⟩
  | 29 => ⟨S256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S50000x256, .f32⟩
  | 49 => ⟨S50000x256, .f32⟩
  | 50 => ⟨S50000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S1x256, .f32⟩
  | 66 => ⟨S1x256, .f32⟩
  | 67 => ⟨S1x256, .f32⟩
  | 68 => ⟨S1x40, .f32⟩
  | 69 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S256x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S256x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_0 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_1 : Ref sig .tc := ⟨.hbm, 58, rfl⟩
abbrev main_v14 : Ref sig .tc := ⟨.hbm, 59, rfl⟩
abbrev main_cst_2 : Ref sig .tc := ⟨.hbm, 60, rfl⟩
abbrev main_v15 : Ref sig .tc := ⟨.hbm, 61, rfl⟩
abbrev main_v16 : Ref sig .tc := ⟨.hbm, 62, rfl⟩
abbrev main_c : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_cst_3 : Ref sig .tc := ⟨.hbm, 80, rfl⟩
abbrev main_call1_v12 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v28 : Ref sig .tc := ⟨.hbm, 118, rfl⟩
abbrev main_cst_3 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_cst_4 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_cst_5 : Ref sig .tc := ⟨.hbm, 130, rfl⟩
abbrev main_v38 : Ref sig .tc := ⟨.hbm, 131, rfl⟩
abbrev main_cst_6 : Ref sig .tc := ⟨.hbm, 132, rfl⟩
abbrev main_v39 : Ref sig .tc := ⟨.hbm, 133, rfl⟩
abbrev main_v40 : Ref sig .tc := ⟨.hbm, 134, rfl⟩
abbrev main_c_7 : Ref sig .tc := ⟨.hbm, 135, rfl⟩
abbrev main_call3_cst : Ref sig .tc := ⟨.hbm, 136, rfl⟩
abbrev main_call3_v0 : Ref sig .tc := ⟨.hbm, 137, rfl⟩
abbrev main_call3_v1 : Ref sig .tc := ⟨.hbm, 138, rfl⟩
abbrev main_call3_cst_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_cst_1 : Ref sig .tc := ⟨.hbm, 146, rfl⟩
abbrev main_call3_v8 : Ref sig .tc := ⟨.hbm, 147, rfl⟩
abbrev main_call3_cst_2 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_cst_3 : Ref sig .tc := ⟨.hbm, 152, rfl⟩
abbrev main_call3_v12 : Ref sig .tc := ⟨.hbm, 153, rfl⟩
abbrev main_call3_cst_4 : Ref sig .tc := ⟨.hbm, 154, rfl⟩
abbrev main_call3_call0_v0 : Ref sig .tc := ⟨.hbm, 155, rfl⟩
abbrev main_call3_call0_v1 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_cst_8 : Ref sig .tc := ⟨.hbm, 164, rfl⟩
abbrev main_v48 : Ref sig .tc := ⟨.hbm, 165, rfl⟩
abbrev main_cst_9 : Ref sig .tc := ⟨.hbm, 166, rfl⟩
abbrev main_v49 : Ref sig .tc := ⟨.hbm, 167, rfl⟩
abbrev main_v50 : Ref sig .tc := ⟨.hbm, 168, rfl⟩
abbrev main_c_10 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_v56 : Ref sig .tc := ⟨.hbm, 196, rfl⟩
abbrev main_v57 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem7_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x40 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S40_S1x40 : S40.ShapeCasts S1x40
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S50000x256.size a
  hwx1_7 : ∀ i : grid1.Coords, EltTy.bits .f32 = 32 ∨ (Rect.block (s := S50000x256) S5000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S50000x256.size a
  hwx3_7 : ∀ i : grid3.Coords, EltTy.bits .f32 = 32 ∨ (Rect.block (s := S50000x256) S5000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x40.size a ≤ S256x40.size a
  hwx4_5 : ∀ i : grid4.Coords, EltTy.bits .f32 = 32 ∨ (Rect.block (s := S256x40) S256x40.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x40.size a ≤ S1x40.size a
  hwx4_6 : ∀ i : grid4.Coords, EltTy.bits .f32 = 32 ∨ (Rect.block (s := S1x40) S1x40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x40.size a ≤ S50000x40.size a
  hwx4_7 : ∀ i : grid4.Coords, EltTy.bits .f32 = 32 ∨ (Rect.block (s := S50000x40) S5000x40.size (cc4_transform_7 i) (hinb4_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S5000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v35) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S5000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v47) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S256x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v56) S1x40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v57) S5000x40.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S_ : Shape := ⟨0, ![]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x40 : Shape := ⟨2, ![50000, 40]⟩
abbrev S1x40 : Shape := ⟨2, ![1, 40]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S2x800000, .i32⟩
  | 2 => ⟨S_, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S_, .f32⟩
  | 10 => ⟨S256x256, .f32⟩
  | 11 => ⟨S256, .f32⟩
  | 12 => ⟨S256, .f32⟩
  | 13 => ⟨S256, .f32⟩
  | 14 => ⟨S256x256, .f32⟩
  | 15 => ⟨S256, .f32⟩
  | 16 => ⟨S256, .f32⟩
  | 17 => ⟨S256, .f32⟩
  | 18 => ⟨S256x40, .f32⟩
  | 19 => ⟨S40, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S_, .f32⟩
  | 39 => ⟨S50000x128, .f32⟩
  | 40 => ⟨S50000x128, .f32⟩
  | 41 => ⟨S50000x128, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S_, .f32⟩
  | 49 => ⟨S256, .f32⟩
  | 50 => ⟨S256, .f32⟩
  | 51 => ⟨S_, .i32⟩
  | 52 => ⟨S_, .f32⟩
  | 53 => ⟨S256, .f32⟩
  | 54 => ⟨S1x256, .f32⟩
  | 55 => ⟨S_, .f32⟩
  | 56 => ⟨S1x256, .f32⟩
  | 57 => ⟨S1x256, .f32⟩
  | 58 => ⟨S50000x256, .f32⟩
  | 59 => ⟨S50000x256, .f32⟩
  | 60 => ⟨S50000x256, .f32⟩
  | 61 => ⟨S_, .f32⟩
  | 62 => ⟨S_, .f32⟩
  | 63 => ⟨S_, .f32⟩
  | 64 => ⟨S_, .f32⟩
  | 65 => ⟨S256, .f32⟩
  | 66 => ⟨S256, .f32⟩
  | 67 => ⟨S256, .f32⟩
  | 68 => ⟨S_, .f32⟩
  | 69 => ⟨S_, .i1⟩
  | 70 => ⟨S_, .f32⟩
  | 71 => ⟨S_, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S1x800000, .i32⟩
  | 101 => ⟨S800000, .i32⟩
  | 102 => ⟨S1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x256, .f32⟩
  | 113 => ⟨S_, .f32⟩
  | 114 => ⟨S50000x256, .f32⟩
  | 115 => ⟨S800000x1, .i32⟩
  | 116 => ⟨S50000x256, .f32⟩
  | 117 => ⟨S_, .f32⟩
  | 118 => ⟨S_, .f32⟩
  | 119 => ⟨S50000x256, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S256, .f32⟩
  | _ => ⟨S50000x128, .f32⟩

abbrev hbmTy0_1 (i : Nat) : BufTy := match i % 128 with
  | 0 => ⟨S_, .f32⟩
  | 1 => ⟨S256, .f32⟩
  | 2 => ⟨S256, .f32⟩
  | 3 => ⟨S_, .i32⟩
  | 4 => ⟨S_, .f32⟩
  | 5 => ⟨S256, .f32⟩
  | 6 => ⟨S1x256, .f32⟩
  | 7 => ⟨S_, .f32⟩
  | 8 => ⟨S1x256, .f32⟩
  | 9 => ⟨S1x256, .f32⟩
  | 10 => ⟨S50000x256, .f32⟩
  | 11 => ⟨S50000x256, .f32⟩
  | 12 => ⟨S50000x256, .f32⟩
  | 13 => ⟨S_, .f32⟩
  | 14 => ⟨S_, .f32⟩
  | 15 => ⟨S_, .f32⟩
  | 16 => ⟨S_, .f32⟩
  | 17 => ⟨S256, .f32⟩
  | 18 => ⟨S256, .f32⟩
  | 19 => ⟨S256, .f32⟩
  | 20 => ⟨S_, .f32⟩
  | 21 => ⟨S_, .i1⟩
  | 22 => ⟨S_, .f32⟩
  | 23 => ⟨S_, .f32⟩
  | 24 => ⟨S256, .f32⟩
  | 25 => ⟨S256, .f32⟩
  | 26 => ⟨S1x256, .f32⟩
  | 27 => ⟨S50000x256, .f32⟩
  | 28 => ⟨S50000x256, .f32⟩
  | 29 => ⟨S_, .f32⟩
  | 30 => ⟨S256, .f32⟩
  | 31 => ⟨S256, .f32⟩
  | 32 => ⟨S256, .f32⟩
  | 33 => ⟨S1x256, .f32⟩
  | 34 => ⟨S50000x256, .f32⟩
  | 35 => ⟨S50000x256, .f32⟩
  | 36 => ⟨S1x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S256, .f32⟩
  | 51 => ⟨S_, .f32⟩
  | 52 => ⟨S256, .f32⟩
  | 53 => ⟨S256, .f32⟩
  | 54 => ⟨S_, .i32⟩
  | 55 => ⟨S_, .f32⟩
  | 56 => ⟨S256, .f32⟩
  | 57 => ⟨S1x256, .f32⟩
  | 58 => ⟨S_, .f32⟩
  | 59 => ⟨S1x256, .f32⟩
  | 60 => ⟨S1x256, .f32⟩
  | 61 => ⟨S50000x256, .f32⟩
  | 62 => ⟨S50000x256, .f32⟩
  | 63 => ⟨S50000x256, .f32⟩
  | 64 => ⟨S_, .f32⟩
  | 65 => ⟨S_, .f32⟩
  | 66 => ⟨S_, .f32⟩
  | 67 => ⟨S_, .f32⟩
  | 68 => ⟨S256, .f32⟩
  | 69 => ⟨S256, .f32⟩
  | 70 => ⟨S256, .f32⟩
  | 71 => ⟨S_, .f32⟩
  | 72 => ⟨S_, .i1⟩
  | 73 => ⟨S_, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S_, .f32⟩
  | 81 => ⟨S256, .f32⟩
  | 82 => ⟨S256, .f32⟩
  | 83 => ⟨S256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x40, .f32⟩
  | 97 => ⟨S1x40, .f32⟩
  | 98 => ⟨S50000x40, .f32⟩
  | 99 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_7 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_c_8 : Ref sig .tc := ⟨.hbm, 104, rfl⟩
abbrev main_v53 : Ref sig .tc := ⟨.hbm, 105, rfl⟩
abbrev main_v54 : Ref sig .tc := ⟨.hbm, 106, rfl⟩
abbrev main_c_9 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_10 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_12 : Ref sig .tc := ⟨.hbm, 126, rfl⟩
abbrev main_v71 : Ref sig .tc := ⟨.hbm, 127, rfl⟩
abbrev main_cst_13 : Ref sig .tc := ⟨.hbm, 128, rfl⟩
abbrev main_v72 : Ref sig .tc := ⟨.hbm, 129, rfl⟩
abbrev main_v73 : Ref sig .tc := ⟨.hbm, 130, rfl⟩
abbrev main_c_14 : Ref sig .tc := ⟨.hbm, 131, rfl⟩
abbrev main_call1_cst : Ref sig .tc := ⟨.hbm, 132, rfl⟩
abbrev main_call1_v0 : Ref sig .tc := ⟨.hbm, 133, rfl⟩
abbrev main_call1_v1 : Ref sig .tc := ⟨.hbm, 134, rfl⟩
abbrev main_call1_cst_0 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_v7 : Ref sig .tc := ⟨.hbm, 141, rfl⟩
abbrev main_call1_cst_1 : Ref sig .tc := ⟨.hbm, 142, rfl⟩
abbrev main_call1_v8 : Ref sig .tc := ⟨.hbm, 143, rfl⟩
abbrev main_call1_cst_2 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_cst_3 : Ref sig .tc := ⟨.hbm, 148, rfl⟩
abbrev main_call1_v12 : Ref sig .tc := ⟨.hbm, 149, rfl⟩
abbrev main_call1_cst_4 : Ref sig .tc := ⟨.hbm, 150, rfl⟩
abbrev main_call1_call0_v0 : Ref sig .tc := ⟨.hbm, 151, rfl⟩
abbrev main_call1_call0_v1 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_cst_15 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_cst_16 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_17 : Ref sig .tc := ⟨.hbm, 177, rfl⟩
abbrev main_v96 : Ref sig .tc := ⟨.hbm, 178, rfl⟩
abbrev main_cst_18 : Ref sig .tc := ⟨.hbm, 179, rfl⟩
abbrev main_v97 : Ref sig .tc := ⟨.hbm, 180, rfl⟩
abbrev main_v98 : Ref sig .tc := ⟨.hbm, 181, rfl⟩
abbrev main_c_19 : Ref sig .tc := ⟨.hbm, 182, rfl⟩
abbrev main_call2_cst : Ref sig .tc := ⟨.hbm, 183, rfl⟩
abbrev main_call2_v0 : Ref sig .tc := ⟨.hbm, 184, rfl⟩
abbrev main_call2_v1 : Ref sig .tc := ⟨.hbm, 185, rfl⟩
abbrev main_call2_cst_0 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_call2_v5 : Ref sig .tc := ⟨.hbm, 190, rfl⟩
abbrev main_call2_v6 : Ref sig .tc := ⟨.hbm, 191, rfl⟩
abbrev main_call2_v7 : Ref sig .tc := ⟨.hbm, 192, rfl⟩
abbrev main_call2_cst_1 : Ref sig .tc := ⟨.hbm, 193, rfl⟩
abbrev main_call2_v8 : Ref sig .tc := ⟨.hbm, 194, rfl⟩
abbrev main_call2_cst_2 : Ref sig .tc := ⟨.hbm, 195, rfl⟩
abbrev main_call2_v9 : Ref sig .tc := ⟨.hbm, 196, rfl⟩
abbrev main_call2_v10 : Ref sig .tc := ⟨.hbm, 197, rfl⟩
abbrev main_call2_v11 : Ref sig .tc := ⟨.hbm, 198, rfl⟩
abbrev main_call2_cst_3 : Ref sig .tc := ⟨.hbm, 199, rfl⟩
abbrev main_call2_v12 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_cst_20 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_cst_21 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Chain.lean ====
/-
  The network as ONE composition of whole-array host operations, in the reference program's vocabulary and for any
  float family: neighbour aggregation (gather the source rows, scatter-add them at the destination rows), the
  (1 + eps)-mix, the affine layers, per-column mean and (biased) variance over the 50000 rows, batch normalisation,
  the rectifier; then the two convolution blocks and the head. Both programs' results are stated against `out`.
-/
import proofs.«417072_j36696200577384_1_alg».proof.Proof.Gen.ReferenceIdeal

noncomputable section

namespace Cert.Chain

open Idealize.ShloMosaic Cert.ReferenceIdeal Cert.ReferenceIdeal.Gen

variable {F : FTy → Type} [FloatOps F]

/-- Row 0 of the edge list: each edge's source node. -/
def src (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dst (ei : IVec S2x800000 32) : IVec S800000 32 :=
  shapeCast S800000 (extractStridedSlice S1x800000 ![1, 0] ei slices_S2x800000_S1x800000_1_0) shapeCasts_S1x800000_S800000

/-- A negative node index counts from the end: `i + 50000` where `i < 0`, else `i`. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- An index vector as a one-column index matrix. -/
def col (i : IVec S800000 32) : IVec S800000x1 32 := broadcastInDim S800000x1 ![0] bcast_S800000_S800000x1_0 i

/-- Row `e` is the feature row of edge `e`'s source node (128 features). -/
def gather128 (x : FVec F S50000x128 .f32) (ei : IVec S2x800000 32) : FVec F S800000x128 .f32 :=
  Host.gather gather_S50000x128_S800000x1_S800000x128_1_0_n_n_0_1_1128 x (col (wrap (src ei)))

/-- Row `e` is the feature row of edge `e`'s source node (256 features). -/
def gather256 (x : FVec F S50000x256 .f32) (ei : IVec S2x800000 32) : FVec F S800000x256 .f32 :=
  Host.gather gather_S50000x256_S800000x1_S800000x256_1_0_n_n_0_1_1256 x (col (wrap (src ei)))

/-- Node `n`'s row is the sum of the edge rows `g e` over the edges `e` whose destination is `n` (128 features). -/
def agg128 (g : FVec F S800000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32)) (col (dst ei)) g

/-- Node `n`'s row is the sum of the edge rows `g e` over the edges `e` whose destination is `n` (256 features). -/
def agg256 (g : FVec F S800000x256 .f32) (ei : IVec S2x800000 32) : FVec F S50000x256 .f32 :=
  Host.scatterAdd scatter_S50000x256_S800000x1_S800000x256_1_0_0_1
    (broadcastInDim S50000x256 ![] bcast_S_S50000x256 (constant S_ .f32 0x00000000#32)) (col (dst ei)) g

/-- `(1 + eps) · x + a` (128 features). -/
def mix128 (eps : FVec F S_ .f32) (x a : FVec F S50000x128 .f32) : FVec F S50000x128 .f32 :=
  addf (mulf (broadcastInDim S50000x128 ![] bcast_S_S50000x128 (addf (constant S_ .f32 0x3F800000#32) eps)) x) a

/-- `(1 + eps) · x + a` (256 features). -/
def mix256 (eps : FVec F S_ .f32) (x a : FVec F S50000x256 .f32) : FVec F S50000x256 .f32 :=
  addf (mulf (broadcastInDim S50000x256 ![] bcast_S_S50000x256 (addf (constant S_ .f32 0x3F800000#32) eps)) x) a

/-- A length-256 vector repeated down the 50000 rows. -/
def rows256 (b : FVec F S256 .f32) : FVec F S50000x256 .f32 :=
  broadcastInDim S50000x256 ![0, 1] bcast_S1x256_S50000x256_0_1 (broadcastInDim S1x256 ![1] bcast_S256_S1x256_1 b)

/-- A length-40 vector repeated down the 50000 rows. -/
def rows40 (b : FVec F S40 .f32) : FVec F S50000x40 .f32 :=
  broadcastInDim S50000x40 ![0, 1] bcast_S1x40_S50000x40_0_1 (broadcastInDim S1x40 ![1] bcast_S40_S1x40_1 b)

/-- `h · W + b`, 128 features in, 256 out. -/
def lin128 (h : FVec F S50000x128 .f32) (W : FVec F S128x256 .f32) (b : FVec F S256 .f32) : FVec F S50000x256 .f32 :=
  addf (Host.dotGeneral dot_S50000x128_S128x256_S50000x256_1_0_0_1_n_n none h W) (rows256 b)

/-- `h · W + b`, 256 features in, 256 out. -/
def lin256 (h : FVec F S50000x256 .f32) (W : FVec F S256x256 .f32) (b : FVec F S256 .f32) : FVec F S50000x256 .f32 :=
  addf (Host.dotGeneral dot_S50000x256_S256x256_S50000x256_1_0_0_1_n_n none h W) (rows256 b)

/-- `h · W + b`, 256 features in, 40 out. -/
def lin40 (h : FVec F S50000x256 .f32) (W : FVec F S256x40 .f32) (b : FVec F S40 .f32) : FVec F S50000x40 .f32 :=
  addf (Host.dotGeneral dot_S50000x256_S256x40_S50000x40_1_0_0_1_n_n none h W) (rows40 b)

/-- Column means over the 50000 rows. -/
def mean (u : FVec F S50000x256 .f32) : FVec F S256 .f32 :=
  Host.divf (Host.reduceAdd u (constant S_ .f32 0x00000000#32) reducesTo_S50000x256_S256_d0 h_S_)
    (broadcastInDim S256 ![] bcast_S_S256 (constant S_ .f32 0x47435000#32))

/-- Column variances over the 50000 rows (the mean of squared deviations, divided by 50000 − 0). -/
def var (u : FVec F S50000x256 .f32) : FVec F S256 .f32 :=
  (fun p a b => select (broadcastInDim S256 ![] bcast_S_S256 p) a b)
    (cmpf (F := F) .ogt (subf (constant S_ .f32 0x47435000#32) (sitofp (F := F) .f32 (constantI S_ 32 0#32))) (constant S_ .f32 0x00000000#32))
    (Host.divf
      (Host.reduceAdd
        (mulf
          (subf u (broadcastInDim S50000x256 ![0, 1] bcast_S1x256_S50000x256_0_1
            (Host.divf (broadcastInDim S1x256 ![1] bcast_S256_S1x256_1
                (Host.reduceAdd u (constant S_ .f32 0x00000000#32) reducesTo_S50000x256_S256_d0 h_S_))
              (broadcastInDim S1x256 ![] bcast_S_S1x256 (constant S_ .f32 0x47435000#32)))))
          (subf u (broadcastInDim S50000x256 ![0, 1] bcast_S1x256_S50000x256_0_1
            (Host.divf (broadcastInDim S1x256 ![1] bcast_S256_S1x256_1
                (Host.reduceAdd u (constant S_ .f32 0x00000000#32) reducesTo_S50000x256_S256_d0 h_S_))
              (broadcastInDim S1x256 ![] bcast_S_S1x256 (constant S_ .f32 0x47435000#32))))))
        (constant S_ .f32 0x00000000#32) reducesTo_S50000x256_S256_d0 h_S_)
      (broadcastInDim S256 ![] bcast_S_S256
        (subf (constant S_ .f32 0x47435000#32) (sitofp (F := F) .f32 (constantI S_ 32 0#32)))))
    (broadcastInDim S256 ![] bcast_S_S256 (id (constant S_ .f32 0x7FC00000#32)))

/-- Batch normalisation with given column statistics: `((u − mean) · rsqrt(var + 1e-5)) · g + be`. -/
def bn (u : FVec F S50000x256 .f32) (mu v g be : FVec F S256 .f32) : FVec F S50000x256 .f32 :=
  addf (mulf (mulf (subf u (rows256 mu))
      (rows256 (Host.rsqrt (addf v (broadcastInDim S256 ![] bcast_S_S256 (constant S_ .f32 0x3727C5AC#32)))))) (rows256 g))
    (rows256 be)

/-- The rectifier `max(·, 0)`. -/
def relu (h : FVec F S50000x256 .f32) : FVec F S50000x256 .f32 :=
  maximumf h (broadcastInDim S50000x256 ![] bcast_S_S50000x256 (constant S_ .f32 0x00000000#32))

/-- Batch normalisation by the array's own column statistics, then the rectifier. -/
def bnRelu (u : FVec F S50000x256 .f32) (g be : FVec F S256 .f32) : FVec F S50000x256 .f32 :=
  relu (bn u (mean u) (var u) g be)

/-- The first pre-activation: mix the node features with their neighbour sums, then the first affine layer. -/
def u1 (x : FVec F S50000x128 .f32) (ei : IVec S2x800000 32) (eps1 : FVec F S_ .f32) (W1 : FVec F S128x256 .f32) (b1 : FVec F S256 .f32) :
    FVec F S50000x256 .f32 :=
  lin128 (mix128 eps1 x (agg128 (gather128 x ei) ei)) W1 b1

/-- The first block's output (rectified). -/
def h1 (u : FVec F S50000x256 .f32) (g1 be1 : FVec F S256 .f32) (W2 : FVec F S256x256 .f32) (b2 : FVec F S256 .f32) : FVec F S50000x256 .f32 :=
  relu (lin256 (bnRelu u g1 be1) W2 b2)

/-- The second pre-activation. -/
def u2 (h : FVec F S50000x256 .f32) (ei : IVec S2x800000 32) (eps2 : FVec F S_ .f32) (W3 : FVec F S256x256 .f32) (b3 : FVec F S256 .f32) :
    FVec F S50000x256 .f32 :=
  lin256 (mix256 eps2 h (agg256 (gather256 h ei) ei)) W3 b3

/-- The second block's output (not rectified). -/
def h2 (u : FVec F S50000x256 .f32) (g2 be2 : FVec F S256 .f32) (W4 : FVec F S256x256 .f32) (b4 : FVec F S256 .f32) : FVec F S50000x256 .f32 :=
  lin256 (bnRelu u g2 be2) W4 b4

/-- The head: normalise, rectify, project to the 40 classes. -/
def head (h : FVec F S50000x256 .f32) (g3 be3 : FVec F S256 .f32) (Wf : FVec F S256x40 .f32) (bf : FVec F S40 .f32) : FVec F S50000x40 .f32 :=
  lin40 (bnRelu h g3 be3) Wf bf

/-- The whole network. -/
def out (x : FVec F S50000x128 .f32) (ei : IVec S2x800000 32) (eps1 : FVec F S_ .f32) (W1 : FVec F S128x256 .f32) (b1 g1 be1 : FVec F S256 .f32)
    (W2 : FVec F S256x256 .f32) (b2 : FVec F S256 .f32) (eps2 : FVec F S_ .f32) (W3 : FVec F S256x256 .f32) (b3 g2 be2 : FVec F S256 .f32)
    (W4 : FVec F S256x256 .f32) (b4 g3 be3 : FVec F S256 .f32) (Wf : FVec F S256x40 .f32) (bf : FVec F S40 .f32) : FVec F S50000x40 .f32 :=
  head (h2 (u2 (h1 (u1 x ei eps1 W1 b1) g1 be1 W2 b2) ei eps2 W3 b3) g2 be2 W4 b4) g3 be3 Wf bf

end Cert.Chain

end
-- ==== Proof.KDefs.lean ====
/-
  The kernel program's own spellings of two host-side pieces, for any float family:
  `take128` / `take256` — gather rows by node index where an index that is out of range after the negative wrap
  yields a row of NaNs instead of a row of the table; and `row256` / `row40` — a vector re-laid as a 1×n row.
-/
import proofs.«417072_j36696200577384_1_alg».proof.Proof.Gen.KernelIdeal

noncomputable section

namespace Cert.KDefs

open Idealize.ShloMosaic Cert.KernelIdeal Cert.KernelIdeal.Gen

variable {F : FTy → Type} [FloatOps F]

/-- A negative node index counts from the end: `i + 50000` where `i < 0`, else `i`. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- An index vector as a one-column index matrix. -/
def col (i : IVec S800000 32) : IVec S800000x1 32 := broadcastInDim S800000x1 ![0] bcast_S800000_S800000x1_0 i

/-- Bit `e` says whether the wrapped index of edge `e` lies in `[0, 49999]`. -/
def inBounds (i : IVec S800000 32) : IVec S800000 1 :=
  Host.reduce IntOp.andi
    (andi (cmpi .sge (col (wrap i)) (broadcastInDim S800000x1 ![] bcast_S_S800000x1 (constantI S_ 32 0#32)))
      (cmpi .sle (col (wrap i)) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Row `e` is row `wrap i e` of `x` where that index is in bounds, and a row of NaNs where it is not (128 features). -/
def take128 (x : FVec F S50000x128 .f32) (i : IVec S800000 32) : FVec F S800000x128 .f32 :=
  select (broadcastInDim S800000x128 ![0] bcast_S800000_S800000x128_0 (inBounds i))
    (Host.gather gather_S50000x128_S800000x1_S800000x128_1_0_n_n_0_1_1128 x (col (wrap i)))
    (broadcastInDim S800000x128 ![] bcast_S_S800000x128 (constant S_ .f32 0x7FC00000#32))

/-- Row `e` is row `wrap i e` of `x` where that index is in bounds, and a row of NaNs where it is not (256 features). -/
def take256 (x : FVec F S50000x256 .f32) (i : IVec S800000 32) : FVec F S800000x256 .f32 :=
  select (broadcastInDim S800000x256 ![0] bcast_S800000_S800000x256_0 (inBounds i))
    (Host.gather gather_S50000x256_S800000x1_S800000x256_1_0_n_n_0_1_1256 x (col (wrap i)))
    (broadcastInDim S800000x256 ![] bcast_S_S800000x256 (constant S_ .f32 0x7FC00000#32))

/-- A length-256 vector as a 1×256 row. -/
def row256 (b : FVec F S256 .f32) : FVec F S1x256 .f32 := fun i => shapeCast S1x256 b shapeCasts_S256_S1x256 i

/-- A length-40 vector as a 1×40 row. -/
def row40 (b : FVec F S40 .f32) : FVec F S1x40 .f32 := fun i => shapeCast S1x40 b shapeCasts_S40_S1x40 i

end Cert.KDefs

end
-- ==== Proof.Spec.lean ====
/-
  The two kinds of layer the kernels compute, entry by entry over the extended reals.
  `linear h W b` is the affine layer: entry (r, j) is Σ_k h[r,k]·W[k,j] + b[0,j], with the bias a 1×D row.
  `bnLinear u mu v g be W b` normalises each entry of `u` with the given column statistics (rows of shape 1×K),
  `((u[r,k] − mu[k]) · rsqrt(v[k] + ε)) · g[k] + be[k]`, rectifies it, and feeds the result to the affine layer;
  `bnLinearRelu` rectifies the affine layer's output as well. Every entry depends on ONE row of the first operand,
  which is why a row-blocked kernel computes these functions block by block.
-/
import Idealize.ShloMosaic.PureOps.Ideal
import Idealize.ShloMosaic.Lib.ValueIdx

noncomputable section

open scoped BigOperators

namespace Cert.Spec

open Idealize.ShloMosaic Idealize.ShloMosaic.ValueIdx

/-- An n×k array of extended reals. -/
abbrev Mat (n k : Nat) : Type := (⟨2, ![n, k]⟩ : Shape).Idx → EReal

/-- The normalisation's ε: the binary32 number nearest 1e-5, exactly. -/
def eps : EReal := Ideal.ofBits .f32 0x3727C5AC#32

/-- Entry (r, j) of `h · W + b`. -/
def linearAt {N K D : Nat} (h : Mat N K) (W : Mat K D) (b : Mat 1 D) (r : Fin N) (j : Fin D) : EReal :=
  (∑ k : Fin K, h (ix2 r k) * W (ix2 k j)) + b (ix2 0 j)

/-- `h · W + b`, the bias row added to every row. -/
def linear {N K D : Nat} (h : Mat N K) (W : Mat K D) (b : Mat 1 D) : Mat N D :=
  fun i => linearAt h W b (i 0) (i 1)

/-- Entry (r, k) of the normalised array: `((u − mu) · rsqrt(v + ε)) · g + be`, the statistics read per column. -/
def normAt {N K : Nat} (u : Mat N K) (mu v g be : Mat 1 K) (r : Fin N) (k : Fin K) : EReal :=
  ((u (ix2 r k) - mu (ix2 0 k)) * Ideal.rsqrt (v (ix2 0 k) + eps)) * g (ix2 0 k) + be (ix2 0 k)

/-- Entry (r, j) of `max(norm, 0) · W + b`. -/
def bnLinearAt {N K D : Nat} (u : Mat N K) (mu v g be : Mat 1 K) (W : Mat K D) (b : Mat 1 D) (r : Fin N) (j : Fin D) : EReal :=
  (∑ k : Fin K, max (normAt u mu v g be r k) 0 * W (ix2 k j)) + b (ix2 0 j)

/-- Normalise, rectify, affine layer. -/
def bnLinear {N K D : Nat} (u : Mat N K) (mu v g be : Mat 1 K) (W : Mat K D) (b : Mat 1 D) : Mat N D :=
  fun i => bnLinearAt u mu v g be W b (i 0) (i 1)

/-- Normalise, rectify, affine layer, rectify. -/
def bnLinearRelu {N K D : Nat} (u : Mat N K) (mu v g be : Mat 1 K) (W : Mat K D) (b : Mat 1 D) : Mat N D :=
  fun i => max (bnLinearAt u mu v g be W b (i 0) (i 1)) 0

end Cert.Spec

end
-- ==== Proof.KArgs.lean ====
/- No host operation and no kernel region writes an argument array, so at every boundary of @main an argument's buffer
   still holds what it held at launch. -/
import proofs.«417072_j36696200577384_1_alg».proof.Proof.Gen.KernelIdeal.Frame

set_option maxRecDepth 16384

noncomputable section

namespace Cert.KernelIdeal.KArgs

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- One host stretch, read at a buffer none of its operations writes: the contents before the stretch.  The list of
    operations is opened, each operation's written set is a singleton, and the buffer differs from every one of them
    because the references differ. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- From region 0's entry back to the launch: the three host stretches before it, then the launch memory itself. -/
local macro "down3" : tactic =>
  `(tactic| (refine (host_keep hostOps0_2).trans ?_
             refine (host_keep hostOps0_1).trans ?_
             refine (host_keep hostOps0).trans ?_
             rfl))

/-- From region 0's exit: the buffer is none of region 0's arrays. -/
local macro "down4" : tactic =>
  `(tactic| (refine (W4_of_ne _ _ _ _ (by decide)).trans ?_
             down3))

/-- From region 1's exit: none of region 1's arrays, three host stretches, then as from region 0's exit. -/
local macro "down8" : tactic =>
  `(tactic| (refine (W8_of_ne _ _ _ _ (by decide)).trans ?_
             refine (host_keep hostOps1_2).trans ?_
             refine (host_keep hostOps1_1).trans ?_
             refine (host_keep hostOps1).trans ?_
             down4))

/-- From region 2's exit. -/
local macro "down12" : tactic =>
  `(tactic| (refine (W12_of_ne _ _ _ _ (by decide)).trans ?_
             refine (host_keep hostOps2_2).trans ?_
             refine (host_keep hostOps2_1).trans ?_
             refine (host_keep hostOps2).trans ?_
             down8))

/-- From region 3's exit. -/
local macro "down16" : tactic =>
  `(tactic| (refine (W16_of_ne _ _ _ _ (by decide)).trans ?_
             refine (host_keep hostOps3_2).trans ?_
             refine (host_keep hostOps3_1).trans ?_
             refine (host_keep hostOps3).trans ?_
             down12))

theorem W4_arg5 (c : Dev nD) : W4 m ρ c (Proc.devRef .tc main_arg5) = m ((c : Thread nD τ).loc main_arg5) := by
  down4

theorem W4_arg6 (c : Dev nD) : W4 m ρ c (Proc.devRef .tc main_arg6) = m ((c : Thread nD τ).loc main_arg6) := by
  down4

theorem W4_arg7 (c : Dev nD) : W4 m ρ c (Proc.devRef .tc main_arg7) = m ((c : Thread nD τ).loc main_arg7) := by
  down4

theorem W4_arg8 (c : Dev nD) : W4 m ρ c (Proc.devRef .tc main_arg8) = m ((c : Thread nD τ).loc main_arg8) := by
  down4

theorem W8_arg1 (c : Dev nD) : W8 m ρ c (Proc.devRef .tc main_arg1) = m ((c : Thread nD τ).loc main_arg1) := by
  down8

theorem W8_arg9 (c : Dev nD) : W8 m ρ c (Proc.devRef .tc main_arg9) = m ((c : Thread nD τ).loc main_arg9) := by
  down8

theorem W8_arg10 (c : Dev nD) : W8 m ρ c (Proc.devRef .tc main_arg10) = m ((c : Thread nD τ).loc main_arg10) := by
  down8

theorem W8_arg11 (c : Dev nD) : W8 m ρ c (Proc.devRef .tc main_arg11) = m ((c : Thread nD τ).loc main_arg11) := by
  down8

theorem W12_arg12 (c : Dev nD) : W12 m ρ c (Proc.devRef .tc main_arg12) = m ((c : Thread nD τ).loc main_arg12) := by
  down12

theorem W12_arg13 (c : Dev nD) : W12 m ρ c (Proc.devRef .tc main_arg13) = m ((c : Thread nD τ).loc main_arg13) := by
  down12

theorem W12_arg14 (c : Dev nD) : W12 m ρ c (Proc.devRef .tc main_arg14) = m ((c : Thread nD τ).loc main_arg14) := by
  down12

theorem W12_arg15 (c : Dev nD) : W12 m ρ c (Proc.devRef .tc main_arg15) = m ((c : Thread nD τ).loc main_arg15) := by
  down12

theorem W16_arg16 (c : Dev nD) : W16 m ρ c (Proc.devRef .tc main_arg16) = m ((c : Thread nD τ).loc main_arg16) := by
  down16

theorem W16_arg17 (c : Dev nD) : W16 m ρ c (Proc.devRef .tc main_arg17) = m ((c : Thread nD τ).loc main_arg17) := by
  down16

theorem W16_arg18 (c : Dev nD) : W16 m ρ c (Proc.devRef .tc main_arg18) = m ((c : Thread nD τ).loc main_arg18) := by
  down16

theorem W16_arg19 (c : Dev nD) : W16 m ρ c (Proc.devRef .tc main_arg19) = m ((c : Thread nD τ).loc main_arg19) := by
  down16

end Cert.KernelIdeal.KArgs

end
-- ==== Proof.KStages.lean ====
/- What each kernel region finds in its input arrays: the host stretch before it applied to the launch contents of the
   arguments and to the previous region's output array. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.KArgs
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem
open Idealize.ShloMosaic.Pipeline (Dat Cfg Window)
open Cert.KernelIdeal.KArgs

variable {F : FTy → Type} [FloatOps F]
variable (m : (ℓ : Loc nD τ sig) → Buf (Elt F) ℓ) (ρ : Dev nD → PrngReg)

/-! Each host stretch is first read over an ARBITRARY valuation `W`: what it leaves at the buffers a later stretch or
    the region reads, as the stretch's own functions of `W` at the buffers it reads. The boundary valuations are then
    walked stretch by stretch from the launch contents (or from the previous region's exit contents, kept as an atom). -/

/-- Closes `after ops W b = W b` for a buffer `b` that no operation of the stretch `ops` writes: every operation
    writes its one result buffer, and that is a different reference. -/
local macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Region 0: the three host stretches over an arbitrary valuation, then over the launch contents -/

section Stretches0
variable (W : Valuation τ sig (Elt F))

/-- Rows 0 and 1 of the edge list, flattened: the sources and the destinations. -/
private theorem ops0_v1 : StableHlo.after hostOps0 W (Proc.devRef .tc main_v1) = Cert.Chain.src (W (Proc.devRef .tc main_arg1)) := by
  after_results; rfl
private theorem ops0_v3 : StableHlo.after hostOps0 W (Proc.devRef .tc main_v3) = Cert.Chain.dst (W (Proc.devRef .tc main_arg1)) := by
  after_results; rfl

/-- The inlined gather: the rows of the features at the wrapped sources, a row of NaNs where the index is out of range. -/
private theorem ops0_1_v4 :
    StableHlo.after hostOps0_1 W (Proc.devRef .tc main_v4)
      = Cert.KDefs.take128 (F := F) (W (Proc.devRef .tc main_arg0)) (W (Proc.devRef .tc main_v1)) := by
  after_results_simp
  simp only [StableHlo.TRef.ofBuf, StableHlo.TRef.toBuf, cast_eq]
  rfl

/-- The scatter-add of the gathered rows at the destinations, mixed with the features; and the bias as a row. -/
private theorem ops0_2_v11 :
    StableHlo.after hostOps0_2 W (Proc.devRef .tc main_v11)
      = Cert.Chain.mix128 (W (Proc.devRef .tc main_arg2)) (W (Proc.devRef .tc main_arg0))
          (Host.scatterAdd scatter_S50000x128_S800000x1_S800000x128_1_0_0_1
            (broadcastInDim S50000x128 ![] bcast_S_S50000x128 (constant S_ .f32 0x00000000#32))
            (Cert.Chain.col (W (Proc.devRef .tc main_v3))) (W (Proc.devRef .tc main_v4))) := by
  after_results; rfl
private theorem ops0_2_v12 :
    StableHlo.after hostOps0_2 W (Proc.devRef .tc main_v12) = Cert.KDefs.row256 (W (Proc.devRef .tc main_arg4)) := by
  after_results; rfl

end Stretches0

section Region0
variable (c : Dev nD)

private theorem W1_v1 : W1 m ρ c (Proc.devRef .tc main_v1) = Cert.Chain.src (m ((c : Thread nD τ).loc main_arg1)) :=
  ops0_v1 (W0 m ρ c)
private theorem W1_v3 : W1 m ρ c (Proc.devRef .tc main_v3) = Cert.Chain.dst (m ((c : Thread nD τ).loc main_arg1)) :=
  ops0_v3 (W0 m ρ c)
private theorem W1_arg0 : W1 m ρ c (Proc.devRef .tc main_arg0) = m ((c : Thread nD τ).loc main_arg0) := by keeps hostOps0
private theorem W2_arg0 : W2 m ρ c (Proc.devRef .tc main_arg0) = m ((c : Thread nD τ).loc main_arg0) :=
  calc W2 m ρ c (Proc.devRef .tc main_arg0)
    _ = W1 m ρ c (Proc.devRef .tc main_arg0) := by keeps hostOps0_1
    _ = m ((c : Thread nD τ).loc main_arg0) := W1_arg0 m ρ c
private theorem W2_arg2 : W2 m ρ c (Proc.devRef .tc main_arg2) = m ((c : Thread nD τ).loc main_arg2) :=
  calc W2 m ρ c (Proc.devRef .tc main_arg2)
    _ = W1 m ρ c (Proc.devRef .tc main_arg2) := by keeps hostOps0_1
    _ = W0 m ρ c (Proc.devRef .tc main_arg2) := by keeps hostOps0
private theorem W2_arg4 : W2 m ρ c (Proc.devRef .tc main_arg4) = m ((c : Thread nD τ).loc main_arg4) :=
  calc W2 m ρ c (Proc.devRef .tc main_arg4)
    _ = W1 m ρ c (Proc.devRef .tc main_arg4) := by keeps hostOps0_1
    _ = W0 m ρ c (Proc.devRef .tc main_arg4) := by keeps hostOps0
private theorem W2_v3 : W2 m ρ c (Proc.devRef .tc main_v3) = Cert.Chain.dst (m ((c : Thread nD τ).loc main_arg1)) :=
  calc W2 m ρ c (Proc.devRef .tc main_v3)
    _ = W1 m ρ c (Proc.devRef .tc main_v3) := by keeps hostOps0_1
    _ = Cert.Chain.dst (m ((c : Thread nD τ).loc main_arg1)) := W1_v3 m ρ c
private theorem W2_v4 : W2 m ρ c (Proc.devRef .tc main_v4)
    = Cert.KDefs.take128 (m ((c : Thread nD τ).loc main_arg0)) (Cert.Chain.src (m ((c : Thread nD τ).loc main_arg1))) := by
  refine (ops0_1_v4 (W1 m ρ c)).trans ?_
  rw [W1_arg0 m ρ c, W1_v1 m ρ c]

end Region0

/-! ## Region 0's inputs: the mixed features, the first weights, the first bias as a row -/

theorem V3_v11 (c : Dev nD) :
    V3 m ρ c main_v11 = Cert.Chain.mix128 (m ((c : Thread nD τ).loc main_arg2)) (m ((c : Thread nD τ).loc main_arg0))
      (Cert.Chain.agg128 (Cert.KDefs.take128 (m ((c : Thread nD τ).loc main_arg0)) (Cert.Chain.src (m ((c : Thread nD τ).loc main_arg1)))) (m ((c : Thread nD τ).loc main_arg1))) := by
  refine (ops0_2_v11 (W2 m ρ c)).trans ?_
  rw [W2_arg2 m ρ c, W2_arg0 m ρ c, W2_v3 m ρ c, W2_v4 m ρ c]
  rfl
theorem V3_arg3 (c : Dev nD) : V3 m ρ c main_arg3 = (m ((c : Thread nD τ).loc main_arg3)) :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
theorem V3_v12 (c : Dev nD) : V3 m ρ c main_v12 = Cert.KDefs.row256 (m ((c : Thread nD τ).loc main_arg4)) := by
  refine (ops0_2_v12 (W2 m ρ c)).trans ?_
  rw [W2_arg4 m ρ c]

end Cert.KernelIdeal.KStages

end
-- ==== Proof.KStagesR1.lean ====
/- What kernel region 1 finds in its input arrays: the host stretch before it applied to the launch contents of the
   arguments and to the previous region's output array. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.KArgs
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem
open Idealize.ShloMosaic.Pipeline (Dat Cfg Window)
open Cert.KernelIdeal.KArgs

variable {F : FTy → Type} [FloatOps F]

/-! ## The three host stretches before region 1, from ANY contents `W` of the buffers

The first stretch computes the column means of the array in `main_v13` and an integer zero; the second (the inlined
variance function) the column variances of the same array, its divisor corrected by that integer; the third re-lays
five length-256 vectors as 1×256 rows. Each stretch leaves every buffer it does not write as it was. -/

section Stretches
variable (W : Valuation τ sig (Elt F))

private theorem s1_v16 : StableHlo.after (hostOps1 (F := F)) W (Proc.devRef .tc main_v16) = Cert.Chain.mean (W (Proc.devRef .tc main_v13)) := by
  after_results; rfl
private theorem s1_c : StableHlo.after (hostOps1 (F := F)) W (Proc.devRef .tc main_c) = constantI S_ 32 0#32 := by
  after_results
private theorem s1_v13 : StableHlo.after (hostOps1 (F := F)) W (Proc.devRef .tc main_v13) = W (Proc.devRef .tc main_v13) := by
  after_results
private theorem s1_arg5 : StableHlo.after (hostOps1 (F := F)) W (Proc.devRef .tc main_arg5) = W (Proc.devRef .tc main_arg5) := by
  after_results
private theorem s1_arg6 : StableHlo.after (hostOps1 (F := F)) W (Proc.devRef .tc main_arg6) = W (Proc.devRef .tc main_arg6) := by
  after_results
private theorem s1_arg7 : StableHlo.after (hostOps1 (F := F)) W (Proc.devRef .tc main_arg7) = W (Proc.devRef .tc main_arg7) := by
  after_results
private theorem s1_arg8 : StableHlo.after (hostOps1 (F := F)) W (Proc.devRef .tc main_arg8) = W (Proc.devRef .tc main_arg8) := by
  after_results

/-- The variance function's result, once the integer it converts is known to be zero. -/
private theorem s11_v17 (hc : W (Proc.devRef .tc main_c) = constantI S_ 32 0#32) :
    StableHlo.after (hostOps1_1 (F := F)) W (Proc.devRef .tc main_v17) = Cert.Chain.var (W (Proc.devRef .tc main_v13)) := by
  after_results_simp
  simp only [StableHlo.TRef.ofBuf, StableHlo.TRef.toBuf, cast_eq]
  rw [hc]
  rfl
private theorem s11_v16 : StableHlo.after (hostOps1_1 (F := F)) W (Proc.devRef .tc main_v16) = W (Proc.devRef .tc main_v16) := by
  after_results_simp
private theorem s11_v13 : StableHlo.after (hostOps1_1 (F := F)) W (Proc.devRef .tc main_v13) = W (Proc.devRef .tc main_v13) := by
  after_results_simp
private theorem s11_arg5 : StableHlo.after (hostOps1_1 (F := F)) W (Proc.devRef .tc main_arg5) = W (Proc.devRef .tc main_arg5) := by
  after_results_simp
private theorem s11_arg6 : StableHlo.after (hostOps1_1 (F := F)) W (Proc.devRef .tc main_arg6) = W (Proc.devRef .tc main_arg6) := by
  after_results_simp
private theorem s11_arg7 : StableHlo.after (hostOps1_1 (F := F)) W (Proc.devRef .tc main_arg7) = W (Proc.devRef .tc main_arg7) := by
  after_results_simp
private theorem s11_arg8 : StableHlo.after (hostOps1_1 (F := F)) W (Proc.devRef .tc main_arg8) = W (Proc.devRef .tc main_arg8) := by
  after_results_simp

private theorem s12_v18 : StableHlo.after (hostOps1_2 (F := F)) W (Proc.devRef .tc main_v18) = Cert.KDefs.row256 (W (Proc.devRef .tc main_v16)) := by
  after_results; rfl
private theorem s12_v19 : StableHlo.after (hostOps1_2 (F := F)) W (Proc.devRef .tc main_v19) = Cert.KDefs.row256 (W (Proc.devRef .tc main_v17)) := by
  after_results; rfl
private theorem s12_v20 : StableHlo.after (hostOps1_2 (F := F)) W (Proc.devRef .tc main_v20) = Cert.KDefs.row256 (W (Proc.devRef .tc main_arg5)) := by
  after_results; rfl
private theorem s12_v21 : StableHlo.after (hostOps1_2 (F := F)) W (Proc.devRef .tc main_v21) = Cert.KDefs.row256 (W (Proc.devRef .tc main_arg6)) := by
  after_results; rfl
private theorem s12_v22 : StableHlo.after (hostOps1_2 (F := F)) W (Proc.devRef .tc main_v22) = Cert.KDefs.row256 (W (Proc.devRef .tc main_arg8)) := by
  after_results; rfl
private theorem s12_v13 : StableHlo.after (hostOps1_2 (F := F)) W (Proc.devRef .tc main_v13) = W (Proc.devRef .tc main_v13) := by
  after_results
private theorem s12_arg7 : StableHlo.after (hostOps1_2 (F := F)) W (Proc.devRef .tc main_arg7) = W (Proc.devRef .tc main_arg7) := by
  after_results

end Stretches

variable (m : (ℓ : Loc nD τ sig) → Buf (Elt F) ℓ) (ρ : Dev nD → PrngReg)

/-! ## Region 1's inputs, over region 0's output array `W4 … main_v13` -/

theorem V7_v13 (c : Dev nD) : V7 m ρ c main_v13 = W4 m ρ c (Proc.devRef .tc main_v13) :=
  (s12_v13 (W6 m ρ c)).trans ((s11_v13 (W5 m ρ c)).trans (s1_v13 (W4 m ρ c)))
theorem V7_v18 (c : Dev nD) : V7 m ρ c main_v18 = Cert.KDefs.row256 (Cert.Chain.mean (W4 m ρ c (Proc.devRef .tc main_v13))) :=
  (s12_v18 (W6 m ρ c)).trans (congrArg Cert.KDefs.row256 ((s11_v16 (W5 m ρ c)).trans (s1_v16 (W4 m ρ c))))
theorem V7_v19 (c : Dev nD) : V7 m ρ c main_v19 = Cert.KDefs.row256 (Cert.Chain.var (W4 m ρ c (Proc.devRef .tc main_v13))) :=
  (s12_v19 (W6 m ρ c)).trans (congrArg Cert.KDefs.row256
    ((s11_v17 (W5 m ρ c) (s1_c (W4 m ρ c))).trans (congrArg Cert.Chain.var (s1_v13 (W4 m ρ c)))))
theorem V7_v20 (c : Dev nD) : V7 m ρ c main_v20 = Cert.KDefs.row256 (m ((c : Thread nD τ).loc main_arg5)) :=
  (s12_v20 (W6 m ρ c)).trans (congrArg Cert.KDefs.row256
    ((s11_arg5 (W5 m ρ c)).trans ((s1_arg5 (W4 m ρ c)).trans (W4_arg5 m ρ c))))
theorem V7_v21 (c : Dev nD) : V7 m ρ c main_v21 = Cert.KDefs.row256 (m ((c : Thread nD τ).loc main_arg6)) :=
  (s12_v21 (W6 m ρ c)).trans (congrArg Cert.KDefs.row256
    ((s11_arg6 (W5 m ρ c)).trans ((s1_arg6 (W4 m ρ c)).trans (W4_arg6 m ρ c))))
theorem V7_arg7 (c : Dev nD) : V7 m ρ c main_arg7 = (m ((c : Thread nD τ).loc main_arg7)) :=
  (s12_arg7 (W6 m ρ c)).trans ((s11_arg7 (W5 m ρ c)).trans ((s1_arg7 (W4 m ρ c)).trans (W4_arg7 m ρ c)))
theorem V7_v22 (c : Dev nD) : V7 m ρ c main_v22 = Cert.KDefs.row256 (m ((c : Thread nD τ).loc main_arg8)) :=
  (s12_v22 (W6 m ρ c)).trans (congrArg Cert.KDefs.row256
    ((s11_arg8 (W5 m ρ c)).trans ((s1_arg8 (W4 m ρ c)).trans (W4_arg8 m ρ c))))

end Cert.KernelIdeal.KStages

end
-- ==== Proof.KStagesR2.lean ====
/- What kernel region 2 finds in its input arrays: the host stretch before it applied to the launch contents of the
   arguments and to the previous region's output array. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.KArgs
import proofs.«417072_j36696200577384_1_alg».proof.Proof.KStages
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem
open Idealize.ShloMosaic.Pipeline (Dat Cfg Window)
open Cert.KernelIdeal.KArgs

variable {F : FTy → Type} [FloatOps F]
variable (m : (ℓ : Loc nD τ sig) → Buf (Elt F) ℓ) (ρ : Dev nD → PrngReg)

/-! Each host stretch is first read over an ARBITRARY valuation `W`: what it leaves at the buffers a later stretch or
    the region reads, as the stretch's own functions of `W` at the buffers it reads. The boundary valuations are then
    walked stretch by stretch from the launch contents (or from the previous region's exit contents, kept as an atom). -/

/-- Closes `after ops W b = W b` for a buffer `b` that no operation of the stretch `ops` writes: every operation
    writes its one result buffer, and that is a different reference. -/
local macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Region 2: the second neighbour aggregation, over region 1's output array -/

section Stretches2
variable (W : Valuation τ sig (Elt F))

/-- Rows 0 and 1 of the edge list again. -/
private theorem ops2_v25 : StableHlo.after hostOps2 W (Proc.devRef .tc main_v25) = Cert.Chain.src (W (Proc.devRef .tc main_arg1)) := by
  after_results; rfl
private theorem ops2_v27 : StableHlo.after hostOps2 W (Proc.devRef .tc main_v27) = Cert.Chain.dst (W (Proc.devRef .tc main_arg1)) := by
  after_results; rfl

/-- The inlined gather at 256 features. -/
private theorem ops2_1_v28 :
    StableHlo.after hostOps2_1 W (Proc.devRef .tc main_v28)
      = Cert.KDefs.take256 (F := F) (W (Proc.devRef .tc main_v23)) (W (Proc.devRef .tc main_v25)) := by
  after_results_simp
  simp only [StableHlo.TRef.ofBuf, StableHlo.TRef.toBuf, cast_eq]
  rfl

/-- The scatter-add at the destinations, mixed with region 1's output; and the bias as a row. -/
private theorem ops2_2_v35 :
    StableHlo.after hostOps2_2 W (Proc.devRef .tc main_v35)
      = Cert.Chain.mix256 (W (Proc.devRef .tc main_arg9)) (W (Proc.devRef .tc main_v23))
          (Host.scatterAdd scatter_S50000x256_S800000x1_S800000x256_1_0_0_1
            (broadcastInDim S50000x256 ![] bcast_S_S50000x256 (constant S_ .f32 0x00000000#32))
            (Cert.Chain.col (W (Proc.devRef .tc main_v27))) (W (Proc.devRef .tc main_v28))) := by
  after_results; rfl
private theorem ops2_2_v36 :
    StableHlo.after hostOps2_2 W (Proc.devRef .tc main_v36) = Cert.KDefs.row256 (W (Proc.devRef .tc main_arg11)) := by
  after_results; rfl

end Stretches2

section Region2
variable (c : Dev nD)

private theorem W9_v25 : W9 m ρ c (Proc.devRef .tc main_v25) = Cert.Chain.src (m ((c : Thread nD τ).loc main_arg1)) := by
  refine (ops2_v25 (W8 m ρ c)).trans ?_
  rw [W8_arg1 m ρ c]
private theorem W9_v27 : W9 m ρ c (Proc.devRef .tc main_v27) = Cert.Chain.dst (m ((c : Thread nD τ).loc main_arg1)) := by
  refine (ops2_v27 (W8 m ρ c)).trans ?_
  rw [W8_arg1 m ρ c]
private theorem W9_v23 : W9 m ρ c (Proc.devRef .tc main_v23) = W8 m ρ c (Proc.devRef .tc main_v23) := by keeps hostOps2
private theorem W10_v23 : W10 m ρ c (Proc.devRef .tc main_v23) = W8 m ρ c (Proc.devRef .tc main_v23) :=
  calc W10 m ρ c (Proc.devRef .tc main_v23)
    _ = W9 m ρ c (Proc.devRef .tc main_v23) := by keeps hostOps2_1
    _ = W8 m ρ c (Proc.devRef .tc main_v23) := W9_v23 m ρ c
private theorem W10_v27 : W10 m ρ c (Proc.devRef .tc main_v27) = Cert.Chain.dst (m ((c : Thread nD τ).loc main_arg1)) :=
  calc W10 m ρ c (Proc.devRef .tc main_v27)
    _ = W9 m ρ c (Proc.devRef .tc main_v27) := by keeps hostOps2_1
    _ = Cert.Chain.dst (m ((c : Thread nD τ).loc main_arg1)) := W9_v27 m ρ c
private theorem W10_v28 : W10 m ρ c (Proc.devRef .tc main_v28)
    = Cert.KDefs.take256 (W8 m ρ c (Proc.devRef .tc main_v23)) (Cert.Chain.src (m ((c : Thread nD τ).loc main_arg1))) := by
  refine (ops2_1_v28 (W9 m ρ c)).trans ?_
  rw [W9_v23 m ρ c, W9_v25 m ρ c]
private theorem W10_arg9 : W10 m ρ c (Proc.devRef .tc main_arg9) = m ((c : Thread nD τ).loc main_arg9) :=
  calc W10 m ρ c (Proc.devRef .tc main_arg9)
    _ = W9 m ρ c (Proc.devRef .tc main_arg9) := by keeps hostOps2_1
    _ = W8 m ρ c (Proc.devRef .tc main_arg9) := by keeps hostOps2
    _ = m ((c : Thread nD τ).loc main_arg9) := W8_arg9 m ρ c
private theorem W10_arg11 : W10 m ρ c (Proc.devRef .tc main_arg11) = m ((c : Thread nD τ).loc main_arg11) :=
  calc W10 m ρ c (Proc.devRef .tc main_arg11)
    _ = W9 m ρ c (Proc.devRef .tc main_arg11) := by keeps hostOps2_1
    _ = W8 m ρ c (Proc.devRef .tc main_arg11) := by keeps hostOps2
    _ = m ((c : Thread nD τ).loc main_arg11) := W8_arg11 m ρ c

end Region2

/-! ## Region 2's inputs, over region 1's output array `W8 … main_v23` -/

theorem V11_v35 (c : Dev nD) :
    V11 m ρ c main_v35 = Cert.Chain.mix256 (m ((c : Thread nD τ).loc main_arg9)) (W8 m ρ c (Proc.devRef .tc main_v23))
      (Cert.Chain.agg256 (Cert.KDefs.take256 (W8 m ρ c (Proc.devRef .tc main_v23)) (Cert.Chain.src (m ((c : Thread nD τ).loc main_arg1)))) (m ((c : Thread nD τ).loc main_arg1))) := by
  refine (ops2_2_v35 (W10 m ρ c)).trans ?_
  rw [W10_arg9 m ρ c, W10_v23 m ρ c, W10_v27 m ρ c, W10_v28 m ρ c]
  rfl
theorem V11_arg10 (c : Dev nD) : V11 m ρ c main_arg10 = (m ((c : Thread nD τ).loc main_arg10)) :=
  calc W11 m ρ c (Proc.devRef .tc main_arg10)
    _ = W10 m ρ c (Proc.devRef .tc main_arg10) := by keeps hostOps2_2
    _ = W9 m ρ c (Proc.devRef .tc main_arg10) := by keeps hostOps2_1
    _ = W8 m ρ c (Proc.devRef .tc main_arg10) := by keeps hostOps2
    _ = m ((c : Thread nD τ).loc main_arg10) := W8_arg10 m ρ c
theorem V11_v36 (c : Dev nD) : V11 m ρ c main_v36 = Cert.KDefs.row256 (m ((c : Thread nD τ).loc main_arg11)) := by
  refine (ops2_2_v36 (W10 m ρ c)).trans ?_
  rw [W10_arg11 m ρ c]

end Cert.KernelIdeal.KStages

end
-- ==== Proof.KStages2.lean ====
/- What the fourth kernel region finds in its input arrays: the host stretch before it applied to the launch contents of
   the arguments and to the previous region's output array. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.KArgs
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem
open Idealize.ShloMosaic.Pipeline (Dat Cfg Window)
open Cert.KernelIdeal.KArgs

variable {F : FTy → Type} [FloatOps F]

/-! ## The three host stretches before region 3, from ANY contents `W` of the buffers

The first stretch computes the column means of the array in `main_v37` and an integer zero; the second (the inlined
variance function) the column variances of the same array, its divisor corrected by that integer; the third re-lays
five length-256 vectors as 1×256 rows. Each stretch leaves every buffer it does not write as it was. -/

section Stretches
variable (W : Valuation τ sig (Elt F))

private theorem s3_v40 : StableHlo.after (hostOps3 (F := F)) W (Proc.devRef .tc main_v40) = Cert.Chain.mean (W (Proc.devRef .tc main_v37)) := by
  after_results; rfl
private theorem s3_c7 : StableHlo.after (hostOps3 (F := F)) W (Proc.devRef .tc main_c_7) = constantI S_ 32 0#32 := by
  after_results
private theorem s3_v37 : StableHlo.after (hostOps3 (F := F)) W (Proc.devRef .tc main_v37) = W (Proc.devRef .tc main_v37) := by
  after_results
private theorem s3_arg12 : StableHlo.after (hostOps3 (F := F)) W (Proc.devRef .tc main_arg12) = W (Proc.devRef .tc main_arg12) := by
  after_results
private theorem s3_arg13 : StableHlo.after (hostOps3 (F := F)) W (Proc.devRef .tc main_arg13) = W (Proc.devRef .tc main_arg13) := by
  after_results
private theorem s3_arg14 : StableHlo.after (hostOps3 (F := F)) W (Proc.devRef .tc main_arg14) = W (Proc.devRef .tc main_arg14) := by
  after_results
private theorem s3_arg15 : StableHlo.after (hostOps3 (F := F)) W (Proc.devRef .tc main_arg15) = W (Proc.devRef .tc main_arg15) := by
  after_results

/-- The variance function's result, once the integer it converts is known to be zero. -/
private theorem s31_v41 (h7 : W (Proc.devRef .tc main_c_7) = constantI S_ 32 0#32) :
    StableHlo.after (hostOps3_1 (F := F)) W (Proc.devRef .tc main_v41) = Cert.Chain.var (W (Proc.devRef .tc main_v37)) := by
  after_results_simp
  simp only [StableHlo.TRef.ofBuf, StableHlo.TRef.toBuf, cast_eq]
  rw [h7]
  rfl
private theorem s31_v40 : StableHlo.after (hostOps3_1 (F := F)) W (Proc.devRef .tc main_v40) = W (Proc.devRef .tc main_v40) := by
  after_results_simp
private theorem s31_v37 : StableHlo.after (hostOps3_1 (F := F)) W (Proc.devRef .tc main_v37) = W (Proc.devRef .tc main_v37) := by
  after_results_simp
private theorem s31_arg12 : StableHlo.after (hostOps3_1 (F := F)) W (Proc.devRef .tc main_arg12) = W (Proc.devRef .tc main_arg12) := by
  after_results_simp
private theorem s31_arg13 : StableHlo.after (hostOps3_1 (F := F)) W (Proc.devRef .tc main_arg13) = W (Proc.devRef .tc main_arg13) := by
  after_results_simp
private theorem s31_arg14 : StableHlo.after (hostOps3_1 (F := F)) W (Proc.devRef .tc main_arg14) = W (Proc.devRef .tc main_arg14) := by
  after_results_simp
private theorem s31_arg15 : StableHlo.after (hostOps3_1 (F := F)) W (Proc.devRef .tc main_arg15) = W (Proc.devRef .tc main_arg15) := by
  after_results_simp

private theorem s32_v42 : StableHlo.after (hostOps3_2 (F := F)) W (Proc.devRef .tc main_v42) = Cert.KDefs.row256 (W (Proc.devRef .tc main_v40)) := by
  after_results; rfl
private theorem s32_v43 : StableHlo.after (hostOps3_2 (F := F)) W (Proc.devRef .tc main_v43) = Cert.KDefs.row256 (W (Proc.devRef .tc main_v41)) := by
  after_results; rfl
private theorem s32_v44 : StableHlo.after (hostOps3_2 (F := F)) W (Proc.devRef .tc main_v44) = Cert.KDefs.row256 (W (Proc.devRef .tc main_arg12)) := by
  after_results; rfl
private theorem s32_v45 : StableHlo.after (hostOps3_2 (F := F)) W (Proc.devRef .tc main_v45) = Cert.KDefs.row256 (W (Proc.devRef .tc main_arg13)) := by
  after_results; rfl
private theorem s32_v46 : StableHlo.after (hostOps3_2 (F := F)) W (Proc.devRef .tc main_v46) = Cert.KDefs.row256 (W (Proc.devRef .tc main_arg15)) := by
  after_results; rfl
private theorem s32_v37 : StableHlo.after (hostOps3_2 (F := F)) W (Proc.devRef .tc main_v37) = W (Proc.devRef .tc main_v37) := by
  after_results
private theorem s32_arg14 : StableHlo.after (hostOps3_2 (F := F)) W (Proc.devRef .tc main_arg14) = W (Proc.devRef .tc main_arg14) := by
  after_results

end Stretches

variable (m : (ℓ : Loc nD τ sig) → Buf (Elt F) ℓ) (ρ : Dev nD → PrngReg)

/-! ## Region 3's inputs, over region 2's output array `W12 … main_v37` -/

theorem V15_v37 (c : Dev nD) : V15 m ρ c main_v37 = W12 m ρ c (Proc.devRef .tc main_v37) :=
  (s32_v37 (W14 m ρ c)).trans ((s31_v37 (W13 m ρ c)).trans (s3_v37 (W12 m ρ c)))
theorem V15_v42 (c : Dev nD) : V15 m ρ c main_v42 = Cert.KDefs.row256 (Cert.Chain.mean (W12 m ρ c (Proc.devRef .tc main_v37))) :=
  (s32_v42 (W14 m ρ c)).trans (congrArg Cert.KDefs.row256 ((s31_v40 (W13 m ρ c)).trans (s3_v40 (W12 m ρ c))))
theorem V15_v43 (c : Dev nD) : V15 m ρ c main_v43 = Cert.KDefs.row256 (Cert.Chain.var (W12 m ρ c (Proc.devRef .tc main_v37))) :=
  (s32_v43 (W14 m ρ c)).trans (congrArg Cert.KDefs.row256
    ((s31_v41 (W13 m ρ c) (s3_c7 (W12 m ρ c))).trans (congrArg Cert.Chain.var (s3_v37 (W12 m ρ c)))))
theorem V15_v44 (c : Dev nD) : V15 m ρ c main_v44 = Cert.KDefs.row256 (m ((c : Thread nD τ).loc main_arg12)) :=
  (s32_v44 (W14 m ρ c)).trans (congrArg Cert.KDefs.row256
    ((s31_arg12 (W13 m ρ c)).trans ((s3_arg12 (W12 m ρ c)).trans (W12_arg12 m ρ c))))
theorem V15_v45 (c : Dev nD) : V15 m ρ c main_v45 = Cert.KDefs.row256 (m ((c : Thread nD τ).loc main_arg13)) :=
  (s32_v45 (W14 m ρ c)).trans (congrArg Cert.KDefs.row256
    ((s31_arg13 (W13 m ρ c)).trans ((s3_arg13 (W12 m ρ c)).trans (W12_arg13 m ρ c))))
theorem V15_arg14 (c : Dev nD) : V15 m ρ c main_arg14 = (m ((c : Thread nD τ).loc main_arg14)) :=
  (s32_arg14 (W14 m ρ c)).trans ((s31_arg14 (W13 m ρ c)).trans ((s3_arg14 (W12 m ρ c)).trans (W12_arg14 m ρ c)))
theorem V15_v46 (c : Dev nD) : V15 m ρ c main_v46 = Cert.KDefs.row256 (m ((c : Thread nD τ).loc main_arg15)) :=
  (s32_v46 (W14 m ρ c)).trans (congrArg Cert.KDefs.row256
    ((s31_arg15 (W13 m ρ c)).trans ((s3_arg15 (W12 m ρ c)).trans (W12_arg15 m ρ c))))

end Cert.KernelIdeal.KStages

end
-- ==== Proof.KStages3.lean ====
/- What the last kernel region finds in its input arrays: the host stretch before it applied to the launch contents of the
   arguments and to the previous region's output array. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.KArgs
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem
open Idealize.ShloMosaic.Pipeline (Dat Cfg Window)
open Cert.KernelIdeal.KArgs

variable {F : FTy → Type} [FloatOps F]
variable (m : (ℓ : Loc nD τ sig) → Buf (Elt F) ℓ) (ρ : Dev nD → PrngReg)

/-- One host stretch, read at a buffer none of its operations writes: the contents before the stretch. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section Stretches

variable (W : Valuation τ sig (Elt F))

/-! ### The first stretch: the column means of the previous region's output, and the integer zero -/

private theorem s4_v50 : StableHlo.after hostOps4 W (Proc.devRef .tc main_v50) = Cert.Chain.mean (W (Proc.devRef .tc main_v47)) := by
  after_results
  rfl

private theorem s4_c10 : StableHlo.after hostOps4 W (Proc.devRef .tc main_c_10) = constantI S_ 32 0#32 := by
  after_results

private theorem s4_v47 : StableHlo.after hostOps4 W (Proc.devRef .tc main_v47) = W (Proc.devRef .tc main_v47) :=
  host_keep hostOps4

/-! ### The second stretch: the column variances, given that the degrees-of-freedom correction it reads is the integer zero -/

private theorem s41_v51 (h : W (Proc.devRef .tc main_c_10) = constantI S_ 32 0#32) :
    StableHlo.after hostOps4_1 W (Proc.devRef .tc main_v51) = Cert.Chain.var (W (Proc.devRef .tc main_v47)) := by
  after_results
  rw [h]
  rfl

private theorem s41_v50 : StableHlo.after hostOps4_1 W (Proc.devRef .tc main_v50) = W (Proc.devRef .tc main_v50) :=
  host_keep hostOps4_1
private theorem s41_v47 : StableHlo.after hostOps4_1 W (Proc.devRef .tc main_v47) = W (Proc.devRef .tc main_v47) :=
  host_keep hostOps4_1

/-! ### The third stretch: vectors re-laid as rows -/

private theorem s42_v52 : StableHlo.after hostOps4_2 W (Proc.devRef .tc main_v52) = Cert.KDefs.row256 (W (Proc.devRef .tc main_v50)) := by
  after_results
  rfl
private theorem s42_v53 : StableHlo.after hostOps4_2 W (Proc.devRef .tc main_v53) = Cert.KDefs.row256 (W (Proc.devRef .tc main_v51)) := by
  after_results
  rfl
private theorem s42_v54 : StableHlo.after hostOps4_2 W (Proc.devRef .tc main_v54) = Cert.KDefs.row256 (W (Proc.devRef .tc main_arg16)) := by
  after_results
  rfl
private theorem s42_v55 : StableHlo.after hostOps4_2 W (Proc.devRef .tc main_v55) = Cert.KDefs.row256 (W (Proc.devRef .tc main_arg17)) := by
  after_results
  rfl
private theorem s42_v56 : StableHlo.after hostOps4_2 W (Proc.devRef .tc main_v56) = Cert.KDefs.row40 (W (Proc.devRef .tc main_arg19)) := by
  after_results
  rfl
private theorem s42_v47 : StableHlo.after hostOps4_2 W (Proc.devRef .tc main_v47) = W (Proc.devRef .tc main_v47) :=
  host_keep hostOps4_2

end Stretches

/-! ## Region 4's inputs, over region 3's output array `W16 … main_v47` -/

theorem V19_v47 (c : Dev nD) : V19 m ρ c main_v47 = W16 m ρ c (Proc.devRef .tc main_v47) :=
  (s42_v47 (W18 m ρ c)).trans ((s41_v47 (W17 m ρ c)).trans (s4_v47 (W16 m ρ c)))
theorem V19_v52 (c : Dev nD) : V19 m ρ c main_v52 = Cert.KDefs.row256 (Cert.Chain.mean (W16 m ρ c (Proc.devRef .tc main_v47))) :=
  (s42_v52 (W18 m ρ c)).trans (congrArg Cert.KDefs.row256 ((s41_v50 (W17 m ρ c)).trans (s4_v50 (W16 m ρ c))))
theorem V19_v53 (c : Dev nD) : V19 m ρ c main_v53 = Cert.KDefs.row256 (Cert.Chain.var (W16 m ρ c (Proc.devRef .tc main_v47))) :=
  (s42_v53 (W18 m ρ c)).trans (congrArg Cert.KDefs.row256
    ((s41_v51 (W17 m ρ c) (s4_c10 (W16 m ρ c))).trans (congrArg Cert.Chain.var (s4_v47 (W16 m ρ c)))))
theorem V19_v54 (c : Dev nD) : V19 m ρ c main_v54 = Cert.KDefs.row256 (m ((c : Thread nD τ).loc main_arg16)) := by
  refine (s42_v54 (W18 m ρ c)).trans (congrArg Cert.KDefs.row256 ?_)
  refine (host_keep hostOps4_1).trans ?_
  refine (host_keep hostOps4).trans ?_
  exact W16_arg16 m ρ c
theorem V19_v55 (c : Dev nD) : V19 m ρ c main_v55 = Cert.KDefs.row256 (m ((c : Thread nD τ).loc main_arg17)) := by
  refine (s42_v55 (W18 m ρ c)).trans (congrArg Cert.KDefs.row256 ?_)
  refine (host_keep hostOps4_1).trans ?_
  refine (host_keep hostOps4).trans ?_
  exact W16_arg17 m ρ c
theorem V19_arg18 (c : Dev nD) : V19 m ρ c main_arg18 = (m ((c : Thread nD τ).loc main_arg18)) := by
  refine (host_keep hostOps4_2).trans ?_
  refine (host_keep hostOps4_1).trans ?_
  refine (host_keep hostOps4).trans ?_
  exact W16_arg18 m ρ c
theorem V19_v56 (c : Dev nD) : V19 m ρ c main_v56 = Cert.KDefs.row40 (m ((c : Thread nD τ).loc main_arg19)) := by
  refine (s42_v56 (W18 m ρ c)).trans (congrArg Cert.KDefs.row40 ?_)
  refine (host_keep hostOps4_1).trans ?_
  refine (host_keep hostOps4).trans ?_
  exact W16_arg19 m ρ c

end Cert.KernelIdeal.KStages

end
-- ==== Proof.RegionLin.lean ====
/- The first affine-layer kernel: what it leaves in its output array, as one function of its three input arrays. -/
import proofs.«417072_j36696200577384_1_alg».proof.Proof.Gen.KernelIdeal.Frame
import proofs.«417072_j36696200577384_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The contraction of a 5000×128 block with the 128×256 weights: operand indices, axis by axis

At output entry (r, j) and contraction position k the left operand is read at (r, k) and the right one at (k, j). -/

theorem lhs128_0 (j : S5000x256.Idx) (k : dot_S5000x128_S128x256_S5000x256_1_0_0_1_n_n.contr.Idx) :
    (dot_S5000x128_S128x256_S5000x256_1_0_0_1_n_n.lhsIdx j k 0 : ℕ) = j 0 := by
  simp [DotDims.lhsIdx, dot_S5000x128_S128x256_S5000x256_1_0_0_1_n_n]; rfl
theorem lhs128_1 (j : S5000x256.Idx) (k : dot_S5000x128_S128x256_S5000x256_1_0_0_1_n_n.contr.Idx) :
    (dot_S5000x128_S128x256_S5000x256_1_0_0_1_n_n.lhsIdx j k 1 : ℕ) = k ⟨0, by decide⟩ := by
  simp [DotDims.lhsIdx, dot_S5000x128_S128x256_S5000x256_1_0_0_1_n_n]; rfl
theorem rhs128_0 (j : S5000x256.Idx) (k : dot_S5000x128_S128x256_S5000x256_1_0_0_1_n_n.contr.Idx) :
    (dot_S5000x128_S128x256_S5000x256_1_0_0_1_n_n.rhsIdx j k 0 : ℕ) = k ⟨0, by decide⟩ := by
  simp [DotDims.rhsIdx, dot_S5000x128_S128x256_S5000x256_1_0_0_1_n_n]; rfl
theorem rhs128_1 (j : S5000x256.Idx) (k : dot_S5000x128_S128x256_S5000x256_1_0_0_1_n_n.contr.Idx) :
    (dot_S5000x128_S128x256_S5000x256_1_0_0_1_n_n.rhsIdx j k 1 : ℕ) = j 1 := by
  simp [DotDims.rhsIdx, dot_S5000x128_S128x256_S5000x256_1_0_0_1_n_n]; rfl

/-- The product into a zero accumulator, at entry (p, q): the sum over the 128 contraction positions of
    row p of the left operand against column q of the right one. -/
theorem matmul128_apply (x0 : FVec Ideal S5000x128 .f32) (x1 : FVec Ideal S128x256 .f32) (p : Fin 5000) (q : Fin 256) :
    FloatOps.matmul (φ₁ := .f32) (φ₂ := .f32) dot_S5000x128_S128x256_S5000x256_1_0_0_1_n_n none x0 x1 (constant (F := Ideal) S5000x256 .f32 0x00000000#32) (ix2 p q)
      = ∑ k : Fin 128, x0 (ix2 p k) * x1 (ix2 k q) := by
  refine (Ideal.matmul_constant_zero_apply dot_S5000x128_S128x256_S5000x256_1_0_0_1_n_n none x0 x1 (ix2 p q)).trans ?_
  refine (Equiv.sum_comp (contrEquiv1 dot_S5000x128_S128x256_S5000x256_1_0_0_1_n_n 128 rfl rfl).symm _).symm.trans ?_
  refine Finset.sum_congr rfl fun k _ => ?_
  have hk := contrEquiv1_symm_val dot_S5000x128_S128x256_S5000x256_1_0_0_1_n_n 128 rfl rfl k
  have hl : dot_S5000x128_S128x256_S5000x256_1_0_0_1_n_n.lhsIdx (ix2 p q) ((contrEquiv1 dot_S5000x128_S128x256_S5000x256_1_0_0_1_n_n 128 rfl rfl).symm k) = ix2 p k := by
    funext a; apply Fin.ext
    match a with
    | ⟨0, _⟩ => exact lhs128_0 _ _
    | ⟨1, _⟩ => exact (lhs128_1 _ _).trans hk
  have hr : dot_S5000x128_S128x256_S5000x256_1_0_0_1_n_n.rhsIdx (ix2 p q) ((contrEquiv1 dot_S5000x128_S128x256_S5000x256_1_0_0_1_n_n 128 rfl rfl).symm k) = ix2 k q := by
    funext a; apply Fin.ext
    match a with
    | ⟨0, _⟩ => exact (rhs128_0 _ _).trans hk
    | ⟨1, _⟩ => exact rhs128_1 _ _
  rw [hl, hr]

/-- The body's arithmetic at entry (p, q) of a block: row p of the feature block against column q of the weights,
    plus the bias row's entry q (the two casts are identities, the bias row is repeated down the 5000 rows). -/
theorem pay128_apply (x0 : Vec Ideal S5000x128 .f32) (x1 : Vec Ideal S128x256 .f32) (x2 : Vec Ideal S1x256 .f32) (p : Fin 5000) (q : Fin 256) :
    k0_pay1 (F := Ideal) x0 x1 x2 (ix2 p q) = (∑ k : Fin 128, x0 (ix2 p k) * x1 (ix2 k q)) + x2 (ix2 0 q) := by
  unfold k0_pay1
  show FloatOps.matmul (φ₁ := .f32) (φ₂ := .f32) dot_S5000x128_S128x256_S5000x256_1_0_0_1_n_n none (shapeCast S5000x128 x0 shapeCasts_S5000x128_S5000x128) x1 (constant (F := Ideal) S5000x256 .f32 0x00000000#32) (ix2 p q)
      + broadcastTo S5000x256 (shapeCast S1x256 x2 shapeCasts_S1x256_S1x256) broadcasts_S1x256_S5000x256 (ix2 p q) = _
  rw [shapeCast_self, shapeCast_self, matmul128_apply, broadcastTo_1b_ab_apply]

/-- If the three blocks hold, on the row and the column that entry (p, q) uses, what the arrays `H`, `W`, `B` hold on
    row `i 0` and column `i 1`, the body's entry (p, q) is entry `i` of `H · W + B`. -/
theorem entry128 (H : Cert.Spec.Mat 50000 128) (W : Cert.Spec.Mat 128 256) (B : Cert.Spec.Mat 1 256)
    (x0 : Vec Ideal S5000x128 .f32) (x1 : Vec Ideal S128x256 .f32) (x2 : Vec Ideal S1x256 .f32)
    (p : Fin 5000) (q : Fin 256) (i : S50000x256.Idx)
    (h0 : ∀ k : Fin 128, x0 (ix2 p k) = H (ix2 (i 0) k))
    (h1 : ∀ k : Fin 128, x1 (ix2 k q) = W (ix2 k (i 1)))
    (h2 : x2 (ix2 0 q) = B (ix2 0 (i 1))) :
    k0_pay1 (F := Ideal) x0 x1 x2 (ix2 p q) = Cert.Spec.linear H W B i := by
  rw [pay128_apply, h2]
  unfold Cert.Spec.linear Cert.Spec.linearAt
  exact congrArg (· + B (ix2 0 (i 1))) (Finset.sum_congr rfl fun k _ => by rw [h0 k, h1 k])

variable (V : (c : Dev nD) → (b : Ref sig .tc) → Buf (Elt Ideal) ((c : Thread nD τ).loc b))

theorem hz : (![0, 0] : Fin 2 → Nat) = fun _ => 0 := funext fun a => by fin_cases a <;> rfl

/-- The three input arrays as the region finds them: the 50000×128 features, the 128×256 weights, the 1×256 bias row. -/
abbrev feat0 (c : Dev nD) : Cert.Spec.Mat 50000 128 := V c (Pipeline.arrRef spec0 0)
abbrev wgt0 (c : Dev nD) : Cert.Spec.Mat 128 256 := V c (Pipeline.arrRef spec0 1)
abbrev bias0 (c : Dev nD) : Cert.Spec.Mat 1 256 := V c (Pipeline.arrRef spec0 2)

/-- The block indices over the grid of ten points: at point t the features and the output are at row block t,
    the weights and the bias row at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is row block t of `h · W + b`: entry (p, q) of the block is row 5000·t + p of the features
    against column q of the weights plus the bias, and every entry of an affine layer depends on one row of the features only. -/
theorem flushed0_eq (c : Dev nD) (t : Fin cfg0.N) :
    (dat0 V c).flushed 3 t = ((cfg0.win 3).blk t).view.read (Elt Ideal) (Cert.Spec.linear (feat0 V c) (wgt0 V c) (bias0 V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨e00, e01, e10, e11, e20, e21, e30, e31⟩ := idx_facts0 t
  funext j
  obtain ⟨p, q, rfl⟩ : ∃ (p : Fin 5000) (q : Fin 256), j = (ix2 p q : S5000x256.Idx) := ⟨j 0, j 1, eq_ix2 (n0 := 5000) (n1 := 256) j⟩
  refine entry128 (feat0 V c) (wgt0 V c) (bias0 V c) (iblk0 V c 0 t) (iblk0 V c 1 t) (iblk0 V c 2 t) p q (((cfg0.win 3).blk t).view.emb (ix2 p q)) ?_ ?_ ?_
  · intro k
    show V c (Pipeline.arrRef spec0 0) (((cfg0.win 0).blk t).view.emb (ix2 p k)) = V c (Pipeline.arrRef spec0 0) _
    refine congrArg (V c (Pipeline.arrRef spec0 0)) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · intro k
    show V c (Pipeline.arrRef spec0 1) (((cfg0.win 1).blk t).view.emb (ix2 k q)) = V c (Pipeline.arrRef spec0 1) _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 256 + 1 * q.val = win0_3.index t (1 : Fin 2) * 256 + 1 * q.val; omega
  · show V c (Pipeline.arrRef spec0 2) (((cfg0.win 2).blk t).view.emb (ix2 0 q)) = V c (Pipeline.arrRef spec0 2) _
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v13).slice (win0_3.rect t)).set ↔ _
  rw [View.set_slice_whole, Rect.mem_set_unit]
  exact Iff.rfl

/-- The ten row blocks fill the output array: row r lies in the block of point r / 5000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- After the first affine-layer kernel has run over its ten row blocks, its output array is `h · W + b` of its input
    arrays as the region found them (windows 0, 1, 2: the features, the weights, the bias row). -/
theorem value0 (c : Dev nD) :
    (dat0 V c).arrAt 3 cfg0.N
      = Cert.Spec.linear (N := 50000) (K := 128) (D := 256) (V c (Pipeline.arrRef spec0 0)) (V c (Pipeline.arrRef spec0 1)) (V c (Pipeline.arrRef spec0 2)) :=
  (dat0 V c).arrAt_eq_of_cover 3 (Cert.Spec.linear (feat0 V c) (wgt0 V c) (bias0 V c)) (fun t _ => flushed0_eq V c t) cover0

end Cert.KernelIdeal.RegionLin

end
-- ==== Proof.RegionLin2.lean ====
/- The second affine-layer kernel: what it leaves in its output array, as one function of its three input arrays. -/
import proofs.«417072_j36696200577384_1_alg».proof.Proof.Gen.KernelIdeal.Frame
import proofs.«417072_j36696200577384_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionLin2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx
open scoped BigOperators

/-! ## The contraction of a 5000×256 block with the 256×256 weights: operand indices, axis by axis

At output entry (r, j) and contraction position k the left operand is read at (r, k) and the right one at (k, j). -/

theorem lhs256_0 (j : S5000x256.Idx) (k : dot_S5000x256_S256x256_S5000x256_1_0_0_1_n_n.contr.Idx) :
    (dot_S5000x256_S256x256_S5000x256_1_0_0_1_n_n.lhsIdx j k 0 : ℕ) = j 0 := by
  simp [DotDims.lhsIdx, dot_S5000x256_S256x256_S5000x256_1_0_0_1_n_n]; rfl
theorem lhs256_1 (j : S5000x256.Idx) (k : dot_S5000x256_S256x256_S5000x256_1_0_0_1_n_n.contr.Idx) :
    (dot_S5000x256_S256x256_S5000x256_1_0_0_1_n_n.lhsIdx j k 1 : ℕ) = k ⟨0, by decide⟩ := by
  simp [DotDims.lhsIdx, dot_S5000x256_S256x256_S5000x256_1_0_0_1_n_n]; rfl
theorem rhs256_0 (j : S5000x256.Idx) (k : dot_S5000x256_S256x256_S5000x256_1_0_0_1_n_n.contr.Idx) :
    (dot_S5000x256_S256x256_S5000x256_1_0_0_1_n_n.rhsIdx j k 0 : ℕ) = k ⟨0, by decide⟩ := by
  simp [DotDims.rhsIdx, dot_S5000x256_S256x256_S5000x256_1_0_0_1_n_n]; rfl
theorem rhs256_1 (j : S5000x256.Idx) (k : dot_S5000x256_S256x256_S5000x256_1_0_0_1_n_n.contr.Idx) :
    (dot_S5000x256_S256x256_S5000x256_1_0_0_1_n_n.rhsIdx j k 1 : ℕ) = j 1 := by
  simp [DotDims.rhsIdx, dot_S5000x256_S256x256_S5000x256_1_0_0_1_n_n]; rfl

/-- The product into a zero accumulator, at entry (p, q): the sum over the 256 contraction positions of
    row p of the left operand against column q of the right one. -/
theorem matmul256_apply (x0 : FVec Ideal S5000x256 .f32) (x1 : FVec Ideal S256x256 .f32) (p : Fin 5000) (q : Fin 256) :
    FloatOps.matmul (φ₁ := .f32) (φ₂ := .f32) dot_S5000x256_S256x256_S5000x256_1_0_0_1_n_n none x0 x1 (constant (F := Ideal) S5000x256 .f32 0x00000000#32) (ix2 p q)
      = ∑ k : Fin 256, x0 (ix2 p k) * x1 (ix2 k q) := by
  refine (Ideal.matmul_constant_zero_apply dot_S5000x256_S256x256_S5000x256_1_0_0_1_n_n none x0 x1 (ix2 p q)).trans ?_
  refine (Equiv.sum_comp (contrEquiv1 dot_S5000x256_S256x256_S5000x256_1_0_0_1_n_n 256 rfl rfl).symm _).symm.trans ?_
  refine Finset.sum_congr rfl fun k _ => ?_
  have hk := contrEquiv1_symm_val dot_S5000x256_S256x256_S5000x256_1_0_0_1_n_n 256 rfl rfl k
  have hl : dot_S5000x256_S256x256_S5000x256_1_0_0_1_n_n.lhsIdx (ix2 p q) ((contrEquiv1 dot_S5000x256_S256x256_S5000x256_1_0_0_1_n_n 256 rfl rfl).symm k) = ix2 p k := by
    funext a; apply Fin.ext
    match a with
    | ⟨0, _⟩ => exact lhs256_0 _ _
    | ⟨1, _⟩ => exact (lhs256_1 _ _).trans hk
  have hr : dot_S5000x256_S256x256_S5000x256_1_0_0_1_n_n.rhsIdx (ix2 p q) ((contrEquiv1 dot_S5000x256_S256x256_S5000x256_1_0_0_1_n_n 256 rfl rfl).symm k) = ix2 k q := by
    funext a; apply Fin.ext
    match a with
    | ⟨0, _⟩ => exact (rhs256_0 _ _).trans hk
    | ⟨1, _⟩ => exact rhs256_1 _ _
  rw [hl, hr]

/-- The body's arithmetic at entry (p, q) of a block: row p of the feature block against column q of the weights,
    plus the bias row's entry q (the two casts are identities, the bias row is repeated down the 5000 rows). -/
theorem pay256_apply (x0 : Vec Ideal S5000x256 .f32) (x1 : Vec Ideal S256x256 .f32) (x2 : Vec Ideal S1x256 .f32) (p : Fin 5000) (q : Fin 256) :
    k2_pay1 (F := Ideal) x0 x1 x2 (ix2 p q) = (∑ k : Fin 256, x0 (ix2 p k) * x1 (ix2 k q)) + x2 (ix2 0 q) := by
  unfold k2_pay1
  show FloatOps.matmul (φ₁ := .f32) (φ₂ := .f32) dot_S5000x256_S256x256_S5000x256_1_0_0_1_n_n none (shapeCast S5000x256 x0 shapeCasts_S5000x256_S5000x256) x1 (constant (F := Ideal) S5000x256 .f32 0x00000000#32) (ix2 p q)
      + broadcastTo S5000x256 (shapeCast S1x256 x2 shapeCasts_S1x256_S1x256) broadcasts_S1x256_S5000x256 (ix2 p q) = _
  rw [shapeCast_self, shapeCast_self, matmul256_apply, broadcastTo_1b_ab_apply]

/-- If the three blocks hold, on the row and the column that entry (p, q) uses, what the arrays `H`, `W`, `B` hold on
    row `i 0` and column `i 1`, the body's entry (p, q) is entry `i` of `H · W + B`. -/
theorem entry256 (H : Cert.Spec.Mat 50000 256) (W : Cert.Spec.Mat 256 256) (B : Cert.Spec.Mat 1 256)
    (x0 : Vec Ideal S5000x256 .f32) (x1 : Vec Ideal S256x256 .f32) (x2 : Vec Ideal S1x256 .f32)
    (p : Fin 5000) (q : Fin 256) (i : S50000x256.Idx)
    (h0 : ∀ k : Fin 256, x0 (ix2 p k) = H (ix2 (i 0) k))
    (h1 : ∀ k : Fin 256, x1 (ix2 k q) = W (ix2 k (i 1)))
    (h2 : x2 (ix2 0 q) = B (ix2 0 (i 1))) :
    k2_pay1 (F := Ideal) x0 x1 x2 (ix2 p q) = Cert.Spec.linear H W B i := by
  rw [pay256_apply, h2]
  unfold Cert.Spec.linear Cert.Spec.linearAt
  exact congrArg (· + B (ix2 0 (i 1))) (Finset.sum_congr rfl fun k _ => by rw [h0 k, h1 k])

theorem hz : (![0, 0] : Fin 2 → Nat) = fun _ => 0 := funext fun a => by fin_cases a <;> rfl

/-- The three input arrays as the region finds them: the 50000×256 features, the 256×256 weights, the 1×256 bias row. -/
abbrev feat2 (c : Dev nD) : Cert.Spec.Mat 50000 256 := V c (Pipeline.arrRef spec2 0)
abbrev wgt2 (c : Dev nD) : Cert.Spec.Mat 256 256 := V c (Pipeline.arrRef spec2 1)
abbrev bias2 (c : Dev nD) : Cert.Spec.Mat 1 256 := V c (Pipeline.arrRef spec2 2)

/-- The block indices over the grid of ten points: at point t the features and the output are at row block t,
    the weights and the bias row at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is row block t of `h · W + b`: entry (p, q) of the block is row 5000·t + p of the features
    against column q of the weights plus the bias, and every entry of an affine layer depends on one row of the features only. -/
theorem flushed2_eq (c : Dev nD) (t : Fin cfg2.N) :
    (dat2 V c).flushed 3 t = ((cfg2.win 3).blk t).view.read (Elt Ideal) (Cert.Spec.linear (feat2 V c) (wgt2 V c) (bias2 V c)) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x256) hz, View.ld_unit_zero (S := S1x256) hz]
  obtain ⟨e00, e01, e10, e11, e20, e21, e30, e31⟩ := idx_facts2 t
  funext j
  obtain ⟨p, q, rfl⟩ : ∃ (p : Fin 5000) (q : Fin 256), j = (ix2 p q : S5000x256.Idx) := ⟨j 0, j 1, eq_ix2 (n0 := 5000) (n1 := 256) j⟩
  refine entry256 (feat2 V c) (wgt2 V c) (bias2 V c) (iblk2 V c 0 t) (iblk2 V c 1 t) (iblk2 V c 2 t) p q (((cfg2.win 3).blk t).view.emb (ix2 p q)) ?_ ?_ ?_
  · intro k
    show V c (Pipeline.arrRef spec2 0) (((cfg2.win 0).blk t).view.emb (ix2 p k)) = V c (Pipeline.arrRef spec2 0) _
    refine congrArg (V c (Pipeline.arrRef spec2 0)) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 256 + 1 * k.val = k.val; omega
  · intro k
    show V c (Pipeline.arrRef spec2 1) (((cfg2.win 1).blk t).view.emb (ix2 k q)) = V c (Pipeline.arrRef spec2 1) _
    refine congrArg (V c (Pipeline.arrRef spec2 1)) (funext fun a => Fin.ext ?_)
    match a with
    | ⟨0, _⟩ => show win2_1.index t (0 : Fin 2) * 256 + 1 * k.val = k.val; omega
    | ⟨1, _⟩ => show win2_1.index t (1 : Fin 2) * 256 + 1 * q.val = win2_3.index t (1 : Fin 2) * 256 + 1 * q.val; omega
  · show V c (Pipeline.arrRef spec2 2) (((cfg2.win 2).blk t).view.emb (ix2 0 q)) = V c (Pipeline.arrRef spec2 2) _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 256 + 1 * q.val = win2_3.index t (1 : Fin 2) * 256 + 1 * q.val; omega

/-- An index of the output array is in point t's block iff each coordinate is in the block's range on its axis. -/
theorem mem_blk2 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v37).slice (win2_3.rect t)).set ↔ _
  rw [View.set_slice_whole, Rect.mem_set_unit]
  exact Iff.rfl

/-- The ten row blocks fill the output array: row r lies in the block of point r / 5000. -/
theorem cover2 (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 256 ≤ (i 1).val ∧ (i 1).val < win2_3.index t (1 : Fin 2) * 256 + 256; omega

/-- After the second affine-layer kernel has run over its ten row blocks, its output array is `h · W + b` of its input
    arrays as the region found them (windows 0, 1, 2: the features, the weights, the bias row). -/
theorem value2 (c : Dev nD) :
    (dat2 V c).arrAt 3 cfg2.N
      = Cert.Spec.linear (N := 50000) (K := 256) (D := 256) (V c (Pipeline.arrRef spec2 0)) (V c (Pipeline.arrRef spec2 1)) (V c (Pipeline.arrRef spec2 2)) :=
  (dat2 V c).arrAt_eq_of_cover 3 (Cert.Spec.linear (feat2 V c) (wgt2 V c) (bias2 V c)) (fun t _ => flushed2_eq V c t) cover2

end Cert.KernelIdeal.RegionLin2

end
-- ==== Proof.RegionBn.lean ====
/- The first normalise-rectify-affine kernel: what it leaves in its output array, as one function of its seven input arrays.
   The road: a product with the weights read at an entry is a sum over the 256 contracted columns; so the value the body
   stores at entry (p, q) of a block is max(Σ_k max(norm(p, k), 0)·W[k, q] + b[q], 0), which reads ONE row of the
   pre-activation block; that row is row 5000·t + p of the whole array at grid point t, the six small operands are
   whole arrays at every point; the ten row blocks tile the 50000 rows. -/
import proofs.«417072_j36696200577384_1_alg».proof.Proof.Gen.KernelIdeal.Frame
import proofs.«417072_j36696200577384_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBn

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The product with the 256×256 weights, read at an entry

The product's dimension numbers contract the left operand's axis 1 with the right operand's axis 0. On each operand the
index at result entry j and contraction position k is therefore j's coordinate on the free axis and k on the contracted
one: four facts, one per operand axis. -/

theorem lhsD_0 (j : S5000x256.Idx) (k : dot_S5000x256_S256x256_S5000x256_1_0_0_1_n_n.contr.Idx) :
    (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem lhsD_1 (j : S5000x256.Idx) (k : dot_S5000x256_S256x256_S5000x256_1_0_0_1_n_n.contr.Idx) :
    (dot_S5000x256_S256x256_S5000x256_1_0_0_1_n_n.lhsIdx j k 1).val = (k ⟨0, by decide⟩).val :=
  dot_S5000x256_S256x256_S5000x256_1_0_0_1_n_n.lhsIdx_val_of_single (cl := 1) rfl j k

theorem rhsD_0 (j : S5000x256.Idx) (k : dot_S5000x256_S256x256_S5000x256_1_0_0_1_n_n.contr.Idx) :
    (dot_S5000x256_S256x256_S5000x256_1_0_0_1_n_n.rhsIdx j k 0).val = (k ⟨0, by decide⟩).val :=
  dot_S5000x256_S256x256_S5000x256_1_0_0_1_n_n.rhsIdx_val_of_single (cr := 0) rfl j k

theorem rhsD_1 (j : S5000x256.Idx) (k : dot_S5000x256_S256x256_S5000x256_1_0_0_1_n_n.contr.Idx) :
    (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry (p, q) of the product into a zero accumulator is Σ_k A[p, k]·B[k, q]. -/
theorem matmulD_apply (A : FVec Ideal S5000x256 .f32) (B : FVec Ideal S256x256 .f32) (p : Fin 5000) (q : Fin 256) :
    matmul dot_S5000x256_S256x256_S5000x256_1_0_0_1_n_n none A B (constant (F := Ideal) S5000x256 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have l2 : dot_S5000x256_S256x256_S5000x256_1_0_0_1_n_n.lhsIdx (ix2 p q)
      ((contrEquiv1 dot_S5000x256_S256x256_S5000x256_1_0_0_1_n_n 256 rfl rfl).symm k) = ix2 p k := by
    funext ax; apply Fin.ext
    match ax with
    | ⟨0, _⟩ => exact lhsD_0 _ _
    | ⟨1, _⟩ => exact (lhsD_1 _ _).trans hk
  have r2 : dot_S5000x256_S256x256_S5000x256_1_0_0_1_n_n.rhsIdx (ix2 p q)
      ((contrEquiv1 dot_S5000x256_S256x256_S5000x256_1_0_0_1_n_n 256 rfl rfl).symm k) = ix2 k q := by
    funext ax; apply Fin.ext
    match ax with
    | ⟨0, _⟩ => exact (rhsD_0 _ _).trans hk
    | ⟨1, _⟩ => exact rhsD_1 _ _
  rw [l2, r2]

/-! ## The stored value at an entry -/

/-- The zero offsets of a whole-block access, as a constant function. -/
theorem hz : (![0, 0] : Fin 2 → Nat) = fun _ => 0 := funext fun a => by fin_cases a <;> rfl

/-- A reciprocal square root taken entry by entry. -/
theorem rsqrt_at {s : Shape} {φ : FTy} (a : FVec Ideal s φ) (i : s.Idx) : rsqrt a i = Ideal.rsqrt (a i) := rfl

/-- The rectified normalisation of one 5000-row block, as the three kernels compute it from the block and the four
    statistics rows: subtract the mean row, scale by the reciprocal root of the variance row plus ε, scale by the gain row,
    add the shift row, clamp at zero. -/
def normBlk (x0 : Vec Ideal S5000x256 .f32) (xv xm xg xb : Vec Ideal S1x256 .f32) : FVec Ideal S5000x256 .f32 :=
  maximumf
    (addf
      (mulf
        (mulf (subf x0 (broadcastTo S5000x256 xm broadcasts_S1x256_S5000x256))
          (broadcastTo S5000x256 (rsqrt (addf xv (broadcast S1x256 (Scalar.ofBits (F := Ideal) .f32 0x3727C5AC#32))))
            broadcasts_S1x256_S5000x256))
        (broadcastTo S5000x256 xg broadcasts_S1x256_S5000x256))
      (broadcastTo S5000x256 xb broadcasts_S1x256_S5000x256))
    (broadcast S5000x256 (Scalar.ofBits (F := Ideal) .f32 0x00000000#32))

/-- Entry (p, k) of the rectified normalisation of a block reads row p of the block and column k of each statistics row. -/
theorem normBlk_apply (x0 : Vec Ideal S5000x256 .f32) (xv xm xg xb : Vec Ideal S1x256 .f32) (p : Fin 5000) (k : Fin 256) :
    normBlk x0 xv xm xg xb (ix2 p k)
      = max (((x0 (ix2 p k) - xm (ix2 0 k)) * Ideal.rsqrt (xv (ix2 0 k) + Cert.Spec.eps)) * xg (ix2 0 k) + xb (ix2 0 k)) 0 := by
  unfold normBlk
  rw [maximumf_apply, addf_apply, mulf_apply, mulf_apply, subf_apply, broadcastTo_1b_ab_apply, broadcastTo_1b_ab_apply,
    broadcastTo_1b_ab_apply, broadcastTo_1b_ab_apply, rsqrt_at, addf_apply, broadcast_apply, broadcast_apply]
  show max (((x0 (ix2 p k) - xm (ix2 0 k)) * Ideal.rsqrt (xv (ix2 0 k) + Ideal.ofBits .f32 0x3727C5AC#32)) * xg (ix2 0 k) + xb (ix2 0 k))
      (Ideal.ofBits .f32 0x00000000#32) = _
  rw [Ideal.ofBits_zero_f32]
  rfl

/-- The first kernel's stored value: the rectified normalisation times the weights, plus the bias row, clamped at zero. -/
theorem pay1_eq (x0 : Vec Ideal S5000x256 .f32) (xv xm xg xb : Vec Ideal S1x256 .f32) (xW : Vec Ideal S256x256 .f32)
    (xc : Vec Ideal S1x256 .f32) :
    k1_pay1 (F := Ideal) x0 xv xm xg xb xW xc
      = maximumf
          (addf (matmul (φ₁ := .f32) (φ₂ := .f32) dot_S5000x256_S256x256_S5000x256_1_0_0_1_n_n none (normBlk x0 xv xm xg xb) xW
              (constant (F := Ideal) S5000x256 .f32 0x00000000#32))
            (broadcastTo S5000x256 xc broadcasts_S1x256_S5000x256))
          (broadcast S5000x256 (Scalar.ofBits (F := Ideal) .f32 0x00000000#32)) := by
  unfold k1_pay1 normBlk
  simp only [shapeCast_self]

/-- Entry (p, q) of the stored value, written out. -/
theorem pay1_apply (x0 : Vec Ideal S5000x256 .f32) (xv xm xg xb : Vec Ideal S1x256 .f32) (xW : Vec Ideal S256x256 .f32)
    (xc : Vec Ideal S1x256 .f32) (p : Fin 5000) (q : Fin 256) :
    k1_pay1 (F := Ideal) x0 xv xm xg xb xW xc (ix2 p q)
      = max ((∑ k : Fin 256, max (((x0 (ix2 p k) - xm (ix2 0 k)) * Ideal.rsqrt (xv (ix2 0 k) + Cert.Spec.eps)) * xg (ix2 0 k) + xb (ix2 0 k)) 0
              * xW (ix2 k q)) + xc (ix2 0 q)) 0 := by
  rw [pay1_eq, maximumf_apply, addf_apply, matmulD_apply, broadcastTo_1b_ab_apply, broadcast_apply]
  show max (_ + xc (ix2 0 q)) (Ideal.ofBits .f32 0x00000000#32) = _
  rw [Ideal.ofBits_zero_f32]
  refine congrArg (fun s => max (s + xc (ix2 0 q)) 0) (Finset.sum_congr rfl fun k _ => ?_)
  rw [normBlk_apply]

variable (V : (c : Dev nD) → (b : Ref sig .tc) → Buf (Elt Ideal) ((c : Thread nD τ).loc b))

/-! ## One entry of a block against one entry of the layer

The stored value at entry (p, q) of a block reads row p of the pre-activation block, every column of the four statistics
rows and of the weights' column q, and the bias at q. If row p of the block is row r of the whole array, and the small
operands are the whole arrays, the stored value is the layer's entry (r, q). -/

theorem pay1_of_rows (x0 : Vec Ideal S5000x256 .f32) (xv xm xg xb : Vec Ideal S1x256 .f32) (xW : Vec Ideal S256x256 .f32)
    (xc : Vec Ideal S1x256 .f32) (u : Cert.Spec.Mat 50000 256) (mu v g be : Cert.Spec.Mat 1 256) (W : Cert.Spec.Mat 256 256)
    (b : Cert.Spec.Mat 1 256) (p : Fin 5000) (q : Fin 256) (r : Fin 50000)
    (hu : ∀ k : Fin 256, x0 (ix2 p k) = u (ix2 r k)) (hm : ∀ k : Fin 256, xm (ix2 0 k) = mu (ix2 0 k))
    (hv : ∀ k : Fin 256, xv (ix2 0 k) = v (ix2 0 k)) (hg : ∀ k : Fin 256, xg (ix2 0 k) = g (ix2 0 k))
    (hb : ∀ k : Fin 256, xb (ix2 0 k) = be (ix2 0 k)) (hW : ∀ k : Fin 256, xW (ix2 k q) = W (ix2 k q))
    (hc : xc (ix2 0 q) = b (ix2 0 q)) :
    k1_pay1 (F := Ideal) x0 xv xm xg xb xW xc (ix2 p q) = max (Cert.Spec.bnLinearAt u mu v g be W b r q) 0 := by
  rw [pay1_apply]
  unfold Cert.Spec.bnLinearAt Cert.Spec.normAt
  rw [hc]
  refine congrArg (fun s => max (s + b (ix2 0 q)) 0) (Finset.sum_congr rfl fun k _ => ?_)
  rw [hu k, hm k, hv k, hg k, hb k, hW k]

/-! ## Region 1: the blocks, read off the arrays -/

/-- The layer the first kernel computes, of the arrays as the region finds them. -/
abbrev layer1 (c : Dev nD) : Cert.Spec.Mat 50000 256 :=
  Cert.Spec.bnLinearRelu (N := 50000) (K := 256) (D := 256) (V c (Pipeline.arrRef spec1 0)) (V c (Pipeline.arrRef spec1 1))
    (V c (Pipeline.arrRef spec1 2)) (V c (Pipeline.arrRef spec1 3)) (V c (Pipeline.arrRef spec1 4)) (V c (Pipeline.arrRef spec1 5))
    (V c (Pipeline.arrRef spec1 6))

/-- The index maps over the ten points: the pre-activation block and the output block are both row block t; every other
    window stays on its one block. -/
theorem idx_facts1 : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Each window's block at a point is its array read through the block's rectangle. -/
theorem rd1_0 (c : Dev nD) (t : Fin cfg1.N) (y : S5000x256.Idx) :
    (iblk1 V c 0 t : Vec Ideal S5000x256 .f32) y = V c (Pipeline.arrRef spec1 0) (((cfg1.win 0).blk t).view.emb y) := rfl
theorem rd1_1 (c : Dev nD) (t : Fin cfg1.N) (y : S1x256.Idx) :
    (iblk1 V c 1 t : Vec Ideal S1x256 .f32) y = V c (Pipeline.arrRef spec1 1) (((cfg1.win 1).blk t).view.emb y) := rfl
theorem rd1_2 (c : Dev nD) (t : Fin cfg1.N) (y : S1x256.Idx) :
    (iblk1 V c 2 t : Vec Ideal S1x256 .f32) y = V c (Pipeline.arrRef spec1 2) (((cfg1.win 2).blk t).view.emb y) := rfl
theorem rd1_3 (c : Dev nD) (t : Fin cfg1.N) (y : S1x256.Idx) :
    (iblk1 V c 3 t : Vec Ideal S1x256 .f32) y = V c (Pipeline.arrRef spec1 3) (((cfg1.win 3).blk t).view.emb y) := rfl
theorem rd1_4 (c : Dev nD) (t : Fin cfg1.N) (y : S1x256.Idx) :
    (iblk1 V c 4 t : Vec Ideal S1x256 .f32) y = V c (Pipeline.arrRef spec1 4) (((cfg1.win 4).blk t).view.emb y) := rfl
theorem rd1_5 (c : Dev nD) (t : Fin cfg1.N) (y : S256x256.Idx) :
    (iblk1 V c 5 t : Vec Ideal S256x256 .f32) y = V c (Pipeline.arrRef spec1 5) (((cfg1.win 5).blk t).view.emb y) := rfl
theorem rd1_6 (c : Dev nD) (t : Fin cfg1.N) (y : S1x256.Idx) :
    (iblk1 V c 6 t : Vec Ideal S1x256 .f32) y = V c (Pipeline.arrRef spec1 6) (((cfg1.win 6).blk t).view.emb y) := rfl

/-- Row p of the pre-activation block at point t is row 5000·t + p of the array. -/
theorem blk1_0_row (c : Dev nD) (t : Fin cfg1.N) (p : Fin 5000) (k : Fin 256) (r : Fin 50000) (h : r.val = t.val * 5000 + p.val) :
    (iblk1 V c 0 t : Vec Ideal S5000x256 .f32) (ix2 p k) = V c (Pipeline.arrRef spec1 0) (ix2 r k) := by
  obtain ⟨-, -, e0, e1, -⟩ := idx_facts1 t
  refine (rd1_0 V c t (ix2 p k)).trans (congrArg (V c (Pipeline.arrRef spec1 0)) (funext fun a => Fin.ext ?_))
  match a with
  | ⟨0, _⟩ => show win1_0.index t (0 : Fin 2) * 5000 + 1 * p.val = r.val; omega
  | ⟨1, _⟩ => show win1_0.index t (1 : Fin 2) * 256 + 1 * k.val = k.val; omega

/-- The mean row's block is the mean row, at every point. -/
theorem blk1_1_row (c : Dev nD) (t : Fin cfg1.N) (k : Fin 256) :
    (iblk1 V c 1 t : Vec Ideal S1x256 .f32) (ix2 0 k) = V c (Pipeline.arrRef spec1 1) (ix2 0 k) := by
  obtain ⟨-, -, -, -, e0, e1, -⟩ := idx_facts1 t
  refine (rd1_1 V c t (ix2 0 k)).trans (congrArg (V c (Pipeline.arrRef spec1 1)) (funext fun a => Fin.ext ?_))
  match a with
  | ⟨0, _⟩ => show win1_1.index t (0 : Fin 2) * 1 + 1 * 0 = 0; omega
  | ⟨1, _⟩ => show win1_1.index t (1 : Fin 2) * 256 + 1 * k.val = k.val; omega

/-- The variance row's block is the variance row. -/
theorem blk1_2_row (c : Dev nD) (t : Fin cfg1.N) (k : Fin 256) :
    (iblk1 V c 2 t : Vec Ideal S1x256 .f32) (ix2 0 k) = V c (Pipeline.arrRef spec1 2) (ix2 0 k) := by
  obtain ⟨-, -, -, -, -, -, e0, e1, -⟩ := idx_facts1 t
  refine (rd1_2 V c t (ix2 0 k)).trans (congrArg (V c (Pipeline.arrRef spec1 2)) (funext fun a => Fin.ext ?_))
  match a with
  | ⟨0, _⟩ => show win1_2.index t (0 : Fin 2) * 1 + 1 * 0 = 0; omega
  | ⟨1, _⟩ => show win1_2.index t (1 : Fin 2) * 256 + 1 * k.val = k.val; omega

/-- The gain row's block is the gain row. -/
theorem blk1_3_row (c : Dev nD) (t : Fin cfg1.N) (k : Fin 256) :
    (iblk1 V c 3 t : Vec Ideal S1x256 .f32) (ix2 0 k) = V c (Pipeline.arrRef spec1 3) (ix2 0 k) := by
  obtain ⟨-, -, -, -, -, -, -, -, e0, e1, -⟩ := idx_facts1 t
  refine (rd1_3 V c t (ix2 0 k)).trans (congrArg (V c (Pipeline.arrRef spec1 3)) (funext fun a => Fin.ext ?_))
  match a with
  | ⟨0, _⟩ => show win1_3.index t (0 : Fin 2) * 1 + 1 * 0 = 0; omega
  | ⟨1, _⟩ => show win1_3.index t (1 : Fin 2) * 256 + 1 * k.val = k.val; omega

/-- The shift row's block is the shift row. -/
theorem blk1_4_row (c : Dev nD) (t : Fin cfg1.N) (k : Fin 256) :
    (iblk1 V c 4 t : Vec Ideal S1x256 .f32) (ix2 0 k) = V c (Pipeline.arrRef spec1 4) (ix2 0 k) := by
  obtain ⟨-, -, -, -, -, -, -, -, -, -, e0, e1, -⟩ := idx_facts1 t
  refine (rd1_4 V c t (ix2 0 k)).trans (congrArg (V c (Pipeline.arrRef spec1 4)) (funext fun a => Fin.ext ?_))
  match a with
  | ⟨0, _⟩ => show win1_4.index t (0 : Fin 2) * 1 + 1 * 0 = 0; omega
  | ⟨1, _⟩ => show win1_4.index t (1 : Fin 2) * 256 + 1 * k.val = k.val; omega

/-- The weights' block is the whole weight matrix. -/
theorem blk1_5_row (c : Dev nD) (t : Fin cfg1.N) (k q : Fin 256) :
    (iblk1 V c 5 t : Vec Ideal S256x256 .f32) (ix2 k q) = V c (Pipeline.arrRef spec1 5) (ix2 k q) := by
  obtain ⟨-, -, -, -, -, -, -, -, -, -, -, -, e0, e1, -⟩ := idx_facts1 t
  refine (rd1_5 V c t (ix2 k q)).trans (congrArg (V c (Pipeline.arrRef spec1 5)) (funext fun a => Fin.ext ?_))
  match a with
  | ⟨0, _⟩ => show win1_5.index t (0 : Fin 2) * 256 + 1 * k.val = k.val; omega
  | ⟨1, _⟩ => show win1_5.index t (1 : Fin 2) * 256 + 1 * q.val = q.val; omega

/-- The bias row's block is the bias row. -/
theorem blk1_6_row (c : Dev nD) (t : Fin cfg1.N) (k : Fin 256) :
    (iblk1 V c 6 t : Vec Ideal S1x256 .f32) (ix2 0 k) = V c (Pipeline.arrRef spec1 6) (ix2 0 k) := by
  obtain ⟨-, -, -, -, -, -, -, -, -, -, -, -, -, -, e0, e1⟩ := idx_facts1 t
  refine (rd1_6 V c t (ix2 0 k)).trans (congrArg (V c (Pipeline.arrRef spec1 6)) (funext fun a => Fin.ext ?_))
  match a with
  | ⟨0, _⟩ => show win1_6.index t (0 : Fin 2) * 1 + 1 * 0 = 0; omega
  | ⟨1, _⟩ => show win1_6.index t (1 : Fin 2) * 256 + 1 * k.val = k.val; omega

/-- WHAT POINT t STORES at entry x of its block is the layer's entry at row 5000·t + x₀, column x₁. -/
theorem point1 (c : Dev nD) (t : Fin cfg1.N) (x : S5000x256.Idx) (i : S50000x256.Idx)
    (h0 : (i 0).val = t.val * 5000 + (x 0).val) (h1 : (i 1).val = (x 1).val) :
    k1_pay1 (F := Ideal) (iblk1 V c 0 t) (iblk1 V c 2 t) (iblk1 V c 1 t) (iblk1 V c 3 t) (iblk1 V c 4 t) (iblk1 V c 5 t)
        (iblk1 V c 6 t) x = layer1 V c i := by
  have hi1 : i 1 = x 1 := Fin.ext h1
  refine (congrArg (k1_pay1 (F := Ideal) (iblk1 V c 0 t) (iblk1 V c 2 t) (iblk1 V c 1 t) (iblk1 V c 3 t) (iblk1 V c 4 t)
    (iblk1 V c 5 t) (iblk1 V c 6 t)) (eq_ix2 (n0 := 5000) (n1 := 256) x)).trans ?_
  show _ = max (Cert.Spec.bnLinearAt (N := 50000) (K := 256) (D := 256) (V c (Pipeline.arrRef spec1 0)) (V c (Pipeline.arrRef spec1 1))
    (V c (Pipeline.arrRef spec1 2)) (V c (Pipeline.arrRef spec1 3)) (V c (Pipeline.arrRef spec1 4)) (V c (Pipeline.arrRef spec1 5))
    (V c (Pipeline.arrRef spec1 6)) (i 0) (i 1)) 0
  rw [hi1]
  exact pay1_of_rows (iblk1 V c 0 t) (iblk1 V c 2 t) (iblk1 V c 1 t) (iblk1 V c 3 t) (iblk1 V c 4 t) (iblk1 V c 5 t) (iblk1 V c 6 t)
    (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (x 0) (x 1) (i 0)
    (fun k => blk1_0_row V c t (x 0) k (i 0) h0) (fun k => blk1_1_row V c t k) (fun k => blk1_2_row V c t k)
    (fun k => blk1_3_row V c t k) (fun k => blk1_4_row V c t k) (fun k => blk1_5_row V c t k (x 1)) (blk1_6_row V c t (x 1))

/-- WHAT POINT t WRITES BACK is block t of the layer. -/
theorem flushed1_eq (c : Dev nD) (t : Fin cfg1.N) :
    (dat1 V c).flushed 7 t = ((cfg1.win 7).blk t).view.read (Elt Ideal) (layer1 V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S1x256) hz, View.ld_unit_zero (S := S256x256) hz]
  obtain ⟨e70, e71, -⟩ := idx_facts1 t
  funext j
  show k1_pay1 (F := Ideal) (iblk1 V c 0 t) (iblk1 V c 2 t) (iblk1 V c 1 t) (iblk1 V c 3 t) (iblk1 V c 4 t) (iblk1 V c 5 t)
      (iblk1 V c 6 t) ((cfg1.win 7).xinj (grid1.coords t) j) = layer1 V c (((cfg1.win 7).blk t).view.emb j)
  refine point1 V c t ((cfg1.win 7).xinj (grid1.coords t) j) (((cfg1.win 7).blk t).view.emb j) ?_ ?_
  · show win1_7.index t (0 : Fin 2) * 5000 + 1 * (j 0).val = t.val * 5000 + (j 0).val; omega
  · show win1_7.index t (1 : Fin 2) * 256 + 1 * (j 1).val = (j 1).val; omega

/-- An index of the output array is in point t's block iff each coordinate is in the block's range on its axis. -/
theorem mem_blk1 (t : Fin cfg1.N) (i : S50000x256.Idx) :
    i ∈ ((cfg1.win 7).blk t).view.set ↔ ∀ a : Fin 2, win1_7.index t a * S5000x256.size a ≤ (i a).val
      ∧ (i a).val < win1_7.index t a * S5000x256.size a + S5000x256.size a := by
  show i ∈ ((View.whole main_v23).slice (win1_7.rect t)).set ↔ _
  rw [View.set_slice_whole, Rect.mem_set_unit]
  exact Iff.rfl

/-- The ten row blocks tile the output array: row r lies in block r / 5000. -/
theorem cover1 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have ht : (i 0).val / 5000 < cfg1.N := by
    show (i 0).val / 5000 < grid1.N
    rw [N_1]; omega
  obtain ⟨e70, e71, -⟩ := idx_facts1 ⟨(i 0).val / 5000, ht⟩
  have e70' : win1_7.index ⟨(i 0).val / 5000, ht⟩ (0 : Fin 2) = (i 0).val / 5000 := e70
  refine ⟨⟨(i 0).val / 5000, ht⟩, flush1_7 _, ?_⟩
  rw [mem_blk1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    omega
  | ⟨1, _⟩ =>
    show win1_7.index ⟨(i 0).val / 5000, ht⟩ (1 : Fin 2) * 256 ≤ (i 1).val
      ∧ (i 1).val < win1_7.index ⟨(i 0).val / 5000, ht⟩ (1 : Fin 2) * 256 + 256
    omega

/-- After the first normalising kernel has run over its ten row blocks, its output array is the rectified affine layer of
    the rectified normalisation of its input arrays as the region found them (windows 0–6: the pre-activations, the
    mean row, the variance row, the scale row, the shift row, the weights, the bias row). -/
theorem value1 (c : Dev nD) :
    (dat1 V c).arrAt 7 cfg1.N
      = Cert.Spec.bnLinearRelu (N := 50000) (K := 256) (D := 256) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (V c (Pipeline.arrRef spec1 6)) :=
  (dat1 V c).arrAt_eq_of_cover 7 (layer1 V c) (fun t _ => flushed1_eq V c t) cover1

end Cert.KernelIdeal.RegionBn

end
-- ==== Proof.RegionBn3.lean ====
/- The second normalise-rectify-affine kernel: what it leaves in its output array, as one function of its seven input arrays. -/
import proofs.«417072_j36696200577384_1_alg».proof.Proof.Gen.KernelIdeal.Frame
import proofs.«417072_j36696200577384_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.RegionBn3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's arithmetic at an entry -/

/-- The block product's dimension numbers are those of the plain product 5000×256 by 256×256. -/
theorem recBlk : dot_S5000x256_S256x256_S5000x256_1_0_0_1_n_n = DotDims.plain 5000 256 256 := rfl

/-- Entry (p, q) of what the body stores: the rectified normalisation of row p of the block, times column q of the
    weights, plus the bias. The arguments are in the order the body loads them: block, variance row, mean row, scale
    row, shift row, weights, bias row. -/
theorem pay_apply (x0 : Vec Ideal S5000x256 .f32) (xv xm xg xb : Vec Ideal S1x256 .f32) (xW : Vec Ideal S256x256 .f32)
    (xbias : Vec Ideal S1x256 .f32) (p : Fin 5000) (q : Fin 256) :
    k3_pay1 (F := Ideal) x0 xv xm xg xb xW xbias (ix2 p q)
      = (∑ k : Fin 256, max (((x0 (ix2 p k) - xm (ix2 (0 : Fin 1) k)) * Ideal.rsqrt (xv (ix2 (0 : Fin 1) k) + Cert.Spec.eps))
            * xg (ix2 (0 : Fin 1) k) + xb (ix2 (0 : Fin 1) k)) 0 * xW (ix2 k q)) + xbias (ix2 (0 : Fin 1) q) := by
  unfold k3_pay1
  simp only [shapeCast_self]
  rw [addf_apply, broadcastTo_1b_ab_apply, matmul_zero_eq_dotGeneral, recBlk,
    StackMember.dotGeneral_plain_apply]
  refine congrArg₂ (· + ·) (Finset.sum_congr rfl fun k _ => ?_) rfl
  rw [maximumf_apply, addf_apply, mulf_apply, mulf_apply, subf_apply, broadcastTo_1b_ab_apply, broadcastTo_1b_ab_apply,
    broadcastTo_1b_ab_apply, broadcastTo_1b_ab_apply]
  simp only [broadcast_apply, Ideal.ofBits_def, Ideal.ofBits_zero_f32]
  rfl

variable (V : (c : Dev nD) → (b : Ref sig .tc) → Buf (Elt Ideal) ((c : Thread nD τ).loc b))

theorem hz : (![0, 0] : Fin 2 → Nat) = fun _ => 0 := funext fun a => by fin_cases a <;> rfl

/-! ## The seven input arrays and their blocks at a point, at their literal types -/

abbrev arrU (c : Dev nD) : Vec Ideal S50000x256 .f32 := V c (Pipeline.arrRef spec3 0)
abbrev arrM (c : Dev nD) : Vec Ideal S1x256 .f32 := V c (Pipeline.arrRef spec3 1)
abbrev arrV (c : Dev nD) : Vec Ideal S1x256 .f32 := V c (Pipeline.arrRef spec3 2)
abbrev arrG (c : Dev nD) : Vec Ideal S1x256 .f32 := V c (Pipeline.arrRef spec3 3)
abbrev arrB (c : Dev nD) : Vec Ideal S1x256 .f32 := V c (Pipeline.arrRef spec3 4)
abbrev arrW (c : Dev nD) : Vec Ideal S256x256 .f32 := V c (Pipeline.arrRef spec3 5)
abbrev arrC (c : Dev nD) : Vec Ideal S1x256 .f32 := V c (Pipeline.arrRef spec3 6)

abbrev blkU (c : Dev nD) (t : Fin cfg3.N) : Vec Ideal S5000x256 .f32 := iblk3 V c 0 t
abbrev blkM (c : Dev nD) (t : Fin cfg3.N) : Vec Ideal S1x256 .f32 := iblk3 V c 1 t
abbrev blkV (c : Dev nD) (t : Fin cfg3.N) : Vec Ideal S1x256 .f32 := iblk3 V c 2 t
abbrev blkG (c : Dev nD) (t : Fin cfg3.N) : Vec Ideal S1x256 .f32 := iblk3 V c 3 t
abbrev blkB (c : Dev nD) (t : Fin cfg3.N) : Vec Ideal S1x256 .f32 := iblk3 V c 4 t
abbrev blkW (c : Dev nD) (t : Fin cfg3.N) : Vec Ideal S256x256 .f32 := iblk3 V c 5 t
abbrev blkC (c : Dev nD) (t : Fin cfg3.N) : Vec Ideal S1x256 .f32 := iblk3 V c 6 t

/-- The layer function of the seven input arrays as the region finds them. -/
abbrev G3 (c : Dev nD) : S50000x256.Idx → EReal :=
  Cert.Spec.bnLinear (N := 50000) (K := 256) (D := 256) (arrU V c) (arrM V c) (arrV V c) (arrG V c) (arrB V c) (arrW V c) (arrC V c)

/-- The block index maps over the ten points: the pre-activations and the output move one row block per point, the
    four statistics rows, the weights and the bias stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The grid has ten points. -/
theorem N3 : cfg3.N = 10 := N_3

/-! ## Each input block read off its array -/

/-- Row p of the pre-activations' block at point t is row 5000·t + p of the array. -/
theorem blkU_apply (c : Dev nD) (t : Fin cfg3.N) (p : Fin 5000) (k : Fin 256) (r : Fin 50000) (hr : r.val = 5000 * t.val + p.val) :
    blkU V c t (ix2 p k) = arrU V c (ix2 r k) := by
  obtain ⟨e0, e1, -⟩ := idx_facts t
  show ((cfg3.win 0).blk t).view.read (Elt Ideal) (V c (Pipeline.arrRef spec3 0)) (ix2 p k) = V c (Pipeline.arrRef spec3 0) (ix2 r k)
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 256 + 1 * k.val = k.val; rw [e1]; omega

/-- The mean row's one block is the whole row, at every point. -/
theorem blkM_eq (c : Dev nD) (t : Fin cfg3.N) : blkM V c t = arrM V c := by
  obtain ⟨-, -, e0, e1, -⟩ := idx_facts t
  funext x
  show ((cfg3.win 1).blk t).view.read (Elt Ideal) (V c (Pipeline.arrRef spec3 1)) x = V c (Pipeline.arrRef spec3 1) x
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 256 + 1 * (x 1).val = (x 1).val; rw [e1]; omega

/-- The variance row's one block is the whole row. -/
theorem blkV_eq (c : Dev nD) (t : Fin cfg3.N) : blkV V c t = arrV V c := by
  obtain ⟨-, -, -, -, e0, e1, -⟩ := idx_facts t
  funext x
  show ((cfg3.win 2).blk t).view.read (Elt Ideal) (V c (Pipeline.arrRef spec3 2)) x = V c (Pipeline.arrRef spec3 2) x
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

/-- The scale row's one block is the whole row. -/
theorem blkG_eq (c : Dev nD) (t : Fin cfg3.N) : blkG V c t = arrG V c := by
  obtain ⟨-, -, -, -, -, -, e0, e1, -⟩ := idx_facts t
  funext x
  show ((cfg3.win 3).blk t).view.read (Elt Ideal) (V c (Pipeline.arrRef spec3 3)) x = V c (Pipeline.arrRef spec3 3) x
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (x 0).val = (x 0).val; rw [e0]; omega
  | ⟨1, _⟩ => show win3_3.index t (1 : Fin 2) * 256 + 1 * (x 1).val = (x 1).val; rw [e1]; omega

/-- The shift row's one block is the whole row. -/
theorem blkB_eq (c : Dev nD) (t : Fin cfg3.N) : blkB V c t = arrB V c := by
  obtain ⟨-, -, -, -, -, -, -, -, e0, e1, -⟩ := idx_facts t
  funext x
  show ((cfg3.win 4).blk t).view.read (Elt Ideal) (V c (Pipeline.arrRef spec3 4)) x = V c (Pipeline.arrRef spec3 4) x
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-- The weights' one block is the whole matrix. -/
theorem blkW_eq (c : Dev nD) (t : Fin cfg3.N) : blkW V c t = arrW V c := by
  obtain ⟨-, -, -, -, -, -, -, -, -, -, e0, e1, -⟩ := idx_facts t
  funext x
  show ((cfg3.win 5).blk t).view.read (Elt Ideal) (V c (Pipeline.arrRef spec3 5)) x = V c (Pipeline.arrRef spec3 5) x
  rw [View.read_apply]
  show V c (Pipeline.arrRef spec3 5) _ = V c (Pipeline.arrRef spec3 5) _
  congr 1
  funext a
  apply Fin.ext
  match a with
  | ⟨0, _⟩ => show win3_5.index t (0 : Fin 2) * 256 + 1 * (x 0).val = (x 0).val; rw [e0]; omega
  | ⟨1, _⟩ => show win3_5.index t (1 : Fin 2) * 256 + 1 * (x 1).val = (x 1).val; rw [e1]; omega

/-- The bias row's one block is the whole row. -/
theorem blkC_eq (c : Dev nD) (t : Fin cfg3.N) : blkC V c t = arrC V c := by
  obtain ⟨-, -, -, -, -, -, -, -, -, -, -, -, e0, e1, -⟩ := idx_facts t
  funext x
  show ((cfg3.win 6).blk t).view.read (Elt Ideal) (V c (Pipeline.arrRef spec3 6)) x = V c (Pipeline.arrRef spec3 6) x
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (x 0).val = (x 0).val; rw [e0]; omega
  | ⟨1, _⟩ => show win3_6.index t (1 : Fin 2) * 256 + 1 * (x 1).val = (x 1).val; rw [e1]; omega

/-! ## From the blocks to the array -/

/-- Entry (p, q) of what point t stores is the layer function at row 5000·t + p, column q. -/
theorem point_eq (c : Dev nD) (t : Fin cfg3.N) (p : Fin 5000) (q : Fin 256) (r : Fin 50000) (hr : r.val = 5000 * t.val + p.val) :
    k3_pay1 (F := Ideal) (blkU V c t) (blkV V c t) (blkM V c t) (blkG V c t) (blkB V c t) (blkW V c t) (blkC V c t) (ix2 p q)
      = G3 V c (ix2 r q) := by
  refine (pay_apply (blkU V c t) (blkV V c t) (blkM V c t) (blkG V c t) (blkB V c t) (blkW V c t) (blkC V c t) p q).trans ?_
  rw [blkM_eq, blkV_eq, blkG_eq, blkB_eq, blkW_eq, blkC_eq]
  show _ = (∑ k : Fin 256, max (Cert.Spec.normAt (N := 50000) (K := 256) (arrU V c) (arrM V c) (arrV V c) (arrG V c) (arrB V c) r k) 0
      * arrW V c (ix2 k q)) + arrC V c (ix2 (0 : Fin 1) q)
  refine congrArg₂ (· + ·) (Finset.sum_congr rfl fun k _ => ?_) rfl
  rw [blkU_apply V c t p k r hr]
  rfl

/-- What point t writes back is block t of the layer function of the input arrays. -/
theorem flushed_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S5000x256) hz, View.ld_unit_zero (S := S1x256) hz, View.ld_unit_zero (S := S256x256) hz]
  funext j
  obtain ⟨p, q, rfl⟩ : ∃ (p : Fin 5000) (q : Fin 256), j = (ix2 p q : S5000x256.Idx) := ⟨j 0, j 1, eq_ix2 (n0 := 5000) (n1 := 256) j⟩
  obtain ⟨-, -, -, -, -, -, -, -, -, -, -, -, -, -, e0, e1⟩ := idx_facts t
  have ht : t.val < 10 := lt_of_lt_of_eq t.isLt N3
  show k3_pay1 (F := Ideal) (blkU V c t) (blkV V c t) (blkM V c t) (blkG V c t) (blkB V c t) (blkW V c t) (blkC V c t) (ix2 p q) = _
  refine (point_eq V c t p q ⟨5000 * t.val + p.val, by omega⟩ rfl).trans ?_
  rw [View.read_apply]
  show G3 V c _ = G3 V c _
  congr 1
  funext a
  apply Fin.ext
  match a with
  | ⟨0, _⟩ => show 5000 * t.val + p.val = win3_7.index t (0 : Fin 2) * 5000 + 1 * p.val; rw [e0]; omega
  | ⟨1, _⟩ => show q.val = win3_7.index t (1 : Fin 2) * 256 + 1 * q.val; rw [e1]; omega

/-- An index of the output array is in point t's block iff each coordinate is in the block's range on its axis. -/
theorem mem_blk (t : Fin cfg3.N) (i : S50000x256.Idx) :
    i ∈ ((cfg3.win 7).blk t).view.set ↔ ∀ a : Fin 2, win3_7.index t a * S5000x256.size a ≤ (i a).val ∧ (i a).val < win3_7.index t a * S5000x256.size a + S5000x256.size a := by
  show i ∈ ((View.whole main_v47).slice (win3_7.rect t)).set ↔ _
  rw [View.set_slice_whole, Rect.mem_set_unit]
  exact Iff.rfl

/-- Every row r of the output lies in the block of point r / 5000. -/
theorem covered (i : S50000x256.Idx) :
    ∃ t : Fin cfg3.N, (cfg3.win 7).flush t = true ∧ i ∈ ((cfg3.win 7).blk t).view.set := by
  have hi0 : (i 0).val < 50000 := (i 0).isLt
  have hi1 : (i 1).val < 256 := (i 1).isLt
  have hlt : (i 0).val / 5000 < cfg3.N := by rw [N3]; omega
  obtain ⟨-, -, -, -, -, -, -, -, -, -, -, -, -, -, e0, e1⟩ := idx_facts ⟨(i 0).val / 5000, hlt⟩
  refine ⟨⟨(i 0).val / 5000, hlt⟩, flush3_7 _, ?_⟩
  rw [mem_blk]
  intro a
  match a with
  | ⟨0, _⟩ =>
    show win3_7.index ⟨(i 0).val / 5000, hlt⟩ (0 : Fin 2) * 5000 ≤ (i 0).val ∧ (i 0).val < win3_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, hlt⟩ (1 : Fin 2) * 256 ≤ (i 1).val ∧ (i 1).val < win3_7.index ⟨(i 0).val / 5000, hlt⟩ (1 : Fin 2) * 256 + 256
    rw [e1]
    omega

/-- After the second normalising kernel has run over its ten row blocks, its output array is the affine layer of the
    rectified normalisation of its input arrays as the region found them (windows 0–6: the pre-activations, the mean row,
    the variance row, the scale row, the shift row, the weights, the bias row). -/
theorem value3 (c : Dev nD) :
    (dat3 V c).arrAt 7 cfg3.N
      = Cert.Spec.bnLinear (N := 50000) (K := 256) (D := 256) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) :=
  (dat3 V c).arrAt_eq_of_cover 7 (G3 V c) (fun t _ => flushed_eq V c t) covered

end Cert.KernelIdeal.RegionBn3

end
-- ==== Proof.RegionBn4.lean ====
/- The head's normalise-rectify-affine kernel: what it leaves in its output array, as one function of its seven input arrays. -/
import proofs.«417072_j36696200577384_1_alg».proof.Proof.Gen.KernelIdeal.Frame
import proofs.«417072_j36696200577384_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionBn4

open Cert.KernelIdeal Cert.KernelIdeal.Gen
open Idealize.ShloMosaic Idealize.ShloMosaic.TcCoe Idealize.SL.Sem
open Idealize.ShloMosaic.Pipeline (Dat Cfg Window)

open Idealize.ShloMosaic.ValueIdx
open scoped BigOperators

/-! ## The matrix product at an entry -/

/-- The left operand is read at the output's row … -/
theorem lhs4_0 (j : S5000x40.Idx) (k : dot_S5000x256_S256x40_S5000x40_1_0_0_1_n_n.contr.Idx) :
    (dot_S5000x256_S256x40_S5000x40_1_0_0_1_n_n.lhsIdx j k 0 : ℕ) = j 0 := by
  simp [DotDims.lhsIdx, dot_S5000x256_S256x40_S5000x40_1_0_0_1_n_n]; rfl
/-- … and at the contraction position's one coordinate; -/
theorem lhs4_1 (j : S5000x40.Idx) (k : dot_S5000x256_S256x40_S5000x40_1_0_0_1_n_n.contr.Idx) :
    (dot_S5000x256_S256x40_S5000x40_1_0_0_1_n_n.lhsIdx j k 1 : ℕ) = k ⟨0, by decide⟩ := by
  simp [DotDims.lhsIdx, dot_S5000x256_S256x40_S5000x40_1_0_0_1_n_n]; rfl
/-- the right operand at the contraction position's one coordinate … -/
theorem rhs4_0 (j : S5000x40.Idx) (k : dot_S5000x256_S256x40_S5000x40_1_0_0_1_n_n.contr.Idx) :
    (dot_S5000x256_S256x40_S5000x40_1_0_0_1_n_n.rhsIdx j k 0 : ℕ) = k ⟨0, by decide⟩ := by
  simp [DotDims.rhsIdx, dot_S5000x256_S256x40_S5000x40_1_0_0_1_n_n]; rfl
/-- … and at the output's column. -/
theorem rhs4_1 (j : S5000x40.Idx) (k : dot_S5000x256_S256x40_S5000x40_1_0_0_1_n_n.contr.Idx) :
    (dot_S5000x256_S256x40_S5000x40_1_0_0_1_n_n.rhsIdx j k 1 : ℕ) = j 1 := by
  simp [DotDims.rhsIdx, dot_S5000x256_S256x40_S5000x40_1_0_0_1_n_n]; rfl

/-- Entry (p, q) of the product accumulated into zeros is the sum over the 256 contracted positions. -/
theorem matmul4_apply (A : FVec Ideal S5000x256 .f32) (B : FVec Ideal S256x40 .f32) (p : Fin 5000) (q : Fin 40) :
    matmul dot_S5000x256_S256x40_S5000x40_1_0_0_1_n_n none A B (constant (F := Ideal) S5000x40 .f32 0x00000000#32) (ix2 p q)
      = ∑ k : Fin 256, A (ix2 p k) * B (ix2 k q) := by
  show FloatOps.matmul dot_S5000x256_S256x40_S5000x40_1_0_0_1_n_n none A B (constant (F := Ideal) S5000x40 .f32 0x00000000#32) (ix2 p q) = _
  rw [Ideal.matmul_constant_zero_apply, ← Equiv.sum_comp (contrEquiv1 dot_S5000x256_S256x40_S5000x40_1_0_0_1_n_n 256 rfl rfl).symm]
  refine Finset.sum_congr rfl fun c _ => ?_
  have c2 := contrEquiv1_symm_val dot_S5000x256_S256x40_S5000x40_1_0_0_1_n_n 256 rfl rfl c
  have l2 : dot_S5000x256_S256x40_S5000x40_1_0_0_1_n_n.lhsIdx (ix2 p q) ((contrEquiv1 dot_S5000x256_S256x40_S5000x40_1_0_0_1_n_n 256 rfl rfl).symm c) = ix2 p c := by
    funext ax; apply Fin.ext
    match ax with
    | ⟨0, _⟩ => exact lhs4_0 _ _
    | ⟨1, _⟩ => exact (lhs4_1 _ _).trans c2
  have r2 : dot_S5000x256_S256x40_S5000x40_1_0_0_1_n_n.rhsIdx (ix2 p q) ((contrEquiv1 dot_S5000x256_S256x40_S5000x40_1_0_0_1_n_n 256 rfl rfl).symm c) = ix2 c q := by
    funext ax; apply Fin.ext
    match ax with
    | ⟨0, _⟩ => exact (rhs4_0 _ _).trans c2
    | ⟨1, _⟩ => exact rhs4_1 _ _
  rw [l2, r2]

/-! ## The body's arithmetic at an entry -/

/-- Entry (p, q) of what the body stores, from its seven loaded blocks (in the order the body loads them: the features,
    the variance row, the mean row, the scale row, the shift row, the weights, the bias row). -/
theorem pay4_apply (x0 : Vec Ideal S5000x256 .f32) (xv xm xg xb : Vec Ideal S1x256 .f32) (xW : Vec Ideal S256x40 .f32)
    (xbias : Vec Ideal S1x40 .f32) (p : Fin 5000) (q : Fin 40) :
    k4_pay1 (F := Ideal) x0 xv xm xg xb xW xbias (ix2 p q)
      = (∑ k : Fin 256, max (((x0 (ix2 p k) - xm (ix2 0 k)) * Ideal.rsqrt (xv (ix2 0 k) + Cert.Spec.eps)) * xg (ix2 0 k) + xb (ix2 0 k)) 0
            * xW (ix2 k q)) + xbias (ix2 0 q) := by
  unfold k4_pay1
  simp only [shapeCast_self]
  refine (addf_apply _ _ _).trans ?_
  refine congrArg₂ (· + ·) ((matmul4_apply _ _ p q).trans (Finset.sum_congr rfl fun k _ => ?_)) (broadcastTo_1b_ab_apply _ _ p q)
  refine congrArg (· * xW (ix2 k q)) ?_
  -- entry (p, k) of the rectified normalisation: the four rows are read at column k
  show max (((x0 (ix2 p k) - broadcastTo S5000x256 xm broadcasts_S1x256_S5000x256 (ix2 p k))
        * broadcastTo S5000x256 (rsqrt (addf xv (broadcast S1x256 (FloatOps.ofBits (F := Ideal) .f32 0x3727C5AC#32)))) broadcasts_S1x256_S5000x256 (ix2 p k))
        * broadcastTo S5000x256 xg broadcasts_S1x256_S5000x256 (ix2 p k) + broadcastTo S5000x256 xb broadcasts_S1x256_S5000x256 (ix2 p k))
      (Ideal.ofBits .f32 0x00000000#32) = _
  rw [broadcastTo_1b_ab_apply, broadcastTo_1b_ab_apply, broadcastTo_1b_ab_apply, broadcastTo_1b_ab_apply, Ideal.ofBits_zero_f32]
  rfl

/-! ## The arrays and the blocks, at their literal types -/

variable (V : (c : Dev nD) → (b : Ref sig .tc) → Buf (Elt Ideal) ((c : Thread nD τ).loc b))

/-- The seven input arrays as the region finds them: the features, the mean, variance, scale and shift rows, the weights, the bias row. -/
abbrev uArr (c : Dev nD) : Vec Ideal S50000x256 .f32 := V c (Pipeline.arrRef spec4 0)
abbrev muArr (c : Dev nD) : Vec Ideal S1x256 .f32 := V c (Pipeline.arrRef spec4 1)
abbrev vArr (c : Dev nD) : Vec Ideal S1x256 .f32 := V c (Pipeline.arrRef spec4 2)
abbrev gArr (c : Dev nD) : Vec Ideal S1x256 .f32 := V c (Pipeline.arrRef spec4 3)
abbrev beArr (c : Dev nD) : Vec Ideal S1x256 .f32 := V c (Pipeline.arrRef spec4 4)
abbrev wArr (c : Dev nD) : Vec Ideal S256x40 .f32 := V c (Pipeline.arrRef spec4 5)
abbrev bArr (c : Dev nD) : Vec Ideal S1x40 .f32 := V c (Pipeline.arrRef spec4 6)

/-- Their blocks at grid point t. -/
abbrev uBlk (c : Dev nD) (t : Fin cfg4.N) : Vec Ideal S5000x256 .f32 := iblk4 V c 0 t
abbrev muBlk (c : Dev nD) (t : Fin cfg4.N) : Vec Ideal S1x256 .f32 := iblk4 V c 1 t
abbrev vBlk (c : Dev nD) (t : Fin cfg4.N) : Vec Ideal S1x256 .f32 := iblk4 V c 2 t
abbrev gBlk (c : Dev nD) (t : Fin cfg4.N) : Vec Ideal S1x256 .f32 := iblk4 V c 3 t
abbrev beBlk (c : Dev nD) (t : Fin cfg4.N) : Vec Ideal S1x256 .f32 := iblk4 V c 4 t
abbrev wBlk (c : Dev nD) (t : Fin cfg4.N) : Vec Ideal S256x40 .f32 := iblk4 V c 5 t
abbrev bBlk (c : Dev nD) (t : Fin cfg4.N) : Vec Ideal S1x40 .f32 := iblk4 V c 6 t

/-- The printed index maps over the ten grid points: the features' and the output's row block is the point's number, every
    other block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of the features' block at point t is row 5000·t + p of the array. -/
theorem uBlk_apply (c : Dev nD) (t : Fin cfg4.N) (p : Fin 5000) (k : Fin 256) (r : Fin 50000) (hr : r.val = 5000 * t.val + p.val) :
    uBlk V c t (ix2 p k) = uArr V c (ix2 r k) := by
  obtain ⟨e0, e1, -⟩ := idx_facts4 t
  show V c (Pipeline.arrRef spec4 0) (((cfg4.win 0).blk t).view.emb (ix2 p k)) = V c (Pipeline.arrRef spec4 0) (ix2 r k)
  congr 1
  funext a; apply Fin.ext
  match a with
  | ⟨0, _⟩ => show win4_0.index t (0 : Fin 2) * 5000 + 1 * p.val = r.val; rw [e0, hr]; omega
  | ⟨1, _⟩ => show win4_0.index t (1 : Fin 2) * 256 + 1 * k.val = k.val; rw [e1]; omega

/-- The mean row's block is the whole row at every point. -/
theorem muBlk_apply (c : Dev nD) (t : Fin cfg4.N) (k : Fin 256) : muBlk V c t (ix2 0 k) = muArr V c (ix2 0 k) := by
  obtain ⟨-, -, e0, e1, -⟩ := idx_facts4 t
  show V c (Pipeline.arrRef spec4 1) (((cfg4.win 1).blk t).view.emb (ix2 0 k)) = V c (Pipeline.arrRef spec4 1) (ix2 0 k)
  congr 1
  funext a; apply Fin.ext
  match a with
  | ⟨0, _⟩ => show win4_1.index t (0 : Fin 2) * 1 + 1 * 0 = 0; rw [e0]
  | ⟨1, _⟩ => show win4_1.index t (1 : Fin 2) * 256 + 1 * k.val = k.val; rw [e1]; omega

/-- The variance row's block is the whole row at every point. -/
theorem vBlk_apply (c : Dev nD) (t : Fin cfg4.N) (k : Fin 256) : vBlk V c t (ix2 0 k) = vArr V c (ix2 0 k) := by
  obtain ⟨-, -, -, -, e0, e1, -⟩ := idx_facts4 t
  show V c (Pipeline.arrRef spec4 2) (((cfg4.win 2).blk t).view.emb (ix2 0 k)) = V c (Pipeline.arrRef spec4 2) (ix2 0 k)
  congr 1
  funext a; apply Fin.ext
  match a with
  | ⟨0, _⟩ => show win4_2.index t (0 : Fin 2) * 1 + 1 * 0 = 0; rw [e0]
  | ⟨1, _⟩ => show win4_2.index t (1 : Fin 2) * 256 + 1 * k.val = k.val; rw [e1]; omega

/-- The scale row's block is the whole row at every point. -/
theorem gBlk_apply (c : Dev nD) (t : Fin cfg4.N) (k : Fin 256) : gBlk V c t (ix2 0 k) = gArr V c (ix2 0 k) := by
  obtain ⟨-, -, -, -, -, -, e0, e1, -⟩ := idx_facts4 t
  show V c (Pipeline.arrRef spec4 3) (((cfg4.win 3).blk t).view.emb (ix2 0 k)) = V c (Pipeline.arrRef spec4 3) (ix2 0 k)
  congr 1
  funext a; apply Fin.ext
  match a with
  | ⟨0, _⟩ => show win4_3.index t (0 : Fin 2) * 1 + 1 * 0 = 0; rw [e0]
  | ⟨1, _⟩ => show win4_3.index t (1 : Fin 2) * 256 + 1 * k.val = k.val; rw [e1]; omega

/-- The shift row's block is the whole row at every point. -/
theorem beBlk_apply (c : Dev nD) (t : Fin cfg4.N) (k : Fin 256) : beBlk V c t (ix2 0 k) = beArr V c (ix2 0 k) := by
  obtain ⟨-, -, -, -, -, -, -, -, e0, e1, -⟩ := idx_facts4 t
  show V c (Pipeline.arrRef spec4 4) (((cfg4.win 4).blk t).view.emb (ix2 0 k)) = V c (Pipeline.arrRef spec4 4) (ix2 0 k)
  congr 1
  funext a; apply Fin.ext
  match a with
  | ⟨0, _⟩ => show win4_4.index t (0 : Fin 2) * 1 + 1 * 0 = 0; rw [e0]
  | ⟨1, _⟩ => show win4_4.index t (1 : Fin 2) * 256 + 1 * k.val = k.val; rw [e1]; omega

/-- The bias row's block is the whole row at every point. -/
theorem bBlk_apply (c : Dev nD) (t : Fin cfg4.N) (k : Fin 40) : bBlk V c t (ix2 0 k) = bArr V c (ix2 0 k) := by
  obtain ⟨-, -, -, -, -, -, -, -, -, -, -, -, e0, e1, -⟩ := idx_facts4 t
  show V c (Pipeline.arrRef spec4 6) (((cfg4.win 6).blk t).view.emb (ix2 0 k)) = V c (Pipeline.arrRef spec4 6) (ix2 0 k)
  congr 1
  funext a; apply Fin.ext
  match a with
  | ⟨0, _⟩ => show win4_6.index t (0 : Fin 2) * 1 + 1 * 0 = 0; rw [e0]
  | ⟨1, _⟩ => show win4_6.index t (1 : Fin 2) * 40 + 1 * k.val = k.val; rw [e1]; omega

/-- The weights' block is the whole matrix at every point. -/
theorem wBlk_apply (c : Dev nD) (t : Fin cfg4.N) (k : Fin 256) (q : Fin 40) : wBlk V c t (ix2 k q) = wArr V c (ix2 k q) := by
  obtain ⟨-, -, -, -, -, -, -, -, -, -, e0, e1, -⟩ := idx_facts4 t
  show V c (Pipeline.arrRef spec4 5) (((cfg4.win 5).blk t).view.emb (ix2 k q)) = V c (Pipeline.arrRef spec4 5) (ix2 k q)
  congr 1
  funext a; apply Fin.ext
  match a with
  | ⟨0, _⟩ => show win4_5.index t (0 : Fin 2) * 256 + 1 * k.val = k.val; rw [e0]; omega
  | ⟨1, _⟩ => show win4_5.index t (1 : Fin 2) * 40 + 1 * q.val = q.val; rw [e1]; omega

/-! ## What a grid point writes back -/

/-- The output array the region is claimed to leave: the affine layer of the rectified normalisation of the input arrays. -/
abbrev outArr (c : Dev nD) : Vec Ideal S50000x40 .f32 :=
  Cert.Spec.bnLinear (N := 50000) (K := 256) (D := 40) (uArr V c) (muArr V c) (vArr V c) (gArr V c) (beArr V c) (wArr V c) (bArr V c)

/-- Entry (p, q) of what point t's body stores is entry (5000·t + p, q) of that array: every entry depends on one row of the features. -/
theorem point4 (c : Dev nD) (t : Fin cfg4.N) (p : Fin 5000) (q : Fin 40) (r : Fin 50000) (hr : r.val = 5000 * t.val + p.val) :
    k4_pay1 (F := Ideal) (uBlk V c t) (vBlk V c t) (muBlk V c t) (gBlk V c t) (beBlk V c t) (wBlk V c t) (bBlk V c t) (ix2 p q)
      = Cert.Spec.bnLinearAt (uArr V c) (muArr V c) (vArr V c) (gArr V c) (beArr V c) (wArr V c) (bArr V c) r q := by
  rw [pay4_apply]
  unfold Cert.Spec.bnLinearAt Cert.Spec.normAt
  rw [bBlk_apply V c t q]
  refine congrArg (· + bArr V c (ix2 0 q)) (Finset.sum_congr rfl fun k _ => ?_)
  rw [uBlk_apply V c t p k r hr, muBlk_apply V c t k, vBlk_apply V c t k, gBlk_apply V c t k, beBlk_apply V c t k, wBlk_apply V c t k q]

/-- The same at a block index y and the array index i it lands on. -/
theorem blockEntry4 (c : Dev nD) (t : Fin cfg4.N) (y : S5000x40.Idx) (i : S50000x40.Idx)
    (h0 : (i 0).val = 5000 * t.val + (y 0).val) (h1 : (i 1).val = (y 1).val) :
    k4_pay1 (F := Ideal) (uBlk V c t) (vBlk V c t) (muBlk V c t) (gBlk V c t) (beBlk V c t) (wBlk V c t) (bBlk V c t) y = outArr V c i := by
  have hy : y = ix2 (y 0) (y 1) := eq_ix2 y
  have hq : (y 1 : Fin 40) = i 1 := Fin.ext h1.symm
  rw [hy]
  refine (point4 V c t (y 0) (y 1) (i 0) h0).trans ?_
  show Cert.Spec.bnLinearAt (uArr V c) (muArr V c) (vArr V c) (gArr V c) (beArr V c) (wArr V c) (bArr V c) (i 0) (y 1)
    = Cert.Spec.bnLinearAt (uArr V c) (muArr V c) (vArr V c) (gArr V c) (beArr V c) (wArr V c) (bArr V c) (i 0) (i 1)
  rw [hq]

theorem hz4 : (![0, 0] : Fin 2 → Nat) = fun _ => 0 := funext fun a => by fin_cases a <;> rfl

/-- What point t writes back to the output array is block t of the claimed array. -/
theorem flushed4_eq (c : Dev nD) (t : Fin cfg4.N) :
    (dat4 V c).flushed 7 t = ((cfg4.win 7).blk t).view.read (Elt Ideal) (outArr V c) := by
  show (cfg4.win 7).cut (grid4.coords t) ((dat4 V c).after 7 t) = _
  rw [after4_7]
  unfold out4_7
  rw [View.canon_unit_zero hz4]
  simp only [View.ld_unit_zero (S := S5000x256) hz4, View.ld_unit_zero (S := S1x256) hz4, View.ld_unit_zero (S := S256x40) hz4,
    View.ld_unit_zero (S := S1x40) hz4]
  funext j
  obtain ⟨-, -, -, -, -, -, -, -, -, -, -, -, -, -, e0, e1⟩ := idx_facts4 t
  show k4_pay1 (F := Ideal) (iblk4 V c 0 t) (iblk4 V c 2 t) (iblk4 V c 1 t) (iblk4 V c 3 t) (iblk4 V c 4 t) (iblk4 V c 5 t) (iblk4 V c 6 t) j
      = outArr V c (((cfg4.win 7).blk t).view.emb j)
  refine blockEntry4 V c t j (((cfg4.win 7).blk t).view.emb j) ?_ ?_
  · show win4_7.index t (0 : Fin 2) * 5000 + 1 * (j 0).val = 5000 * t.val + (j 0).val
    rw [e0]; omega
  · show win4_7.index t (1 : Fin 2) * 40 + 1 * (j 1).val = (j 1).val
    rw [e1]; omega

/-! ## The ten blocks tile the output array -/

/-- An index of the output array is in point t's block iff each coordinate is in the block's range on its axis. -/
theorem mem_blk4 (t : Fin cfg4.N) (i : S50000x40.Idx) :
    i ∈ ((cfg4.win 7).blk t).view.set ↔ ∀ a : Fin 2, win4_7.index t a * S5000x40.size a ≤ (i a).val ∧ (i a).val < win4_7.index t a * S5000x40.size a + S5000x40.size a := by
  show i ∈ ((View.whole main_v57).slice (win4_7.rect t)).set ↔ _
  rw [View.set_slice_whole, Rect.mem_set_unit]
  exact Iff.rfl

/-- Row r of the output array is in the block of point r / 5000, which writes back. -/
theorem cover4 (i : S50000x40.Idx) : ∃ t : Fin cfg4.N, (cfg4.win 7).flush t = true ∧ i ∈ ((cfg4.win 7).blk t).view.set := by
  have hi0 : (i 0).val < 50000 := (i 0).isLt
  have hi1 : (i 1).val < 40 := (i 1).isLt
  have hN : grid4.N = 10 := N_4
  have ht : (i 0).val / 5000 < grid4.N := by rw [hN]; omega
  obtain ⟨-, -, -, -, -, -, -, -, -, -, -, -, -, -, e0, e1⟩ := idx_facts4 ⟨(i 0).val / 5000, ht⟩
  refine ⟨⟨(i 0).val / 5000, ht⟩, flush4_7 _, ?_⟩
  rw [mem_blk4]
  intro a
  match a with
  | ⟨0, _⟩ =>
    show win4_7.index ⟨(i 0).val / 5000, ht⟩ (0 : Fin 2) * 5000 ≤ (i 0).val ∧ (i 0).val < win4_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, ht⟩ (1 : Fin 2) * 40 ≤ (i 1).val ∧ (i 1).val < win4_7.index ⟨(i 0).val / 5000, ht⟩ (1 : Fin 2) * 40 + 40
    rw [e1]; omega

/-- After the head's kernel has run over its ten row blocks, its output array (40 columns) is the affine layer of the
    rectified normalisation of its input arrays as the region found them (windows 0–6: the features, the mean row, the
    variance row, the scale row, the shift row, the weights, the bias row). -/
theorem value4 (c : Dev nD) :
    (dat4 V c).arrAt 7 cfg4.N
      = Cert.Spec.bnLinear (N := 50000) (K := 256) (D := 40) (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)) := by
  exact (dat4 V c).arrAt_eq_of_cover 7 (outArr V c) (fun t _ => flushed4_eq V c t) cover4

end Cert.KernelIdeal.RegionBn4

end
-- ==== Proof.KTake.lean ====
/- The precondition's last conjunct says every edge's source index is a node index, 0 ≤ i < 50000; for such indices the
   negative wrap does nothing, the in-bounds bit is set on every edge, and the NaN-filling gather is the plain gather. -/
import proofs.«417072_j36696200577384_1_alg».proof.Pre_finite_inputs
import proofs.«417072_j36696200577384_1_alg».proof.Proof.Gen.Pre_finite_inputs
import proofs.«417072_j36696200577384_1_alg».proof.Proof.Chain
import proofs.«417072_j36696200577384_1_alg».proof.Proof.KDefs
import Idealize.ShloMosaic.Lib.ValueIdx
import Idealize.ShloMosaic.Lib.ReduceAll
import Idealize.ShloMosaic.Lib.StableHlo.Predicate

noncomputable section

namespace Cert.KTake

open Idealize.ShloMosaic Idealize.ShloMosaic.ValueIdx
open Cert.ReferenceIdeal

/-- Every edge's source index is a node: `0 ≤ src e < 50000` as a signed 32-bit word. -/
def InRange (ei : IVec S2x800000 32) : Prop :=
  ∀ e : Fin 800000, 0 ≤ (Cert.Chain.src ei (ix1 e)).toInt ∧ (Cert.Chain.src ei (ix1 e)).toInt < 50000

/-- The signed values of the three literal words the range tests compare against. -/
private theorem toInt_w0 : (0#32 : BitVec 32).toInt = 0 := by decide
private theorem toInt_w50000 : (50000#32 : BitVec 32).toInt = 50000 := by decide
private theorem toInt_w49999 : (49999#32 : BitVec 32).toInt = 49999 := by decide

/-- The precondition gives the range of the source indices (its last conjunct). -/
theorem inRange_of_pre (a0 : FVec Ideal S50000x128 .f32) (a1 : IVec S2x800000 32) (a2 : FVec Ideal S_ .f32) (a3 : FVec Ideal S128x256 .f32) (a4 : FVec Ideal S256 .f32) (a5 : FVec Ideal S256 .f32) (a6 : FVec Ideal S256 .f32) (a7 : FVec Ideal S256x256 .f32) (a8 : FVec Ideal S256 .f32) (a9 : FVec Ideal S_ .f32) (a10 : FVec Ideal S256x256 .f32) (a11 : FVec Ideal S256 .f32) (a12 : FVec Ideal S256 .f32) (a13 : FVec Ideal S256 .f32) (a14 : FVec Ideal S256x256 .f32) (a15 : FVec Ideal S256 .f32) (a16 : FVec Ideal S256 .f32) (a17 : FVec Ideal S256 .f32) (a18 : FVec Ideal S256x40 .f32) (a19 : FVec Ideal S40 .f32)
    (h : Cert.Pre_finite_inputs.fn (F := Ideal) a0 a1 a2 a3 a4 a5 a6 a7 a8 a9 a10 a11 a12 a13 a14 a15 a16 a17 a18 a19 = fun _ => 1#1) : InRange a1 := by
  intro e
  haveI : Subsingleton (Cert.Pre_finite_inputs.S_).Idx := ⟨fun a b => funext fun d => d.elim0⟩
  -- the predicate's one bit, at its one index
  have h0 : Cert.Pre_finite_inputs.fn (F := Ideal) a0 a1 a2 a3 a4 a5 a6 a7 a8 a9 a10 a11 a12 a13 a14 a15 a16 a17 a18 a19 ix0 = 1#1 :=
    congrFun h ix0
  -- the function is the `and` of all earlier conjuncts with the last one: the last one is 1
  have h1 := (IntOp.andi_eq_one.1 h0).2
  -- the last conjunct is an and-reduction over all edges: its operand is 1 at edge `e`
  have h2 := IntOp.andi_eq_one.1 (Host.reduce_andi_all _ _ _ _ _ h1 (ix1 e))
  -- the operand at `e` is the `and` of the two signed compares of the source index
  have hge : (0#32 : BitVec 32).toInt ≤ (Cert.Chain.src a1 (ix1 e)).toInt := IntOp.cmpi_sge.1 h2.1
  have hlt : (Cert.Chain.src a1 (ix1 e)).toInt < (50000#32 : BitVec 32).toInt := IntOp.cmpi_slt.1 h2.2
  rw [toInt_w0] at hge
  rw [toInt_w50000] at hlt
  exact ⟨hge, hlt⟩

/-- A left fold by `and` from 1 over one-bit words that are all 1 is 1. -/
private theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 from by decide]
    exact ih

/-- An and-reduction from 1 of an array of one-bit words that are all 1 is 1 at every result index. -/
private theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x hx _

/-- A word in `[0, 49999]` passes both range tests. -/
private theorem andi_cmp_one (v : BitVec 32) (h0 : 0 ≤ v.toInt) (h1 : v.toInt ≤ 49999) :
    IntOp.andi (IntOp.cmpi .sge v 0#32) (IntOp.cmpi .sle v 49999#32) = 1#1 :=
  IntOp.andi_eq_one.2 ⟨IntOp.cmpi_sge.2 (by rw [toInt_w0]; exact h0), IntOp.cmpi_sle.2 (by rw [toInt_w49999]; exact h1)⟩

/-- The negative wrap leaves a nonnegative index as it is. -/
private theorem wrap_apply (i : IVec S800000 32) (k : S800000.Idx) (h0 : 0 ≤ (i k).toInt) : Cert.KDefs.wrap i k = i k := by
  show Scalar.select (IntOp.cmpi .slt (i k) 0#32) (IntOp.addi (i k) 50000#32) (i k) = i k
  have hn : ¬ IntOp.cmpi .slt (i k) 0#32 = 1#1 := by
    rw [IntOp.cmpi_slt, toInt_w0]; omega
  rw [eq_zero_of_ne_one hn, select_zero]

/-- With every index in range the in-bounds bit is set on every edge. -/
private theorem inBounds_eq_one (i : IVec S800000 32) (h : ∀ k, 0 ≤ (i k).toInt ∧ (i k).toInt < 50000) (k : S800000.Idx) :
    Cert.KDefs.inBounds i k = 1#1 := by
  have hw : Cert.KDefs.wrap i = i := funext fun k => wrap_apply i k (h k).1
  unfold Cert.KDefs.inBounds
  rw [hw]
  refine reduce_andi_ones _ _ _ _ (fun m => ?_) (fun _ => rfl) k
  -- the one-column index matrix at `m` is the index vector at `m`'s row
  obtain ⟨k', hk'⟩ : ∃ k', Cert.KDefs.col i m = i k' := ⟨_, rfl⟩
  show IntOp.andi (IntOp.cmpi .sge (Cert.KDefs.col i m) 0#32) (IntOp.cmpi .sle (Cert.KDefs.col i m) 49999#32) = 1#1
  rw [hk']
  exact andi_cmp_one _ (h k').1 (by have := (h k').2; omega)

/-- The range of the source indices at every index of the edge axis. -/
private theorem inRange_idx {ei : IVec S2x800000 32} (h : InRange ei) (k : S800000.Idx) :
    0 ≤ (Cert.Chain.src ei k).toInt ∧ (Cert.Chain.src ei k).toInt < 50000 := by
  have e : k = ix1 (k 0) := eq_ix1 k
  rw [e]
  exact h (k 0)

variable {F : FTy → Type} [FloatOps F]

/-- With every source index in range, the NaN-filling gather of the source rows is the plain gather (128 features). -/
theorem take128_eq (x : FVec F S50000x128 .f32) (ei : IVec S2x800000 32) (h : InRange ei) :
    Cert.KDefs.take128 x (Cert.Chain.src ei) = Cert.Chain.gather128 x ei := by
  funext j
  -- the select's condition at `j` is the in-bounds bit of `j`'s row, which is 1
  have hbit : ∀ c : IVec S800000 1, (∀ k, c k = 1#1) → ∀ {t : Shape} (dims : Fin S800000.rank → Fin t.rank)
      (hb : S800000.BroadcastsInDim t dims) (j : t.Idx), broadcastInDim t dims hb c j = 1#1 := fun c hc _ _ _ _ => hc _
  unfold Cert.KDefs.take128
  rw [select_apply, hbit _ (inBounds_eq_one _ (inRange_idx h)), select_one]
  rfl

/-- With every source index in range, the NaN-filling gather of the source rows is the plain gather (256 features). -/
theorem take256_eq (x : FVec F S50000x256 .f32) (ei : IVec S2x800000 32) (h : InRange ei) :
    Cert.KDefs.take256 x (Cert.Chain.src ei) = Cert.Chain.gather256 x ei := by
  funext j
  have hbit : ∀ c : IVec S800000 1, (∀ k, c k = 1#1) → ∀ {t : Shape} (dims : Fin S800000.rank → Fin t.rank)
      (hb : S800000.BroadcastsInDim t dims) (j : t.Idx), broadcastInDim t dims hb c j = 1#1 := fun c hc _ _ _ _ => hc _
  unfold Cert.KDefs.take256
  rw [select_apply, hbit _ (inBounds_eq_one _ (inRange_idx h)), select_one]
  rfl

end Cert.KTake

end
-- ==== Proof.Bridge.lean ====
/- The reference's whole-array host expressions for a layer, read entry by entry at the extended reals: each is the
   entry-wise layer function of Spec.lean, with every length-n vector that the host repeats down the rows read as the 1×n row. -/
import proofs.«417072_j36696200577384_1_alg».proof.Proof.Chain
import proofs.«417072_j36696200577384_1_alg».proof.Proof.KDefs
import proofs.«417072_j36696200577384_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.Bridge

open Idealize.ShloMosaic Idealize.ShloMosaic.ValueIdx
open Cert.ReferenceIdeal Cert.ReferenceIdeal.Gen

/-! ## The three contractions: each is the plain matrix product m×k by k×n -/

/-- The dimension numbers of the 128 → 256 product are those of the plain product: left axis 1 against right axis 0,
    no batch axis. -/
private theorem rec128 : dot_S50000x128_S128x256_S50000x256_1_0_0_1_n_n = DotDims.plain 50000 128 256 := rfl

/-- The same for the 256 → 256 product. -/
private theorem rec256 : dot_S50000x256_S256x256_S50000x256_1_0_0_1_n_n = DotDims.plain 50000 256 256 := rfl

/-- The same for the 256 → 40 product. -/
private theorem rec40 : dot_S50000x256_S256x40_S50000x40_1_0_0_1_n_n = DotDims.plain 50000 256 40 := rfl

/-- Entry (r, j) of the product h · W (128 → 256) is Σ_k h[r,k] · W[k,j]. -/
private theorem dot128_apply (h : FVec Ideal S50000x128 .f32) (W : FVec Ideal S128x256 .f32) (r : Fin 50000) (j : Fin 256) :
    Host.dotGeneral (F := Ideal) dot_S50000x128_S128x256_S50000x256_1_0_0_1_n_n none h W (ix2 r j)
      = ∑ k : Fin 128, h (ix2 r k) * W (ix2 k j) := by
  rw [rec128]
  exact Idealize.ShloMosaic.StackMember.dotGeneral_plain_apply none h W r j

/-- Entry (r, j) of the product h · W (256 → 256) is Σ_k h[r,k] · W[k,j]. -/
private theorem dot256_apply (h : FVec Ideal S50000x256 .f32) (W : FVec Ideal S256x256 .f32) (r : Fin 50000) (j : Fin 256) :
    Host.dotGeneral (F := Ideal) dot_S50000x256_S256x256_S50000x256_1_0_0_1_n_n none h W (ix2 r j)
      = ∑ k : Fin 256, h (ix2 r k) * W (ix2 k j) := by
  rw [rec256]
  exact Idealize.ShloMosaic.StackMember.dotGeneral_plain_apply none h W r j

/-- Entry (r, j) of the product h · W (256 → 40) is Σ_k h[r,k] · W[k,j]. -/
private theorem dot40_apply (h : FVec Ideal S50000x256 .f32) (W : FVec Ideal S256x40 .f32) (r : Fin 50000) (j : Fin 40) :
    Host.dotGeneral (F := Ideal) dot_S50000x256_S256x40_S50000x40_1_0_0_1_n_n none h W (ix2 r j)
      = ∑ k : Fin 256, h (ix2 r k) * W (ix2 k j) := by
  rw [rec40]
  exact Idealize.ShloMosaic.StackMember.dotGeneral_plain_apply none h W r j

/-! ## A vector repeated down the rows, and the same vector as a one-row matrix -/

/-- Entry (r, j) of a length-256 vector repeated down the rows is the vector's entry j, whatever the row. -/
private theorem rows256_apply (b : FVec Ideal S256 .f32) (r : Fin 50000) (j : Fin 256) :
    Cert.Chain.rows256 (F := Ideal) b (ix2 r j) = b (ix1 j) := by
  unfold Cert.Chain.rows256
  refine (broadcastInDim_apply _ _ _ _ (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- Entry (r, j) of a length-40 vector repeated down the rows is the vector's entry j. -/
private theorem rows40_apply (b : FVec Ideal S40 .f32) (r : Fin 50000) (j : Fin 40) :
    Cert.Chain.rows40 (F := Ideal) b (ix2 r j) = b (ix1 j) := by
  unfold Cert.Chain.rows40
  refine (broadcastInDim_apply _ _ _ _ (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- Entry (0, j) of a length-256 vector laid out as a 1×256 row is the vector's entry j. -/
private theorem row256_apply (b : FVec Ideal S256 .f32) (j : Fin 256) :
    Cert.KDefs.row256 (F := Ideal) b (ix2 (0 : Fin 1) j) = b (ix1 j) := by
  show shapeCast _ b _ (ix2 (0 : Fin 1) j) = _
  exact shapeCast_a_1a_apply b _ 0 j

/-- Entry (0, j) of a length-40 vector laid out as a 1×40 row is the vector's entry j. -/
private theorem row40_apply (b : FVec Ideal S40 .f32) (j : Fin 40) :
    Cert.KDefs.row40 (F := Ideal) b (ix2 (0 : Fin 1) j) = b (ix1 j) := by
  show shapeCast _ b _ (ix2 (0 : Fin 1) j) = _
  exact shapeCast_a_1a_apply b _ 0 j

/-! ## The rectifier and the normalisation at an entry -/

/-- Entry (r, j) of the rectified array is max(h[r,j], 0): the word 0x00000000 is the real number zero. -/
private theorem relu_apply (h : FVec Ideal S50000x256 .f32) (r : Fin 50000) (j : Fin 256) :
    Cert.Chain.relu (F := Ideal) h (ix2 r j) = max (h (ix2 r j)) 0 := by
  unfold Cert.Chain.relu
  rw [maximumf_apply, broadcastInDim_scalar_apply, constant_apply, Ideal.ofBits_zero_f32]

/-- Entry k of the reciprocal square root of v + ε. -/
private theorem rsqrtEps_apply (v : FVec Ideal S256 .f32) (k : Fin 256) :
    Host.rsqrt (F := Ideal) (addf v (broadcastInDim S256 ![] bcast_S_S256 (constant S_ .f32 0x3727C5AC#32))) (ix1 k)
      = Ideal.rsqrt (v (ix1 k) + Cert.Spec.eps) := by
  show FloatOps.hostUnary .rsqrt _ = _
  rw [Ideal.hostUnary_rsqrt_def, addf_apply, broadcastInDim_scalar_apply, constant_apply]
  rfl

/-- Entry (r, k) of the normalised array is ((u[r,k] − mu[k]) · rsqrt(v[k] + ε)) · g[k] + be[k], the entry-wise
    normalisation with the four statistics read as rows. -/
private theorem bn_apply (u : FVec Ideal S50000x256 .f32) (mu v g be : FVec Ideal S256 .f32) (r : Fin 50000) (k : Fin 256) :
    Cert.Chain.bn (F := Ideal) u mu v g be (ix2 r k)
      = Cert.Spec.normAt (N := 50000) (K := 256) u (Cert.KDefs.row256 (F := Ideal) mu) (Cert.KDefs.row256 (F := Ideal) v)
          (Cert.KDefs.row256 (F := Ideal) g) (Cert.KDefs.row256 (F := Ideal) be) r k := by
  unfold Cert.Chain.bn Cert.Spec.normAt
  rw [addf_apply, mulf_apply, mulf_apply, subf_apply, rows256_apply, rows256_apply, rows256_apply, rows256_apply,
    rsqrtEps_apply, row256_apply, row256_apply, row256_apply, row256_apply]

/-! ## The affine layers -/

/-- The host's h · W + b (128 → 256) is the entry-wise affine layer with the bias as a row. -/
theorem lin128_eq (h : FVec Ideal S50000x128 .f32) (W : FVec Ideal S128x256 .f32) (b : FVec Ideal S256 .f32) :
    Cert.Chain.lin128 (F := Ideal) h W b = Cert.Spec.linear (N := 50000) (K := 128) (D := 256) h W (Cert.KDefs.row256 (F := Ideal) b) := by
  funext i
  obtain ⟨r, j, rfl⟩ : ∃ (r : Fin 50000) (j : Fin 256), i = ix2 r j := ⟨i 0, i 1, eq_ix2 i⟩
  show Cert.Chain.lin128 (F := Ideal) h W b (ix2 r j)
    = (∑ k : Fin 128, h (ix2 r k) * W (ix2 k j)) + Cert.KDefs.row256 (F := Ideal) b (ix2 (0 : Fin 1) j)
  unfold Cert.Chain.lin128
  rw [addf_apply, dot128_apply, rows256_apply, row256_apply]

/-- The host's h · W + b (256 → 256). -/
theorem lin256_eq (h : FVec Ideal S50000x256 .f32) (W : FVec Ideal S256x256 .f32) (b : FVec Ideal S256 .f32) :
    Cert.Chain.lin256 (F := Ideal) h W b = Cert.Spec.linear (N := 50000) (K := 256) (D := 256) h W (Cert.KDefs.row256 (F := Ideal) b) := by
  funext i
  obtain ⟨r, j, rfl⟩ : ∃ (r : Fin 50000) (j : Fin 256), i = ix2 r j := ⟨i 0, i 1, eq_ix2 i⟩
  show Cert.Chain.lin256 (F := Ideal) h W b (ix2 r j)
    = (∑ k : Fin 256, h (ix2 r k) * W (ix2 k j)) + Cert.KDefs.row256 (F := Ideal) b (ix2 (0 : Fin 1) j)
  unfold Cert.Chain.lin256
  rw [addf_apply, dot256_apply, rows256_apply, row256_apply]

/-- The host's h · W + b (256 → 40). -/
private theorem lin40_eq (h : FVec Ideal S50000x256 .f32) (W : FVec Ideal S256x40 .f32) (b : FVec Ideal S40 .f32) :
    Cert.Chain.lin40 (F := Ideal) h W b = Cert.Spec.linear (N := 50000) (K := 256) (D := 40) h W (Cert.KDefs.row40 (F := Ideal) b) := by
  funext i
  obtain ⟨r, j, rfl⟩ : ∃ (r : Fin 50000) (j : Fin 40), i = ix2 r j := ⟨i 0, i 1, eq_ix2 i⟩
  show Cert.Chain.lin40 (F := Ideal) h W b (ix2 r j)
    = (∑ k : Fin 256, h (ix2 r k) * W (ix2 k j)) + Cert.KDefs.row40 (F := Ideal) b (ix2 (0 : Fin 1) j)
  unfold Cert.Chain.lin40
  rw [addf_apply, dot40_apply, rows40_apply, row40_apply]

/-! ## Normalise, rectify, affine layer -/

/-- The same without the final rectifier (256 → 256). -/
theorem bnLin256_eq (u : FVec Ideal S50000x256 .f32) (mu v g be : FVec Ideal S256 .f32) (W : FVec Ideal S256x256 .f32) (b : FVec Ideal S256 .f32) :
    Cert.Chain.lin256 (F := Ideal) (Cert.Chain.relu (Cert.Chain.bn u mu v g be)) W b
      = Cert.Spec.bnLinear (N := 50000) (K := 256) (D := 256) u (Cert.KDefs.row256 (F := Ideal) mu) (Cert.KDefs.row256 (F := Ideal) v)
          (Cert.KDefs.row256 (F := Ideal) g) (Cert.KDefs.row256 (F := Ideal) be) W (Cert.KDefs.row256 (F := Ideal) b) := by
  rw [lin256_eq]
  funext i
  obtain ⟨r, j, rfl⟩ : ∃ (r : Fin 50000) (j : Fin 256), i = ix2 r j := ⟨i 0, i 1, eq_ix2 i⟩
  show (∑ k : Fin 256, Cert.Chain.relu (F := Ideal) (Cert.Chain.bn u mu v g be) (ix2 r k) * W (ix2 k j))
      + Cert.KDefs.row256 (F := Ideal) b (ix2 (0 : Fin 1) j)
    = (∑ k : Fin 256, max (Cert.Spec.normAt (N := 50000) (K := 256) u (Cert.KDefs.row256 (F := Ideal) mu) (Cert.KDefs.row256 (F := Ideal) v)
          (Cert.KDefs.row256 (F := Ideal) g) (Cert.KDefs.row256 (F := Ideal) be) r k) 0 * W (ix2 k j))
      + Cert.KDefs.row256 (F := Ideal) b (ix2 (0 : Fin 1) j)
  refine congrArg₂ (· + ·) (Finset.sum_congr rfl fun k _ => ?_) rfl
  rw [relu_apply, bn_apply]

/-- Normalise with given statistics, rectify, affine layer (256 → 256), rectify: the host's expression is the entry-wise one. -/
theorem bnLinRelu256_eq (u : FVec Ideal S50000x256 .f32) (mu v g be : FVec Ideal S256 .f32) (W : FVec Ideal S256x256 .f32) (b : FVec Ideal S256 .f32) :
    Cert.Chain.relu (F := Ideal) (Cert.Chain.lin256 (Cert.Chain.relu (Cert.Chain.bn u mu v g be)) W b)
      = Cert.Spec.bnLinearRelu (N := 50000) (K := 256) (D := 256) u (Cert.KDefs.row256 (F := Ideal) mu) (Cert.KDefs.row256 (F := Ideal) v)
          (Cert.KDefs.row256 (F := Ideal) g) (Cert.KDefs.row256 (F := Ideal) be) W (Cert.KDefs.row256 (F := Ideal) b) := by
  rw [bnLin256_eq]
  funext i
  obtain ⟨r, j, rfl⟩ : ∃ (r : Fin 50000) (j : Fin 256), i = ix2 r j := ⟨i 0, i 1, eq_ix2 i⟩
  rw [relu_apply]
  rfl

/-- The head (256 → 40), no final rectifier. -/
theorem bnLin40_eq (u : FVec Ideal S50000x256 .f32) (mu v g be : FVec Ideal S256 .f32) (W : FVec Ideal S256x40 .f32) (b : FVec Ideal S40 .f32) :
    Cert.Chain.lin40 (F := Ideal) (Cert.Chain.relu (Cert.Chain.bn u mu v g be)) W b
      = Cert.Spec.bnLinear (N := 50000) (K := 256) (D := 40) u (Cert.KDefs.row256 (F := Ideal) mu) (Cert.KDefs.row256 (F := Ideal) v)
          (Cert.KDefs.row256 (F := Ideal) g) (Cert.KDefs.row256 (F := Ideal) be) W (Cert.KDefs.row40 (F := Ideal) b) := by
  rw [lin40_eq]
  funext i
  obtain ⟨r, j, rfl⟩ : ∃ (r : Fin 50000) (j : Fin 40), i = ix2 r j := ⟨i 0, i 1, eq_ix2 i⟩
  show (∑ k : Fin 256, Cert.Chain.relu (F := Ideal) (Cert.Chain.bn u mu v g be) (ix2 r k) * W (ix2 k j))
      + Cert.KDefs.row40 (F := Ideal) b (ix2 (0 : Fin 1) j)
    = (∑ k : Fin 256, max (Cert.Spec.normAt (N := 50000) (K := 256) u (Cert.KDefs.row256 (F := Ideal) mu) (Cert.KDefs.row256 (F := Ideal) v)
          (Cert.KDefs.row256 (F := Ideal) g) (Cert.KDefs.row256 (F := Ideal) be) r k) 0 * W (ix2 k j))
      + Cert.KDefs.row40 (F := Ideal) b (ix2 (0 : Fin 1) j)
  refine congrArg₂ (· + ·) (Finset.sum_congr rfl fun k _ => ?_) rfl
  rw [relu_apply, bn_apply]

end Cert.Bridge

end
-- ==== Proof.KValue.lean ====
/- The kernel program's result as the network's composition: region by region, the output array a region leaves is the
   layer function of the arrays it found (the region's value), those arrays are the host stretch's functions of the
   arguments and of the previous region's output (the stage lemmas), the NaN-filling gather is the plain gather on
   in-range source indices, and the entry-wise layer functions are the reference's whole-array expressions. -/
import proofs.«417072_j36696200577384_1_alg».proof.Proof.Gen.KernelIdeal.Frame
import proofs.«417072_j36696200577384_1_alg».proof.Proof.Chain
import proofs.«417072_j36696200577384_1_alg».proof.Proof.KDefs
import proofs.«417072_j36696200577384_1_alg».proof.Proof.Spec
import proofs.«417072_j36696200577384_1_alg».proof.Proof.KStages
import proofs.«417072_j36696200577384_1_alg».proof.Proof.KStagesR1
import proofs.«417072_j36696200577384_1_alg».proof.Proof.KStagesR2
import proofs.«417072_j36696200577384_1_alg».proof.Proof.KStages2
import proofs.«417072_j36696200577384_1_alg».proof.Proof.KStages3
import proofs.«417072_j36696200577384_1_alg».proof.Proof.RegionLin
import proofs.«417072_j36696200577384_1_alg».proof.Proof.RegionLin2
import proofs.«417072_j36696200577384_1_alg».proof.Proof.RegionBn
import proofs.«417072_j36696200577384_1_alg».proof.Proof.RegionBn3
import proofs.«417072_j36696200577384_1_alg».proof.Proof.RegionBn4
import proofs.«417072_j36696200577384_1_alg».proof.Proof.KTake
import proofs.«417072_j36696200577384_1_alg».proof.Proof.Bridge

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat Cfg Window)
open Cert.KernelIdeal.KStages

variable (m : (ℓ : Loc nD τ sig) → Buf (Elt Ideal) ℓ) (ρ : Dev nD → PrngReg)

/-- Region 0 leaves the first pre-activation `u1` in its output array. -/
theorem region0 (c : Dev nD) (hr : Cert.KTake.InRange (m ((c : Thread nD τ).loc main_arg1))) :
    W4 m ρ c (Proc.devRef .tc main_v13) = Cert.Chain.u1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h0 : (dat0 (V3 m ρ) c).arrAt 3 cfg0.N
      = Cert.Spec.linear (N := 50000) (K := 128) (D := 256) (V3 m ρ c main_v11) (V3 m ρ c main_arg3) (V3 m ρ c main_v12) :=
    Cert.KernelIdeal.RegionLin.value0 (V3 m ρ) c
  rw [V3_v11, V3_arg3, V3_v12, Cert.KTake.take128_eq _ _ hr, ← Cert.Bridge.lin128_eq] at h0
  exact (W4_arr m ρ c 3).trans h0

/-- Region 1 leaves the first block's output `h1` of what region 0 left. -/
theorem region1 (c : Dev nD) :
    W8 m ρ c (Proc.devRef .tc main_v23)
      = Cert.Chain.h1 (F := Ideal) (W4 m ρ c (Proc.devRef .tc main_v13)) (m ((c : Thread nD τ).loc main_arg5)) (m ((c : Thread nD τ).loc main_arg6)) (m ((c : Thread nD τ).loc main_arg7)) (m ((c : Thread nD τ).loc main_arg8)) := by
  have h1 : (dat1 (V7 m ρ) c).arrAt 7 cfg1.N
      = Cert.Spec.bnLinearRelu (N := 50000) (K := 256) (D := 256) (V7 m ρ c main_v13) (V7 m ρ c main_v18) (V7 m ρ c main_v19)
          (V7 m ρ c main_v20) (V7 m ρ c main_v21) (V7 m ρ c main_arg7) (V7 m ρ c main_v22) :=
    Cert.KernelIdeal.RegionBn.value1 (V7 m ρ) c
  rw [V7_v13, V7_v18, V7_v19, V7_v20, V7_v21, V7_arg7, V7_v22, ← Cert.Bridge.bnLinRelu256_eq] at h1
  exact (W8_arr m ρ c 7).trans h1

/-- Region 2 leaves the second pre-activation `u2` of what region 1 left. -/
theorem region2 (c : Dev nD) (hr : Cert.KTake.InRange (m ((c : Thread nD τ).loc main_arg1))) :
    W12 m ρ c (Proc.devRef .tc main_v37)
      = Cert.Chain.u2 (F := Ideal) (W8 m ρ c (Proc.devRef .tc main_v23)) (m ((c : Thread nD τ).loc main_arg1)) (m ((c : Thread nD τ).loc main_arg9)) (m ((c : Thread nD τ).loc main_arg10)) (m ((c : Thread nD τ).loc main_arg11)) := by
  have h2 : (dat2 (V11 m ρ) c).arrAt 3 cfg2.N
      = Cert.Spec.linear (N := 50000) (K := 256) (D := 256) (V11 m ρ c main_v35) (V11 m ρ c main_arg10) (V11 m ρ c main_v36) :=
    Cert.KernelIdeal.RegionLin2.value2 (V11 m ρ) c
  rw [V11_v35, V11_arg10, V11_v36, Cert.KTake.take256_eq _ _ hr, ← Cert.Bridge.lin256_eq] at h2
  exact (W12_arr m ρ c 3).trans h2

/-- Region 3 leaves the second block's output `h2` of what region 2 left. -/
theorem region3 (c : Dev nD) :
    W16 m ρ c (Proc.devRef .tc main_v47)
      = Cert.Chain.h2 (F := Ideal) (W12 m ρ c (Proc.devRef .tc main_v37)) (m ((c : Thread nD τ).loc main_arg12)) (m ((c : Thread nD τ).loc main_arg13)) (m ((c : Thread nD τ).loc main_arg14)) (m ((c : Thread nD τ).loc main_arg15)) := by
  have h3 : (dat3 (V15 m ρ) c).arrAt 7 cfg3.N
      = Cert.Spec.bnLinear (N := 50000) (K := 256) (D := 256) (V15 m ρ c main_v37) (V15 m ρ c main_v42) (V15 m ρ c main_v43)
          (V15 m ρ c main_v44) (V15 m ρ c main_v45) (V15 m ρ c main_arg14) (V15 m ρ c main_v46) :=
    Cert.KernelIdeal.RegionBn3.value3 (V15 m ρ) c
  rw [V15_v37, V15_v42, V15_v43, V15_v44, V15_v45, V15_arg14, V15_v46, ← Cert.Bridge.bnLin256_eq] at h3
  exact (W16_arr m ρ c 7).trans h3

/-- Region 4 leaves the head's output of what region 3 left. -/
theorem region4 (c : Dev nD) :
    W20 m ρ c (Proc.devRef .tc main_v57)
      = Cert.Chain.head (F := Ideal) (W16 m ρ c (Proc.devRef .tc main_v47)) (m ((c : Thread nD τ).loc main_arg16)) (m ((c : Thread nD τ).loc main_arg17)) (m ((c : Thread nD τ).loc main_arg18)) (m ((c : Thread nD τ).loc main_arg19)) := by
  have h4 : (dat4 (V19 m ρ) c).arrAt 7 cfg4.N
      = Cert.Spec.bnLinear (N := 50000) (K := 256) (D := 40) (V19 m ρ c main_v47) (V19 m ρ c main_v52) (V19 m ρ c main_v53)
          (V19 m ρ c main_v54) (V19 m ρ c main_v55) (V19 m ρ c main_arg18) (V19 m ρ c main_v56) :=
    Cert.KernelIdeal.RegionBn4.value4 (V19 m ρ) c
  rw [V19_v47, V19_v52, V19_v53, V19_v54, V19_v55, V19_arg18, V19_v56, ← Cert.Bridge.bnLin40_eq] at h4
  exact (W20_arr m ρ c 7).trans h4

/-- The result buffer at the last boundary is the whole network of the argument arrays, provided every source index is a node. -/
theorem out_eq (c : Dev nD) (hr : Cert.KTake.InRange (m ((c : Thread nD τ).loc main_arg1))) :
    W20 m ρ c (Proc.devRef .tc main_v57) = Cert.Chain.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [region4, region3, region2 m ρ c hr, region1, region0 m ρ c hr]
  rfl

end Cert.KernelIdeal.KValue

end
-- ==== Proof.RefRun.lean ====
/- The reference program's run read back: every weakly fair execution of its @main terminates with the result buffer at
   the network's composition `Cert.Chain.out` of the argument arrays, the arguments unchanged. -/
import proofs.«417072_j36696200577384_1_alg».proof.Proof.Gen.ReferenceIdeal
import proofs.«417072_j36696200577384_1_alg».proof.Proof.Chain
import Idealize.ShloMosaic.Lib.StableHlo.Run
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The operations, in order

The program's three windows, the three calls of the column-variance function unfolded at their call sites (its nineteen
operations and the three of the select it calls, over the call's own buffers), cut where a stage of the network ends. -/

/-- Up to the first pre-activation: the edge list's rows, the neighbour sums, the mix, the first affine layer. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    binary main_cst_1 main_arg2 main_v14 (addf : (⟨S_, .f32⟩ : BufTy).Contents (Elt F) → (⟨S_, .f32⟩ : BufTy).Contents (Elt F) → (⟨S_, .f32⟩ : BufTy).Contents (Elt F)),
    unary main_v14 main_v15 (broadcastInDim S50000x128 ![] bcast_S_S50000x128 : (⟨S_, .f32⟩ : BufTy).Contents (Elt F) → (⟨S50000x128, .f32⟩ : BufTy).Contents (Elt F)),
    binary main_v15 main_arg0 main_v16 (mulf : (⟨S50000x128, .f32⟩ : BufTy).Contents (Elt F) → (⟨S50000x128, .f32⟩ : BufTy).Contents (Elt F) → (⟨S50000x128, .f32⟩ : BufTy).Contents (Elt F)),
    binary main_v16 main_v13 main_v17 (addf : (⟨S50000x128, .f32⟩ : BufTy).Contents (Elt F) → (⟨S50000x128, .f32⟩ : BufTy).Contents (Elt F) → (⟨S50000x128, .f32⟩ : BufTy).Contents (Elt F)),
    binary main_v17 main_arg3 main_v18 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v19 (broadcastInDim S1x256 ![1] bcast_S256_S1x256_1 : (⟨S256, .f32⟩ : BufTy).Contents (Elt F) → (⟨S1x256, .f32⟩ : BufTy).Contents (Elt F)),
    unary main_v19 main_v20 (broadcastInDim S50000x256 ![0, 1] bcast_S1x256_S50000x256_0_1 : (⟨S1x256, .f32⟩ : BufTy).Contents (Elt F) → (⟨S50000x256, .f32⟩ : BufTy).Contents (Elt F)),
    binary main_v18 main_v20 main_v21 (addf : (⟨S50000x256, .f32⟩ : BufTy).Contents (Elt F) → (⟨S50000x256, .f32⟩ : BufTy).Contents (Elt F) → (⟨S50000x256, .f32⟩ : BufTy).Contents (Elt F)) ]

/-- The first block: column statistics, normalisation, rectifier, second affine layer, rectifier. -/
abbrev opsB : List (HloOp τ sig (Elt F)) :=
  [ nullary main_cst_2 (constant S_ .f32 0x00000000#32),
    binary main_v21 main_cst_2 main_v22 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_3 (constant S_ .f32 0x47435000#32),
    unary main_cst_3 main_v23 (broadcastInDim S256 ![] bcast_S_S256 : (⟨S_, .f32⟩ : BufTy).Contents (Elt F) → (⟨S256, .f32⟩ : BufTy).Contents (Elt F)),
    binary main_v22 main_v23 main_v24 (Host.divf : (⟨S256, .f32⟩ : BufTy).Contents (Elt F) → (⟨S256, .f32⟩ : BufTy).Contents (Elt F) → (⟨S256, .f32⟩ : BufTy).Contents (Elt F)),
    nullary main_c_4 (constantI S_ 32 0#32),
    TRef.nullary main_call0.cst (constant S_ .f32 0x00000000#32),
    TRef.binary (.of main_v21 : TRef sig ⟨S50000x256, .f32⟩) main_call0.cst main_call0.v0 (fun x v => Host.reduceAdd x v reducesTo_S50000x256_S256_d0 h_S_),
    TRef.unary main_call0.v0 main_call0.v1 (broadcastInDim S1x256 ![1] bcast_S256_S1x256_1),
    TRef.nullary main_call0.cst_0 (constant S_ .f32 0x47435000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S50000x256 ![0, 1] bcast_S1x256_S50000x256_0_1),
    TRef.binary (.of main_v21 : TRef sig ⟨S50000x256, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v24 main_v26 (broadcastInDim S1x256 ![1] bcast_S256_S1x256_1 : (⟨S256, .f32⟩ : BufTy).Contents (Elt F) → (⟨S1x256, .f32⟩ : BufTy).Contents (Elt F)),
    unary main_v26 main_v27 (broadcastInDim S50000x256 ![0, 1] bcast_S1x256_S50000x256_0_1 : (⟨S1x256, .f32⟩ : BufTy).Contents (Elt F) → (⟨S50000x256, .f32⟩ : BufTy).Contents (Elt F)),
    binary main_v21 main_v27 main_v28 (subf : (⟨S50000x256, .f32⟩ : BufTy).Contents (Elt F) → (⟨S50000x256, .f32⟩ : BufTy).Contents (Elt F) → (⟨S50000x256, .f32⟩ : BufTy).Contents (Elt F)),
    nullary main_cst_5 (constant S_ .f32 0x3727C5AC#32),
    unary main_cst_5 main_v29 (broadcastInDim S256 ![] bcast_S_S256 : (⟨S_, .f32⟩ : BufTy).Contents (Elt F) → (⟨S256, .f32⟩ : BufTy).Contents (Elt F)),
    binary main_v25 main_v29 main_v30 (addf : (⟨S256, .f32⟩ : BufTy).Contents (Elt F) → (⟨S256, .f32⟩ : BufTy).Contents (Elt F) → (⟨S256, .f32⟩ : BufTy).Contents (Elt F)),
    unary main_v30 main_v31 (Host.rsqrt : (⟨S256, .f32⟩ : BufTy).Contents (Elt F) → (⟨S256, .f32⟩ : BufTy).Contents (Elt F)),
    unary main_v31 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v28 main_v33 main_v34 (mulf : (⟨S50000x256, .f32⟩ : BufTy).Contents (Elt F) → (⟨S50000x256, .f32⟩ : BufTy).Contents (Elt F) → (⟨S50000x256, .f32⟩ : BufTy).Contents (Elt F)),
    unary main_arg5 main_v35 (broadcastInDim S1x256 ![1] bcast_S256_S1x256_1 : (⟨S256, .f32⟩ : BufTy).Contents (Elt F) → (⟨S1x256, .f32⟩ : BufTy).Contents (Elt F)),
    unary main_v35 main_v36 (broadcastInDim S50000x256 ![0, 1] bcast_S1x256_S50000x256_0_1 : (⟨S1x256, .f32⟩ : BufTy).Contents (Elt F) → (⟨S50000x256, .f32⟩ : BufTy).Contents (Elt F)),
    binary main_v34 main_v36 main_v37 (mulf : (⟨S50000x256, .f32⟩ : BufTy).Contents (Elt F) → (⟨S50000x256, .f32⟩ : BufTy).Contents (Elt F) → (⟨S50000x256, .f32⟩ : BufTy).Contents (Elt F)),
    unary main_arg6 main_v38 (broadcastInDim S1x256 ![1] bcast_S256_S1x256_1 : (⟨S256, .f32⟩ : BufTy).Contents (Elt F) → (⟨S1x256, .f32⟩ : BufTy).Contents (Elt F)),
    unary main_v38 main_v39 (broadcastInDim S50000x256 ![0, 1] bcast_S1x256_S50000x256_0_1 : (⟨S1x256, .f32⟩ : BufTy).Contents (Elt F) → (⟨S50000x256, .f32⟩ : BufTy).Contents (Elt F)),
    binary main_v37 main_v39 main_v40 (addf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x00000000#32),
    unary main_cst_6 main_v41 (broadcastInDim S50000x256 ![] bcast_S_S50000x256 : (⟨S_, .f32⟩ : BufTy).Contents (Elt F) → (⟨S50000x256, .f32⟩ : BufTy).Contents (Elt F)),
    binary main_v40 main_v41 main_v42 (maximumf : (⟨S50000x256, .f32⟩ : BufTy).Contents (Elt F) → (⟨S50000x256, .f32⟩ : BufTy).Contents (Elt F) → (⟨S50000x256, .f32⟩ : BufTy).Contents (Elt F)),
    binary main_v42 main_arg7 main_v43 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg8 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    nullary main_cst_7 (constant S_ .f32 0x00000000#32),
    unary main_cst_7 main_v47 (broadcastInDim S50000x256 ![] bcast_S_S50000x256 : (⟨S_, .f32⟩ : BufTy).Contents (Elt F) → (⟨S50000x256, .f32⟩ : BufTy).Contents (Elt F)),
    binary main_v46 main_v47 main_v48 (maximumf : (⟨S50000x256, .f32⟩ : BufTy).Contents (Elt F) → (⟨S50000x256, .f32⟩ : BufTy).Contents (Elt F) → (⟨S50000x256, .f32⟩ : BufTy).Contents (Elt F)) ]

/-- The source row of the edge list again (the last statement of the first window). -/
abbrev opC1 : HloOp τ sig (Elt F) :=
  unary main_arg1 main_v49 ((extractStridedSlice S1x800000 ![0, 0] · slices_S2x800000_S1x800000_0_0) : (⟨S2x800000, .i32⟩ : BufTy).Contents (Elt F) → (⟨S1x800000, .i32⟩ : BufTy).Contents (Elt F))

/-- Up to the second pre-activation. -/
abbrev opsC2 : List (HloOp τ sig (Elt F)) :=
  [ reshape main_v49 main_v50 rfl shapeCasts_S1x800000_S800000,
    unary main_arg1 main_v51 ((extractStridedSlice S1x800000 ![1, 0] · slices_S2x800000_S1x800000_1_0) : (⟨S2x800000, .i32⟩ : BufTy).Contents (Elt F) → (⟨S1x800000, .i32⟩ : BufTy).Contents (Elt F)),
    reshape main_v51 main_v52 rfl shapeCasts_S1x800000_S800000,
    nullary main_c_8 (constantI S_ 32 0#32),
    unary main_c_8 main_v53 (broadcastInDim S800000 ![] bcast_S_S800000 : (⟨S_, .i32⟩ : BufTy).Contents (Elt F) → (⟨S800000, .i32⟩ : BufTy).Contents (Elt F)),
    binary main_v50 main_v53 main_v54 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v55 (broadcastInDim S800000 ![] bcast_S_S800000 : (⟨S_, .i32⟩ : BufTy).Contents (Elt F) → (⟨S800000, .i32⟩ : BufTy).Contents (Elt F)),
    binary main_v50 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v50 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v48 main_v58 main_v59 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_10 (constant S_ .f32 0x00000000#32),
    unary main_cst_10 main_v60 (broadcastInDim S50000x256 ![] bcast_S_S50000x256 : (⟨S_, .f32⟩ : BufTy).Contents (Elt F) → (⟨S50000x256, .f32⟩ : BufTy).Contents (Elt F)),
    unary main_v52 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_11 (constant S_ .f32 0x3F800000#32),
    binary main_cst_11 main_arg9 main_v63 (addf : (⟨S_, .f32⟩ : BufTy).Contents (Elt F) → (⟨S_, .f32⟩ : BufTy).Contents (Elt F) → (⟨S_, .f32⟩ : BufTy).Contents (Elt F)),
    unary main_v63 main_v64 (broadcastInDim S50000x256 ![] bcast_S_S50000x256 : (⟨S_, .f32⟩ : BufTy).Contents (Elt F) → (⟨S50000x256, .f32⟩ : BufTy).Contents (Elt F)),
    binary main_v64 main_v48 main_v65 (mulf : (⟨S50000x256, .f32⟩ : BufTy).Contents (Elt F) → (⟨S50000x256, .f32⟩ : BufTy).Contents (Elt F) → (⟨S50000x256, .f32⟩ : BufTy).Contents (Elt F)),
    binary main_v65 main_v62 main_v66 (addf : (⟨S50000x256, .f32⟩ : BufTy).Contents (Elt F) → (⟨S50000x256, .f32⟩ : BufTy).Contents (Elt F) → (⟨S50000x256, .f32⟩ : BufTy).Contents (Elt F)),
    binary main_v66 main_arg10 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg11 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v67 main_v69 main_v70 (addf : (⟨S50000x256, .f32⟩ : BufTy).Contents (Elt F) → (⟨S50000x256, .f32⟩ : BufTy).Contents (Elt F) → (⟨S50000x256, .f32⟩ : BufTy).Contents (Elt F)) ]

/-- The second block: column statistics, normalisation, rectifier, fourth affine layer. -/
abbrev opsD : List (HloOp τ sig (Elt F)) :=
  [ nullary main_cst_12 (constant S_ .f32 0x00000000#32),
    binary main_v70 main_cst_12 main_v71 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_13 (constant S_ .f32 0x47435000#32),
    unary main_cst_13 main_v72 (broadcastInDim S256 ![] bcast_S_S256 : (⟨S_, .f32⟩ : BufTy).Contents (Elt F) → (⟨S256, .f32⟩ : BufTy).Contents (Elt F)),
    binary main_v71 main_v72 main_v73 (Host.divf : (⟨S256, .f32⟩ : BufTy).Contents (Elt F) → (⟨S256, .f32⟩ : BufTy).Contents (Elt F) → (⟨S256, .f32⟩ : BufTy).Contents (Elt F)),
    nullary main_c_14 (constantI S_ 32 0#32),
    TRef.nullary main_call1.cst (constant S_ .f32 0x00000000#32),
    TRef.binary (.of main_v70 : TRef sig ⟨S50000x256, .f32⟩) main_call1.cst main_call1.v0 (fun x v => Host.reduceAdd x v reducesTo_S50000x256_S256_d0 h_S_),
    TRef.unary main_call1.v0 main_call1.v1 (broadcastInDim S1x256 ![1] bcast_S256_S1x256_1),
    TRef.nullary main_call1.cst_0 (constant S_ .f32 0x47435000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S50000x256 ![0, 1] bcast_S1x256_S50000x256_0_1),
    TRef.binary (.of main_v70 : TRef sig ⟨S50000x256, .f32⟩) main_call1.v4 main_call1.v5 subf,
    TRef.binary main_call1.v5 main_call1.v5 main_call1.v6 mulf,
    TRef.unary (.of main_c_14 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v73 main_v75 (broadcastInDim S1x256 ![1] bcast_S256_S1x256_1 : (⟨S256, .f32⟩ : BufTy).Contents (Elt F) → (⟨S1x256, .f32⟩ : BufTy).Contents (Elt F)),
    unary main_v75 main_v76 (broadcastInDim S50000x256 ![0, 1] bcast_S1x256_S50000x256_0_1 : (⟨S1x256, .f32⟩ : BufTy).Contents (Elt F) → (⟨S50000x256, .f32⟩ : BufTy).Contents (Elt F)),
    binary main_v70 main_v76 main_v77 (subf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x3727C5AC#32),
    unary main_cst_15 main_v78 (broadcastInDim S256 ![] bcast_S_S256 : (⟨S_, .f32⟩ : BufTy).Contents (Elt F) → (⟨S256, .f32⟩ : BufTy).Contents (Elt F)),
    binary main_v74 main_v78 main_v79 (addf : (⟨S256, .f32⟩ : BufTy).Contents (Elt F) → (⟨S256, .f32⟩ : BufTy).Contents (Elt F) → (⟨S256, .f32⟩ : BufTy).Contents (Elt F)),
    unary main_v79 main_v80 (Host.rsqrt : (⟨S256, .f32⟩ : BufTy).Contents (Elt F) → (⟨S256, .f32⟩ : BufTy).Contents (Elt F)),
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S50000x256 ![0, 1] bcast_S1x256_S50000x256_0_1 : (⟨S1x256, .f32⟩ : BufTy).Contents (Elt F) → (⟨S50000x256, .f32⟩ : BufTy).Contents (Elt F)),
    binary main_v77 main_v82 main_v83 (mulf : (⟨S50000x256, .f32⟩ : BufTy).Contents (Elt F) → (⟨S50000x256, .f32⟩ : BufTy).Contents (Elt F) → (⟨S50000x256, .f32⟩ : BufTy).Contents (Elt F)),
    unary main_arg12 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v83 main_v85 main_v86 (mulf : (⟨S50000x256, .f32⟩ : BufTy).Contents (Elt F) → (⟨S50000x256, .f32⟩ : BufTy).Contents (Elt F) → (⟨S50000x256, .f32⟩ : BufTy).Contents (Elt F)),
    unary main_arg13 main_v87 (broadcastInDim S1x256 ![1] bcast_S256_S1x256_1 : (⟨S256, .f32⟩ : BufTy).Contents (Elt F) → (⟨S1x256, .f32⟩ : BufTy).Contents (Elt F)),
    unary main_v87 main_v88 (broadcastInDim S50000x256 ![0, 1] bcast_S1x256_S50000x256_0_1 : (⟨S1x256, .f32⟩ : BufTy).Contents (Elt F) → (⟨S50000x256, .f32⟩ : BufTy).Contents (Elt F)),
    binary main_v86 main_v88 main_v89 (addf : (⟨S50000x256, .f32⟩ : BufTy).Contents (Elt F) → (⟨S50000x256, .f32⟩ : BufTy).Contents (Elt F) → (⟨S50000x256, .f32⟩ : BufTy).Contents (Elt F)),
    nullary main_cst_16 (constant S_ .f32 0x00000000#32),
    unary main_cst_16 main_v90 (broadcastInDim S50000x256 ![] bcast_S_S50000x256 : (⟨S_, .f32⟩ : BufTy).Contents (Elt F) → (⟨S50000x256, .f32⟩ : BufTy).Contents (Elt F)),
    binary main_v89 main_v90 main_v91 (maximumf : (⟨S50000x256, .f32⟩ : BufTy).Contents (Elt F) → (⟨S50000x256, .f32⟩ : BufTy).Contents (Elt F) → (⟨S50000x256, .f32⟩ : BufTy).Contents (Elt F)),
    binary main_v91 main_arg14 main_v92 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg15 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v92 main_v94 main_v95 (addf : (⟨S50000x256, .f32⟩ : BufTy).Contents (Elt F) → (⟨S50000x256, .f32⟩ : BufTy).Contents (Elt F) → (⟨S50000x256, .f32⟩ : BufTy).Contents (Elt F)) ]

/-- The head's column means (the end of the second window). -/
abbrev opsE1 : List (HloOp τ sig (Elt F)) :=
  [ nullary main_cst_17 (constant S_ .f32 0x00000000#32),
    binary main_v95 main_cst_17 main_v96 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_18 (constant S_ .f32 0x47435000#32),
    unary main_cst_18 main_v97 (broadcastInDim S256 ![] bcast_S_S256 : (⟨S_, .f32⟩ : BufTy).Contents (Elt F) → (⟨S256, .f32⟩ : BufTy).Contents (Elt F)),
    binary main_v96 main_v97 main_v98 (Host.divf : (⟨S256, .f32⟩ : BufTy).Contents (Elt F) → (⟨S256, .f32⟩ : BufTy).Contents (Elt F) → (⟨S256, .f32⟩ : BufTy).Contents (Elt F)) ]

/-- The head: column variances, normalisation, rectifier, projection to the forty classes. -/
abbrev opsE2 : List (HloOp τ sig (Elt F)) :=
  [ nullary main_c_19 (constantI S_ 32 0#32),
    TRef.nullary main_call2.cst (constant S_ .f32 0x00000000#32),
    TRef.binary (.of main_v95 : TRef sig ⟨S50000x256, .f32⟩) main_call2.cst main_call2.v0 (fun x v => Host.reduceAdd x v reducesTo_S50000x256_S256_d0 h_S_),
    TRef.unary main_call2.v0 main_call2.v1 (broadcastInDim S1x256 ![1] bcast_S256_S1x256_1),
    TRef.nullary main_call2.cst_0 (constant S_ .f32 0x47435000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S50000x256 ![0, 1] bcast_S1x256_S50000x256_0_1),
    TRef.binary (.of main_v95 : TRef sig ⟨S50000x256, .f32⟩) main_call2.v4 main_call2.v5 subf,
    TRef.binary main_call2.v5 main_call2.v5 main_call2.v6 mulf,
    TRef.unary (.of main_c_19 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v98 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v95 main_v101 main_v102 (subf : (⟨S50000x256, .f32⟩ : BufTy).Contents (Elt F) → (⟨S50000x256, .f32⟩ : BufTy).Contents (Elt F) → (⟨S50000x256, .f32⟩ : BufTy).Contents (Elt F)),
    nullary main_cst_20 (constant S_ .f32 0x3727C5AC#32),
    unary main_cst_20 main_v103 (broadcastInDim S256 ![] bcast_S_S256 : (⟨S_, .f32⟩ : BufTy).Contents (Elt F) → (⟨S256, .f32⟩ : BufTy).Contents (Elt F)),
    binary main_v99 main_v103 main_v104 (addf : (⟨S256, .f32⟩ : BufTy).Contents (Elt F) → (⟨S256, .f32⟩ : BufTy).Contents (Elt F) → (⟨S256, .f32⟩ : BufTy).Contents (Elt F)),
    unary main_v104 main_v105 (Host.rsqrt : (⟨S256, .f32⟩ : BufTy).Contents (Elt F) → (⟨S256, .f32⟩ : BufTy).Contents (Elt F)),
    unary main_v105 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v102 main_v107 main_v108 (mulf : (⟨S50000x256, .f32⟩ : BufTy).Contents (Elt F) → (⟨S50000x256, .f32⟩ : BufTy).Contents (Elt F) → (⟨S50000x256, .f32⟩ : BufTy).Contents (Elt F)),
    unary main_arg16 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (mulf : (⟨S50000x256, .f32⟩ : BufTy).Contents (Elt F) → (⟨S50000x256, .f32⟩ : BufTy).Contents (Elt F) → (⟨S50000x256, .f32⟩ : BufTy).Contents (Elt F)),
    unary main_arg17 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v111 main_v113 main_v114 (addf : (⟨S50000x256, .f32⟩ : BufTy).Contents (Elt F) → (⟨S50000x256, .f32⟩ : BufTy).Contents (Elt F) → (⟨S50000x256, .f32⟩ : BufTy).Contents (Elt F)),
    nullary main_cst_21 (constant S_ .f32 0x00000000#32),
    unary main_cst_21 main_v115 (broadcastInDim S50000x256 ![] bcast_S_S50000x256 : (⟨S_, .f32⟩ : BufTy).Contents (Elt F) → (⟨S50000x256, .f32⟩ : BufTy).Contents (Elt F)),
    binary main_v114 main_v115 main_v116 (maximumf : (⟨S50000x256, .f32⟩ : BufTy).Contents (Elt F) → (⟨S50000x256, .f32⟩ : BufTy).Contents (Elt F) → (⟨S50000x256, .f32⟩ : BufTy).Contents (Elt F)),
    binary main_v116 main_arg18 main_v117 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg19 main_v118 (broadcastInDim S1x40 ![1] bcast_S40_S1x40_1 : (⟨S40, .f32⟩ : BufTy).Contents (Elt F) → (⟨S1x40, .f32⟩ : BufTy).Contents (Elt F)),
    unary main_v118 main_v119 (broadcastInDim S50000x40 ![0, 1] bcast_S1x40_S50000x40_0_1 : (⟨S1x40, .f32⟩ : BufTy).Contents (Elt F) → (⟨S50000x40, .f32⟩ : BufTy).Contents (Elt F)),
    binary main_v117 main_v119 main_v120 (addf : (⟨S50000x40, .f32⟩ : BufTy).Contents (Elt F) → (⟨S50000x40, .f32⟩ : BufTy).Contents (Elt F) → (⟨S50000x40, .f32⟩ : BufTy).Contents (Elt F)) ]

/-- All of them. -/
abbrev ops : List (HloOp τ sig (Elt F)) :=
  opsA ++ (opsB ++ ([opC1] ++ (opsC2 ++ (opsD ++ (opsE1 ++ opsE2)))))

/-! ## What the run asks of each operation -/

/-- An operation touches TensorCore buffers only, determines its results, and writes a buffer past the twenty argument
    buffers (which head the table). -/
def Good (op : HloOp τ sig (Elt F)) : Prop :=
  op.bufs ⊆ tcRefs τ sig ∧ op.fresh = ∅ ∧ ∀ b ∈ op.writes, 20 ≤ b.idx.val

private theorem late_single {y : Ref sig .tc} (h : 20 ≤ y.idx.val) :
    ∀ b ∈ ({Proc.devRef .tc y} : Finset (DevRef τ sig)), 20 ≤ b.idx.val := fun b hb => by
  rw [Finset.mem_singleton.1 hb]; exact h

theorem good_nullary {y : Ref sig .tc} {v : y.ty.Contents (Elt F)} {hy} (h : 20 ≤ y.idx.val) :
    Good (nullary (τ := τ) y v hy) := ⟨nullary_bufs_sub .., rfl, late_single h⟩
theorem good_unary {x y : Ref sig .tc} {f : x.ty.Contents (Elt F) → y.ty.Contents (Elt F)} {hx hy} (h : 20 ≤ y.idx.val) :
    Good (unary (τ := τ) x y f hx hy) := ⟨unary_bufs_sub .., rfl, late_single h⟩
theorem good_binary {a b y : Ref sig .tc} {f : a.ty.Contents (Elt F) → b.ty.Contents (Elt F) → y.ty.Contents (Elt F)} {ha hb hy}
    (h : 20 ≤ y.idx.val) : Good (binary (τ := τ) a b y f ha hb hy) := ⟨binary_bufs_sub .., rfl, late_single h⟩
theorem good_ternary {c a b y : Ref sig .tc}
    {f : c.ty.Contents (Elt F) → a.ty.Contents (Elt F) → b.ty.Contents (Elt F) → y.ty.Contents (Elt F)} {hc ha hb hy}
    (h : 20 ≤ y.idx.val) : Good (ternary (τ := τ) c a b y f hc ha hb hy) := ⟨ternary_bufs_sub .., rfl, late_single h⟩
theorem good_reshape {x y : Ref sig .tc} {he hn hx hy} (h : 20 ≤ y.idx.val) :
    Good (reshape (τ := τ) (Val := Elt F) x y he hn hx hy) := ⟨reshape_bufs_sub .., rfl, late_single h⟩

theorem goodA : (opsA : List (HloOp τ sig (Elt F))).Forall Good :=
  ⟨good_unary (by decide), good_reshape (by decide), good_unary (by decide), good_reshape (by decide), good_nullary (by decide), good_unary (by decide), good_binary (by decide), good_nullary (by decide), good_unary (by decide), good_binary (by decide), good_ternary (by decide), good_unary (by decide), good_binary (by decide), good_nullary (by decide), good_unary (by decide), good_unary (by decide), good_ternary (by decide), good_nullary (by decide), good_binary (by decide), good_unary (by decide), good_binary (by decide), good_binary (by decide), good_binary (by decide), good_unary (by decide), good_unary (by decide), good_binary (by decide)⟩
theorem goodB : (opsB : List (HloOp τ sig (Elt F))).Forall Good :=
  ⟨good_nullary (by decide), good_binary (by decide), good_nullary (by decide), good_unary (by decide), good_binary (by decide), good_nullary (by decide), good_nullary (by decide), good_binary (by decide), good_unary (by decide), good_nullary (by decide), good_unary (by decide), good_binary (by decide), good_unary (by decide), good_binary (by decide), good_binary (by decide), good_unary (by decide), good_nullary (by decide), good_binary (by decide), good_nullary (by decide), good_binary (by decide), good_unary (by decide), good_binary (by decide), good_nullary (by decide), good_binary (by decide), good_nullary (by decide), good_unary (by decide), good_unary (by decide), good_ternary (by decide), good_unary (by decide), good_unary (by decide), good_binary (by decide), good_nullary (by decide), good_unary (by decide), good_binary (by decide), good_unary (by decide), good_unary (by decide), good_unary (by decide), good_binary (by decide), good_unary (by decide), good_unary (by decide), good_binary (by decide), good_unary (by decide), good_unary (by decide), good_binary (by decide), good_nullary (by decide), good_unary (by decide), good_binary (by decide), good_binary (by decide), good_unary (by decide), good_unary (by decide), good_binary (by decide), good_nullary (by decide), good_unary (by decide), good_binary (by decide)⟩
theorem goodC1 : Good (opC1 : HloOp τ sig (Elt F)) :=
  good_unary (by decide)
theorem goodC2 : (opsC2 : List (HloOp τ sig (Elt F))).Forall Good :=
  ⟨good_reshape (by decide), good_unary (by decide), good_reshape (by decide), good_nullary (by decide), good_unary (by decide), good_binary (by decide), good_nullary (by decide), good_unary (by decide), good_binary (by decide), good_ternary (by decide), good_unary (by decide), good_binary (by decide), good_nullary (by decide), good_unary (by decide), good_unary (by decide), good_ternary (by decide), good_nullary (by decide), good_binary (by decide), good_unary (by decide), good_binary (by decide), good_binary (by decide), good_binary (by decide), good_unary (by decide), good_unary (by decide), good_binary (by decide)⟩
theorem goodD : (opsD : List (HloOp τ sig (Elt F))).Forall Good :=
  ⟨good_nullary (by decide), good_binary (by decide), good_nullary (by decide), good_unary (by decide), good_binary (by decide), good_nullary (by decide), good_nullary (by decide), good_binary (by decide), good_unary (by decide), good_nullary (by decide), good_unary (by decide), good_binary (by decide), good_unary (by decide), good_binary (by decide), good_binary (by decide), good_unary (by decide), good_nullary (by decide), good_binary (by decide), good_nullary (by decide), good_binary (by decide), good_unary (by decide), good_binary (by decide), good_nullary (by decide), good_binary (by decide), good_nullary (by decide), good_unary (by decide), good_unary (by decide), good_ternary (by decide), good_unary (by decide), good_unary (by decide), good_binary (by decide), good_nullary (by decide), good_unary (by decide), good_binary (by decide), good_unary (by decide), good_unary (by decide), good_unary (by decide), good_binary (by decide), good_unary (by decide), good_unary (by decide), good_binary (by decide), good_unary (by decide), good_unary (by decide), good_binary (by decide), good_nullary (by decide), good_unary (by decide), good_binary (by decide), good_binary (by decide), good_unary (by decide), good_unary (by decide), good_binary (by decide)⟩
theorem goodE1 : (opsE1 : List (HloOp τ sig (Elt F))).Forall Good :=
  ⟨good_nullary (by decide), good_binary (by decide), good_nullary (by decide), good_unary (by decide), good_binary (by decide)⟩
theorem goodE2 : (opsE2 : List (HloOp τ sig (Elt F))).Forall Good :=
  ⟨good_nullary (by decide), good_nullary (by decide), good_binary (by decide), good_unary (by decide), good_nullary (by decide), good_unary (by decide), good_binary (by decide), good_unary (by decide), good_binary (by decide), good_binary (by decide), good_unary (by decide), good_nullary (by decide), good_binary (by decide), good_nullary (by decide), good_binary (by decide), good_unary (by decide), good_binary (by decide), good_nullary (by decide), good_binary (by decide), good_nullary (by decide), good_unary (by decide), good_unary (by decide), good_ternary (by decide), good_unary (by decide), good_unary (by decide), good_binary (by decide), good_nullary (by decide), good_unary (by decide), good_binary (by decide), good_unary (by decide), good_unary (by decide), good_unary (by decide), good_binary (by decide), good_unary (by decide), good_unary (by decide), good_binary (by decide), good_unary (by decide), good_unary (by decide), good_binary (by decide), good_nullary (by decide), good_unary (by decide), good_binary (by decide), good_binary (by decide), good_unary (by decide), good_unary (by decide), good_binary (by decide)⟩

/-! ## @main is that line -/

theorem part0_eq (d : Dev nD) : main_part0 (F := F) d = seq (opsA ++ (opsB ++ [opC1])) := by chain_rfl
theorem part1_eq (d : Dev nD) : main_part1 (F := F) d = seq (opsC2 ++ (opsD ++ opsE1)) := by chain_rfl
theorem part2_eq (d : Dev nD) : main_part2 (F := F) d = seq opsE2 := by chain_rfl

/-- @main runs its three windows in order, and they are the line. -/
theorem main_eq (d : Dev nD) : main (F := F) d = seq ops := by
  have h : main (F := F) d = main_part0 d >>= fun _ => main_part1 d >>= fun _ => main_part2 d := rfl
  rw [h, part0_eq, part1_eq, part2_eq, ← seq_append, ← seq_append]
  simp only [ops, List.append_assoc]

/-! ## What each stage computes

The fold of a stage's operations, read at the stage's last buffer, is the stage's function of the buffers it starts from: each
operation's result at its own buffer is its function of its operands' contents, at any other buffer what was there. The
two sides are then the same term; the reductions, the gathers and the scatters stay folded while they are compared. -/

attribute [local irreducible] Host.gather Host.scatterAdd Host.reduceAdd in
theorem valA (V : Valuation τ sig (Elt F)) :
    after opsA V (main_v21 : DevRef τ sig)
      = Cert.Chain.u1 (V (main_arg0 : DevRef τ sig)) (V (main_arg1 : DevRef τ sig)) (V (main_arg2 : DevRef τ sig)) (V (main_arg3 : DevRef τ sig)) (V (main_arg4 : DevRef τ sig)) := by
  after_results_simp
  rfl

attribute [local irreducible] Host.gather Host.scatterAdd Host.reduceAdd in
theorem valB (V : Valuation τ sig (Elt F)) :
    after opsB V (main_v48 : DevRef τ sig)
      = Cert.Chain.h1 (V (main_v21 : DevRef τ sig)) (V (main_arg5 : DevRef τ sig)) (V (main_arg6 : DevRef τ sig)) (V (main_arg7 : DevRef τ sig)) (V (main_arg8 : DevRef τ sig)) := by
  after_results_simp
  rfl

attribute [local irreducible] Host.gather Host.scatterAdd Host.reduceAdd in
theorem valC (V : Valuation τ sig (Elt F)) :
    after opsC2 (after [opC1] V) (main_v70 : DevRef τ sig)
      = Cert.Chain.u2 (V (main_v48 : DevRef τ sig)) (V (main_arg1 : DevRef τ sig)) (V (main_arg9 : DevRef τ sig)) (V (main_arg10 : DevRef τ sig)) (V (main_arg11 : DevRef τ sig)) := by
  after_results_simp
  rfl

attribute [local irreducible] Host.gather Host.scatterAdd Host.reduceAdd in
theorem valD (V : Valuation τ sig (Elt F)) :
    after opsD V (main_v95 : DevRef τ sig)
      = Cert.Chain.h2 (V (main_v70 : DevRef τ sig)) (V (main_arg12 : DevRef τ sig)) (V (main_arg13 : DevRef τ sig)) (V (main_arg14 : DevRef τ sig)) (V (main_arg15 : DevRef τ sig)) := by
  after_results_simp
  rfl

attribute [local irreducible] Host.gather Host.scatterAdd Host.reduceAdd in
theorem valE (V : Valuation τ sig (Elt F)) :
    after opsE2 (after opsE1 V) (main_v120 : DevRef τ sig)
      = Cert.Chain.head (V (main_v95 : DevRef τ sig)) (V (main_arg16 : DevRef τ sig)) (V (main_arg17 : DevRef τ sig)) (V (main_arg18 : DevRef τ sig)) (V (main_arg19 : DevRef τ sig)) := by
  after_results_simp
  rfl

/-! ## The whole line -/

/-- A line of such operations leaves the first twenty buffers of the table as they were. -/
theorem keep {L : List (HloOp τ sig (Elt F))} (hL : L.Forall Good) (V : Valuation τ sig (Elt F)) {b : DevRef τ sig}
    (hb : b.idx.val < 20) : after L V b = V b :=
  after_of_forall_not_mem L V fun op hop hm =>
    absurd ((List.forall_iff_forall_mem.1 hL op hop).2.2 b hm) (Nat.not_le.2 hb)

theorem good_ops : (ops : List (HloOp τ sig (Elt F))).Forall Good :=
  List.forall_append.2 ⟨goodA, List.forall_append.2 ⟨goodB, List.forall_append.2 ⟨goodC1, List.forall_append.2 ⟨goodC2,
    List.forall_append.2 ⟨goodD, List.forall_append.2 ⟨goodE1, goodE2⟩⟩⟩⟩⟩⟩

/-- The fold over the line is the stages' folds, one after the other. -/
theorem after_ops (V : Valuation τ sig (Elt F)) :
    after ops V = after opsE2 (after opsE1 (after opsD (after opsC2 (after [opC1] (after opsB (after opsA V)))))) := by
  simp only [ops, after_append]

/-- The result buffer after the line holds the network's composition of the arguments: each stage's value lemma in turn, a
    stage reading the stage before it at that stage's last buffer and the arguments where every earlier stage left them. -/
theorem out_eq (V : Valuation τ sig (Elt F)) :
    after ops V (main_v120 : DevRef τ sig)
      = Cert.Chain.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  rw [after_ops, valE, valD, valC, valB, valA]
  simp (disch := decide) only [keep goodD, keep goodC2, keep (L := [opC1]) goodC1, keep goodB, keep goodA]
  rfl

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120)
        = Cert.Chain.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v120).trans (out_eq _),
      (h c main_arg0).trans (keep good_ops _ (b := (main_arg0 : DevRef τ sig)) (by decide)),
      (h c main_arg1).trans (keep good_ops _ (b := (main_arg1 : DevRef τ sig)) (by decide)),
      (h c main_arg2).trans (keep good_ops _ (b := (main_arg2 : DevRef τ sig)) (by decide)),
      (h c main_arg3).trans (keep good_ops _ (b := (main_arg3 : DevRef τ sig)) (by decide)),
      (h c main_arg4).trans (keep good_ops _ (b := (main_arg4 : DevRef τ sig)) (by decide)),
      (h c main_arg5).trans (keep good_ops _ (b := (main_arg5 : DevRef τ sig)) (by decide)),
      (h c main_arg6).trans (keep good_ops _ (b := (main_arg6 : DevRef τ sig)) (by decide)),
      (h c main_arg7).trans (keep good_ops _ (b := (main_arg7 : DevRef τ sig)) (by decide)),
      (h c main_arg8).trans (keep good_ops _ (b := (main_arg8 : DevRef τ sig)) (by decide)),
      (h c main_arg9).trans (keep good_ops _ (b := (main_arg9 : DevRef τ sig)) (by decide)),
      (h c main_arg10).trans (keep good_ops _ (b := (main_arg10 : DevRef τ sig)) (by decide)),
      (h c main_arg11).trans (keep good_ops _ (b := (main_arg11 : DevRef τ sig)) (by decide)),
      (h c main_arg12).trans (keep good_ops _ (b := (main_arg12 : DevRef τ sig)) (by decide)),
      (h c main_arg13).trans (keep good_ops _ (b := (main_arg13 : DevRef τ sig)) (by decide)),
      (h c main_arg14).trans (keep good_ops _ (b := (main_arg14 : DevRef τ sig)) (by decide)),
      (h c main_arg15).trans (keep good_ops _ (b := (main_arg15 : DevRef τ sig)) (by decide)),
      (h c main_arg16).trans (keep good_ops _ (b := (main_arg16 : DevRef τ sig)) (by decide)),
      (h c main_arg17).trans (keep good_ops _ (b := (main_arg17 : DevRef τ sig)) (by decide)),
      (h c main_arg18).trans (keep good_ops _ (b := (main_arg18 : DevRef τ sig)) (by decide)),
      (h c main_arg19).trans (keep good_ops _ (b := (main_arg19 : DevRef τ sig)) (by decide))⟩)
    (run_seq scopedRefs_eq scopedSems_eq defs main (fun _ => ops) main_eq
      (fun _ => List.Forall.imp (fun _ h => h.1) good_ops) m ρ
      (fun _ op hop => (List.forall_iff_forall_mem.1 good_ops op hop).2.1))

end Cert.ReferenceIdeal.Value

end
-- ==== Proof.lean ====
/- The certificate: the two kernel programs' frames are the generated ones; the reference's frame is its run with the
   result dropped; the idealization rewrote nothing; and at the extended reals both programs end with the result buffer at the
   same composition of whole-array operations (`Cert.Chain.out`) of arguments that agree — the kernel program because each
   of its five regions computes its layer block by block and its NaN-filling gather is the plain gather on the node indices
   the precondition admits, the reference because that composition is its own @main. -/
import proofs.«417072_j36696200577384_1_alg».proof.Defs
import proofs.«417072_j36696200577384_1_alg».proof.Proof.Gen.Kernel
import proofs.«417072_j36696200577384_1_alg».proof.Proof.Gen.Kernel.Skeleton
import proofs.«417072_j36696200577384_1_alg».proof.Proof.Gen.Kernel.Launch
import proofs.«417072_j36696200577384_1_alg».proof.Proof.Gen.Kernel.Points
import proofs.«417072_j36696200577384_1_alg».proof.Proof.Gen.Kernel.Frame
import proofs.«417072_j36696200577384_1_alg».proof.Proof.Gen.KernelIdeal
import proofs.«417072_j36696200577384_1_alg».proof.Proof.Gen.KernelIdeal.Skeleton
import proofs.«417072_j36696200577384_1_alg».proof.Proof.Gen.KernelIdeal.Launch
import proofs.«417072_j36696200577384_1_alg».proof.Proof.Gen.KernelIdeal.Points
import proofs.«417072_j36696200577384_1_alg».proof.Proof.Gen.KernelIdeal.Frame
import proofs.«417072_j36696200577384_1_alg».proof.Proof.Gen.ReferenceIdeal
import proofs.«417072_j36696200577384_1_alg».proof.Proof.Gen.Pre_finite_inputs
import proofs.«417072_j36696200577384_1_alg».proof.Proof.KRun
import proofs.«417072_j36696200577384_1_alg».proof.Proof.KValue
import proofs.«417072_j36696200577384_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's composition of the (agreeing) arguments in the result buffer. -/
theorem algebraic : Cert.algebraic_KernelIdeal_ReferenceIdeal := by
  intro m ρ m' ρ' hpre hagree
  refine ⟨fun c => Cert.Chain.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ⟨(h c).1.trans ?_, (h c).2⟩)
      (Cert.KernelIdeal.GenP.run_out (F := Ideal) m ρ)
    exact Cert.KernelIdeal.KValue.out_eq m ρ c (Cert.KTake.inRange_of_pre _ _ _ _ _ _ _ _ _ _ _ _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
